-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x128 : Shape := ⟨2, ![256, 128]⟩
abbrev S8192x16384 : Shape := ⟨2, ![8192, 16384]⟩
abbrev S8192 : Shape := ⟨1, ![8192]⟩
abbrev S16384 : Shape := ⟨1, ![16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S8192x16384 : S_.BroadcastsInDim S8192x16384 (![] : Fin 0 → Fin S8192x16384.rank)
  reducesTo_S8192x16384_S_d0_1 : S8192x16384.ReducesTo [0, 1] S_
  bcast_S_S8192 : S_.BroadcastsInDim S8192 (![] : Fin 0 → Fin S8192.rank)
  reducesTo_S8192_S_d0 : S8192.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  main_v23

def fn {F : FTy → Type} [FloatOps F] (main_arg0 : FVec F S16384x256 .f32) (main_arg1 : FVec F S256x128 .f32) (main_arg2 : FVec F S8192x16384 .f32) (main_arg3 : FVec F S8192 .f32) (main_arg4 : FVec F S16384 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S8192x16384 .f32 := Host.absf main_arg2
  let main_cst_2 : FVec F S_ .f32 := constant S_ .f32 0x7F800000#32
  let main_v10 : FVec F S8192x16384 .f32 := broadcastInDim S8192x16384 ![] bcast_S_S8192x16384 main_cst_2
  let main_v11 : IVec S8192x16384 1 := cmpf .olt main_v9 main_v10
  let main_c_3 : IVec S_ 1 := constantI S_ 1 1#1
  let main_v12 : IVec S_ 1 := (fun x v => Host.reduce IntOp.andi x v reducesTo_S8192x16384_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S16384x256 : Shape := ⟨2, ![16384, 256]⟩
abbrev S256x128 : Shape := ⟨2, ![256, 128]⟩
abbrev S8192x16384 : Shape := ⟨2, ![8192, 16384]⟩
abbrev S8192 : Shape := ⟨1, ![8192]⟩
abbrev S16384 : Shape := ⟨1, ![16384]⟩
abbrev S16384x128 : Shape := ⟨2, ![16384, 128]⟩
abbrev S2048x256 : Shape := ⟨2, ![2048, 256]⟩
abbrev S2048x128 : Shape := ⟨2, ![2048, 128]⟩
abbrev S8192x1 : Shape := ⟨2, ![8192, 1]⟩
abbrev S16384x1 : Shape := ⟨2, ![16384, 1]⟩
abbrev S8192x128 : Shape := ⟨2, ![8192, 128]⟩
abbrev S2048x2048 : Shape := ⟨2, ![2048, 2048]⟩
abbrev S2048x1 : Shape := ⟨2, ![2048, 1]⟩

abbrev nBuf : Space → Nat
  | .hbm => 10
  | .vmem => 23
  | .smem => 0
  | _ => 0

abbrev bufTy : (tb : Table) → Fin (tcTables nBuf tb) → BufTy
  | .hbm, ⟨0, _⟩ => ⟨S16384x256, .f32⟩
  | .hbm, ⟨1, _⟩ => ⟨S256x128, .f32⟩
  | .hbm, ⟨2, _⟩ => ⟨S8192x16384, .f32⟩
  | .hbm, ⟨3, _⟩ => ⟨S8192, .f32⟩
  | .hbm, ⟨4, _⟩ => ⟨S16384, .f32⟩
  | .hbm, ⟨5, _⟩ => ⟨S16384x128, .f32⟩
  | .hbm, ⟨6, _⟩ => ⟨S8192x1, .f32⟩
  | .hbm, ⟨7, _⟩ => ⟨S16384x1, .f32⟩
  | .hbm, ⟨8, _⟩ => ⟨S8192x128, .f32⟩
  | .hbm, ⟨9, _⟩ => ⟨S16384x128, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S2048x128, .f32⟩
  | .local _ .vmem, ⟨4, _⟩ => ⟨S2048x128, .f32⟩
  | .local _ .vmem, ⟨5, _⟩ => ⟨S2048x2048, .f32⟩
  | .local _ .vmem, ⟨6, _⟩ => ⟨S2048x2048, .f32⟩
  | .local _ .vmem, ⟨7, _⟩ => ⟨S2048x128, .f32⟩
  | .local _ .vmem, ⟨8, _⟩ => ⟨S2048x128, .f32⟩
  | .local _ .vmem, ⟨9, _⟩ => ⟨S2048x1, .f32⟩
  | .local _ .vmem, ⟨10, _⟩ => ⟨S2048x1, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x2048, .f32⟩
  | .local _ .vmem, ⟨15, _⟩ => ⟨S2048x2048, .f32⟩
  | .local _ .vmem, ⟨16, _⟩ => ⟨S2048x128, .f32⟩
  | .local _ .vmem, ⟨17, _⟩ => ⟨S2048x128, .f32⟩
  | .local _ .vmem, ⟨18, _⟩ => ⟨S2048x1, .f32⟩
  | .local _ .vmem, ⟨19, _⟩ => ⟨S2048x1, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S2048x256_S2048x256_0_0 : ∀ a, (![0, 0] : Fin 2 → Nat) a + S2048x256.size a ≤ S2048x256.size a
  h_S2048x256 : 0 < S2048x256.numel
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  shapeCasts_S8192_S8192x1 : S8192.ShapeCasts S8192x1
  shapeCasts_S16384_S16384x1 : S16384.ShapeCasts S16384x1
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  dot_S2048x256_S256x128_S2048x128_1_0_0_1_n_n_wf : DotDims.WF S2048x256 S256x128 S2048x128 [1] [0] [0] [1] [] []
  dot_S2048x2048_S2048x128_S2048x128_1_0_0_1_n_n_wf : DotDims.WF S2048x2048 S2048x128 S2048x128 [1] [0] [0] [1] [] []
  dot_S2048x2048_S2048x128_S2048x128_0_0_1_1_n_n_wf : DotDims.WF S2048x2048 S2048x128 S2048x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x16384.size a
  hwx1_0 : ∀ i : grid1.Coords, EltTy.bits .f32 = 32 ∨ (Rect.block (s := S8192x16384) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x16384.size a
  hwx2_0 : ∀ i : grid2.Coords, EltTy.bits .f32 = 32 ∨ (Rect.block (s := S8192x16384) S2048x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S16384x1.size a
  hwx2_2 : ∀ i : grid2.Coords, EltTy.bits .f32 = 32 ∨ (Rect.block (s := S16384x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S16384x128.size a
  hwx2_3 : ∀ i : grid2.Coords, EltTy.bits .f32 = 32 ∨ (Rect.block (s := S16384x128) S2048x128.size (cc2_transform_3 i) (hinb2_3 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x2048_S2048x128_S2048x128_0_0_1_1_n_n : DotDims S2048x2048 S2048x128 S2048x128 where
  lhsContracting := [0]
  rhsContracting := [0]
  lhsNonContracting := [1]
  rhsNonContracting := [1]
  lhsBatch := []
  rhsBatch := []
  wf := dot_S2048x2048_S2048x128_S2048x128_0_0_1_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg2) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S16384x256 : Shape := ⟨2, ![16384, 256]⟩
abbrev S256x128 : Shape := ⟨2, ![256, 128]⟩
abbrev S8192x16384 : Shape := ⟨2, ![8192, 16384]⟩
abbrev S8192 : Shape := ⟨1, ![8192]⟩
abbrev S16384 : Shape := ⟨1, ![16384]⟩
abbrev S16384x128 : Shape := ⟨2, ![16384, 128]⟩
abbrev S8192x128 : Shape := ⟨2, ![8192, 128]⟩
abbrev S8192x1 : Shape := ⟨2, ![8192, 1]⟩
abbrev S16384x8192 : Shape := ⟨2, ![16384, 8192]⟩
abbrev S16384x1 : Shape := ⟨2, ![16384, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x128, .f32⟩
  | .hbm, ⟨2, _⟩ => ⟨S8192x16384, .f32⟩
  | .hbm, ⟨3, _⟩ => ⟨S8192, .f32⟩
  | .hbm, ⟨4, _⟩ => ⟨S16384, .f32⟩
  | .hbm, ⟨5, _⟩ => ⟨S16384x128, .f32⟩
  | .hbm, ⟨6, _⟩ => ⟨S8192x128, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S16384x8192, .f32⟩
  | .hbm, ⟨11, _⟩ => ⟨S16384x128, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x128, .f32⟩
  | .hbm, ⟨17, _⟩ => ⟨S16384x128, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S8192x16384_S16384x8192_1_0 : S8192x16384.Transposes [1, 0] S16384x8192
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  dot_S16384x256_S256x128_S16384x128_1_0_0_1_n_n_wf : DotDims.WF S16384x256 S256x128 S16384x128 [1] [0] [0] [1] [] []
  dot_S8192x16384_S16384x128_S8192x128_1_0_0_1_n_n_wf : DotDims.WF S8192x16384 S16384x128 S8192x128 [1] [0] [0] [1] [] []
  dot_S16384x8192_S8192x128_S16384x128_1_0_0_1_n_n_wf : DotDims.WF S16384x8192 S8192x128 S16384x128 [1] [0] [0] [1] [] []

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S8192x16384_S16384x128_S8192x128_1_0_0_1_n_n : DotDims S8192x16384 S16384x128 S8192x128 where
  lhsContracting := [1]
  rhsContracting := [0]
  lhsNonContracting := [0]
  rhsNonContracting := [1]
  lhsBatch := []
  rhsBatch := []
  wf := dot_S8192x16384_S16384x128_S8192x128_1_0_0_1_n_n_wf
def dot_S16384x8192_S8192x128_S16384x128_1_0_0_1_n_n : DotDims S16384x8192 S8192x128 S16384x128 where
  lhsContracting := [1]
  rhsContracting := [0]
  lhsNonContracting := [0]
  rhsNonContracting := [1]
  lhsBatch := []
  rhsBatch := []
  wf := dot_S16384x8192_S8192x128_S16384x128_1_0_0_1_n_n_wf

class Facts : Prop extends Facts₀ where

variable [Facts]
-- ==== Proof.KReg0.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the linear layer `o = x_block · w`

The grid has eight points. At point `t` the body is handed three whole staging buffers: the
`2048 × 256` block of `x` for that point, the whole `256 × 128` weight `w` (the same block at
every point, so it is brought in once and stays), and the `2048 × 128` output block. It reads the
two inputs whole, multiplies them into a zero accumulator, and overwrites the output block whole
with the product. Everything is stated at the buffer contents `V` the region is entered with. -/

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the input buffers hold when the body runs -/

/-- The `x` window (window 0) holds its block of `x` at every point: for any proof data over the
    entry arrays whose body leaves that block where it found it. The window is whole-block (no
    clipping), an input, and never idle, so its buffer holds exactly what a fetch would bring. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := by
    intro t
    rw [hafter]
    unfold Dat.blockOf iblk0
    rw [hA]
    try rfl
  rw [dat.before_in_eq_fetched 0 rfl (fun _ => rfl) (fun _ _ _ => rfl) hkeep t d]
  unfold Dat.fetched Dat.blockOf iblk0
  rw [hA]
  try rfl

/-- The weight window (window 1) holds the whole weight at every point. It is fetched at the first
    point only; at a later point its block index has not moved (there is one block), so the buffer
    still holds the block fetched earlier, which is this point's block. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := by
    intro t
    rw [hafter]
    unfold Dat.blockOf iblk0
    rw [hA]
    try rfl
  rw [dat.before_in_eq_fetched 1 rfl (fun _ => rfl) (fun _ _ _ => rfl) hkeep t d]
  unfold Dat.fetched Dat.blockOf iblk0
  rw [hA]
  try rfl

/-! ## The body's accesses: each buffer whole -/

abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S2048x128 := Rect.unit (s := S2048x128) ![0, 0] S2048x128.size inb_S2048x128_S2048x128_0_0

/-- What the body leaves in the output window's buffer, from the two input blocks. -/
def out0_2 (x0 : Vec F S2048x256 .f32) (x1 : Vec F S256x128 .f32) : Vec F S2048x128 .f32 :=
  View.canon [⟨r0_2, k0_pay1 (View.ld x0 r0_0) (View.ld x1 r0_1)⟩]

/-- The one store is of the whole `2048 × 128` block, so every index of the block is written. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

/-! ## The body's triple -/

set_option maxHeartbeats 1000000 in
/-- The body on three whole buffers — the first holding `x0`, the second `x1`, the third anything —
    returns with the inputs unchanged and the third holding `out0_2 x0 x1`: the product of the two
    blocks accumulated from zero. The body reads the third buffer before overwriting it; the value
    read is not used. -/
theorem sound_kernel0 (c : Dev nD) (E : Set ℕ) (i : grid0.Coords)
    (arg1 : Memref sig .tc .vmem S2048x256 .f32) (harg1 : arg1.IsWhole)
    (arg2 : Memref sig .tc .vmem S256x128 .f32) (harg2 : arg2.IsWhole)
    (arg3 : Memref sig .tc .vmem S2048x128 .f32) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]
  unfold cc0__linear_kernel_skel owns
  iintro ⟨⟨%f1, %e1, Hx⟩, ⟨%f2, %e2, Hw⟩, ⟨%d3, %f3, -, Ho⟩, Hk⟩
  subst e1 e2
  sl_exec
  sl_step
  iapply Hk
  isplitl [Hx]
  · iexists f1
    isplitr
    · ipureintro; rfl
    · iexact Hx
  isplitl [Hw]
  · iexists f2
    isplitr
    · ipureintro; rfl
    · iexact Hw
  iexists _
  isplitr
  rotate_left
  · iexact Ho
  · ipureintro
    exact View.read_writes_eq_canon _ _ _ (cover0_2 _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the contents the region is entered with. -/
theorem A_eq0 (c : Dev nD) (w : Fin cfg0.W) : (dat0 V c).A w = V c (Pipeline.arrRef spec0 w) := by
  dsimp only [dat0]

/-- After the body: the `x` window still holds its block, -/
theorem after0_0 (c : Dev nD) (t : Fin cfg0.N) : (dat0 V c).after 0 t = iblk0 V c 0 t := by dsimp only [dat0]
/-- the weight window still holds the weight, -/
theorem after0_1 (c : Dev nD) (t : Fin cfg0.N) : (dat0 V c).after 1 t = iblk0 V c 1 t := by dsimp only [dat0]
/-- and the output window holds the product of the two. -/
theorem after0_2 (c : Dev nD) (t : Fin cfg0.N) : (dat0 V c).after 2 t = out0_2 (iblk0 V c 0 t) (iblk0 V c 1 t) := by dsimp only [dat0]

/-- Before the body, each input window holds its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a point -/

/-- What the body is handed at point `t`: the invariant, the core's debts, and the three windows'
    current buffers, each at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debts, and each buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies with
    those blocks; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Hd, ⟨%d0, Hx⟩, ⟨%d1, Hw⟩, ⟨%d2, Ho⟩⟩
  iapply (sound_kernel0 c Set.univ _ _ _ _ _ _ _ (iblk0 V c 0 t) (iblk0 V c 1 t) _)
  isplitl [Hx]
  · iexact Hx
  isplitl [Hw]
  · iexact Hw
  isplitl [Ho]
  · iexists _; iexact Ho
  iintro ⟨Hx, Hw, Ho⟩
  isplitl [HΦ]
  · iexact HΦ
  isplitl [Hd]
  · iexact Hd
  isplitl [Hx]
  · iexact Hx
  isplitl [Hw]
  · iexact Hw
  iexact Ho

/-- The body obligation, at every point of the grid. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KR1Rest.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers beside region 1's staging buffers

While region 1 runs, the core's scoped memory beside the region's own staging buffers is the other regions' staging
buffers, each whole at some contents nobody names, and the two accumulators. The region's accumulator is the one
buffer of these whose contents matter from one grid point to the next, so the chain is stated with that buffer's
place held by a parameter P: at anything before the first point, at the running partial sum afterwards. -/

/-- The scoped buffers that are no staging buffer of region 1, each whole at some contents, the accumulator's
    place taken by P. -/
def rest_r1 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ P
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_scratch0), ((c : Thread nD τ).loc cc2_scratch0) ↦{fullShare} f))

/-- The accumulator of region 1, a whole scoped buffer. -/
abbrev scM_r1 : Memref sig .tc .vmem S2048x128 .f32 := Memref.whole cc1_scratch0

/-- What the region is entered with, the scoped rest and the generator register, is the chain with the accumulator
    owned at some contents. -/
theorem PhiA_r1_eq (c : Dev nD) :
    (Pipeline.ΦA spec1 c : sProp 𝕄)
      = iprop(rest_r1 c (iprop(∃ d, owns (c : Thread nD τ) scM_r1 fullShare d)) ∗ (∃ r, prngReg c r)) := by
  unfold Pipeline.ΦA rest_r1; rw [scopedRest1_eq]; simp only [scM_r1, owns_whole]; try rfl

/-- The accumulator's place taken out of the chain. -/
theorem rest_r1_take (c : Dev nD) (P : sProp 𝕄) : rest_r1 (F := F) c P ⊢ iprop(P ∗ rest_r1 (F := F) c iprop(emp)) := by
  unfold rest_r1
  iintro ⟨H0, H1, H2, H3, H4, HP, H6, H7, H8, H9, H10, H11, H12, H13, H14⟩
  isplitl [HP]; · iexact HP
  isplitl [H0]; · iexact H0
  isplitl [H1]; · iexact H1
  isplitl [H2]; · iexact H2
  isplitl [H3]; · iexact H3
  isplitl [H4]; · iexact H4
  isplitr; · iempintro
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- And put back. -/
theorem rest_r1_put (c : Dev nD) (P : sProp 𝕄) : iprop(P ∗ rest_r1 (F := F) c iprop(emp)) ⊢ rest_r1 (F := F) c P := by
  unfold rest_r1
  iintro ⟨HP, H0, H1, H2, H3, H4, -, H6, H7, H8, H9, H10, H11, H12, H13, H14⟩
  isplitl [H0]; · iexact H0
  isplitl [H1]; · iexact H1
  isplitl [H2]; · iexact H2
  isplitl [H3]; · iexact H3
  isplitl [H4]; · iexact H4
  isplitl [HP]; · iexact HP
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.Kernel.Fr

end
-- ==== Proof.KR1Shared.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import proofs.«114685_j41644002902021_1_alg».proof.Proof.KR1Rest
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1, point by point

The region computes each block of 2048 output rows as a sum of products of blocks, one product per step of the
grid's second coordinate, which runs fastest: with 8 steps, point t works on output block t / 8 at step t % 8.
The body clears the accumulator at the first step, adds the step's product at every point, and at the last step
scales the accumulator row by row and stores the output block. This module states what the three cases of a
point share: the two branch conditions in closed form, where the output window is left alone, and the buffers
the body is called with. -/

/-- The condition of the clearing branch, from the grid coordinates: the step coordinate is 0. -/
abbrev condZ_r1 (i : grid1.Coords) : Prop := (Scalar.cmpi .ne (Scalar.extui (Scalar.cmpi .eq (BitVec.ofNat 32 (i 1).val) 0#32)) 0#32) = 1#1
/-- It holds at the points whose number is 0 modulo 8. -/
theorem hcondZ_r1 : ∀ t : Fin cfg1.N, condZ_r1 (grid1.coords t) ↔ t.val % 8 = 0 :=
  (by decide +kernel : ∀ t : Fin grid1.N, condZ_r1 (grid1.coords t) ↔ t.val % 8 = 0)

/-- The condition of the storing branch: the step coordinate is the last one. -/
abbrev condL_r1 (i : grid1.Coords) : Prop := k1_cond2 i = 1#1
/-- It holds at the points whose number is 7 modulo 8. -/
theorem hcondL_r1 : ∀ t : Fin cfg1.N, condL_r1 (grid1.coords t) ↔ t.val % 8 = 7 :=
  (by decide +kernel : ∀ t : Fin grid1.N, condL_r1 (grid1.coords t) ↔ t.val % 8 = 7)

/-! ### Where the windows are idle -/

/-- The three input windows are never idle. -/
theorem liveAt_r1_0 : ∀ t : Fin cfg1.N, cfg1.idle 0 (grid1.coords t) = false := by decide +kernel
theorem liveAt_r1_1 : ∀ t : Fin cfg1.N, cfg1.idle 1 (grid1.coords t) = false := by decide +kernel
theorem liveAt_r1_2 : ∀ t : Fin cfg1.N, cfg1.idle 2 (grid1.coords t) = false := by decide +kernel
/-- At a first step the output window is idle and not written back: nothing is stored into it. -/
theorem idleAt_r1_3_A : ∀ t : Fin cfg1.N, condZ_r1 (grid1.coords t) → ¬condL_r1 (grid1.coords t) → cfg1.idle 3 (grid1.coords t) = true := by decide +kernel
theorem noFlush_r1_3_A : ∀ t : Fin cfg1.N, condZ_r1 (grid1.coords t) → ¬condL_r1 (grid1.coords t) → (cfg1.win 3).flush t = false := by decide +kernel
/-- The same at a middle step. -/
theorem idleAt_r1_3_B : ∀ t : Fin cfg1.N, ¬condZ_r1 (grid1.coords t) → ¬condL_r1 (grid1.coords t) → cfg1.idle 3 (grid1.coords t) = true := by decide +kernel
theorem noFlush_r1_3_B : ∀ t : Fin cfg1.N, ¬condZ_r1 (grid1.coords t) → ¬condL_r1 (grid1.coords t) → (cfg1.win 3).flush t = false := by decide +kernel
/-- At a last step the output window is live: the scaled accumulator is stored into it. -/
theorem liveAt_r1_3_C : ∀ t : Fin cfg1.N, ¬condZ_r1 (grid1.coords t) → condL_r1 (grid1.coords t) → cfg1.idle 3 (grid1.coords t) = false := by decide +kernel

/-! ### The buffers the body is called with -/

/-- One staging buffer of the output window, through which its contents are stated. -/
abbrev VO_r1 : View sig .tc .vmem S2048x128 .f32 := (Memref.whole cc1_stg3_0 : Memref sig .tc .vmem S2048x128 .f32).view
/-- Each window's current staging memref at point t, as the pipeline passes it, and its wholeness. -/
abbrev ms_r1_0 (t : Fin cfg1.N) : Memref sig .tc .vmem S2048x2048 .f32 := win1_0.stage (cfg1.slots t 0)
abbrev hs_r1_0 (t : Fin cfg1.N) : (ms_r1_0 t).IsWhole := hstage1_0 ((cfg1.slots t 0).cast nbuf1_0)
abbrev ms_r1_1 (t : Fin cfg1.N) : Memref sig .tc .vmem S2048x128 .f32 := win1_1.stage (cfg1.slots t 1)
abbrev hs_r1_1 (t : Fin cfg1.N) : (ms_r1_1 t).IsWhole := hstage1_1 ((cfg1.slots t 1).cast nbuf1_1)
abbrev ms_r1_2 (t : Fin cfg1.N) : Memref sig .tc .vmem S2048x1 .f32 := win1_2.stage (cfg1.slots t 2)
abbrev hs_r1_2 (t : Fin cfg1.N) : (ms_r1_2 t).IsWhole := hstage1_2 ((cfg1.slots t 2).cast nbuf1_2)
abbrev ms_r1_3 (t : Fin cfg1.N) : Memref sig .tc .vmem S2048x128 .f32 := win1_3.stage (cfg1.slots t 3)
abbrev hs_r1_3 (t : Fin cfg1.N) : (ms_r1_3 t).IsWhole := hstage1_3 ((cfg1.slots t 3).cast nbuf1_3)
/-- The accumulator as a view: what it holds is stated through it. -/
abbrev VS_r1 : View sig .tc .vmem S2048x128 .f32 := (scM_r1 : Memref sig .tc .vmem S2048x128 .f32).view

end Cert.Kernel.Fr

end
-- ==== Proof.KR1RunA.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import proofs.«114685_j41644002902021_1_alg».proof.Proof.KR1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A FIRST STEP (the clearing branch taken, the storing branch not). On whole staging memrefs,
    the three inputs at their contents, the output window's buffer at contents handed back untouched, the
    accumulator at anything, the body runs to the continuation holding the inputs as they were and the accumulator
    with its stores written: first the clearing, then the step's product added to what was read back. The pieces
    are what the run finds. -/
noncomputable def kernelRun_r1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r1 i) (hc1 : ¬condL_r1 i)
    (x0 : Vec F S2048x2048 .f32) (x1 : Vec F S2048x128 .f32) (x2 : Vec F S2048x1 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__ey_kernel i arg2 harg2 arg3 harg3 arg4 harg4 arg5 harg5 arg6 harg6) K } := by
  refine ⟨[], ?_, fun xi3 E K => ?run⟩
  case run =>
    simp only [cc1__ey_kernel_eq_skeleton]; unfold cc1__ey_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KR1RunB.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import proofs.«114685_j41644002902021_1_alg».proof.Proof.KR1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A MIDDLE STEP (neither branch taken). The three inputs at their contents, the output window's
    buffer handed back untouched, the accumulator at what the point before left: the body runs to the continuation
    holding the accumulator with its one store written, the step's product added to what it held. -/
noncomputable def kernelRun_r1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : ¬condL_r1 i)
    (x0 : Vec F S2048x2048 .f32) (x1 : Vec F S2048x128 .f32) (x2 : Vec F S2048x1 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__ey_kernel i arg2 harg2 arg3 harg3 arg4 harg4 arg5 harg5 arg6 harg6) K } := by
  refine ⟨[], ?_, fun xi3 E K => ?run⟩
  case run =>
    simp only [cc1__ey_kernel_eq_skeleton]; unfold cc1__ey_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KR1RunC.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import proofs.«114685_j41644002902021_1_alg».proof.Proof.KR1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A LAST STEP (the clearing branch not taken, the storing branch taken). The three inputs at
    their contents, the output window's buffer at anything, the accumulator at what the point before left: the body
    runs to the continuation holding the accumulator with its store written and the output's buffer with the scaled
    accumulator stored. -/
noncomputable def kernelRun_r1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__ey_kernel i arg2 harg2 arg3 harg3 arg4 harg4 arg5 harg5 arg6 harg6) K } := by
  refine ⟨?_, ?_, fun E K => ?run⟩
  case run =>
    simp only [cc1__ey_kernel_eq_skeleton]; unfold cc1__ey_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.KReg1.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import proofs.«114685_j41644002902021_1_alg».proof.Proof.KR1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1, the proof data and the body obligation, at the contents V the region is entered with -/

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window not
    fetched at a point has not moved its block index since the point before). -/
theorem before_r1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before_r1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before_r1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ### What each case leaves -/

/-- Case A stores nothing into the output window's buffer (idle there and not written back): a placeholder
    nothing consults. -/
def out_r1_A_3 (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r1 i) (hc1 : ¬condL_r1 i)
    (x0 : Vec F S2048x2048 .f32) (x1 : Vec F S2048x128 .f32) (x2 : Vec F S2048x1 .f32) : Vec F S2048x128 .f32 :=
  VO_r1.read (Elt F) (VO_r1.writes (Elt F) VO_r1.junk (kernelRun_r1_A c i arg2 harg2 arg3 harg3 arg4 harg4 arg5 harg5 arg6 harg6 hc0 hc1 x0 x1 x2).1)

/-- Case A's stores into the accumulator tile it, so they cover it. -/
theorem scover_r1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r1 i) (hc1 : ¬condL_r1 i)
    (x0 : Vec F S2048x2048 .f32) (x1 : Vec F S2048x128 .f32) (x2 : Vec F S2048x1 .f32) (y : S2048x128.Idx) :
    ∃ pc ∈ (kernelRun_r1_A c i arg2 harg2 arg3 harg3 arg4 harg4 arg5 harg5 arg6 harg6 hc0 hc1 x0 x1 x2).2.1, y ∈ pc.1.set :=
  View.cover_of_tiledL (kernelRun_r1_A c i arg2 harg2 arg3 harg3 arg4 harg4 arg5 harg5 arg6 harg6 hc0 hc1 x0 x1 x2).2.1 S2048x128.size (by sl_kernel_rfl) y

/-- What case A leaves in the accumulator: its pieces read back. -/
def sout_r1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r1 i) (hc1 : ¬condL_r1 i)
    (x0 : Vec F S2048x2048 .f32) (x1 : Vec F S2048x128 .f32) (x2 : Vec F S2048x1 .f32) : Vec F S2048x128 .f32 :=
  VS_r1.read (Elt F) (VS_r1.writes (Elt F) VS_r1.junk (kernelRun_r1_A c i arg2 harg2 arg3 harg3 arg4 harg4 arg5 harg5 arg6 harg6 hc0 hc1 x0 x1 x2).2.1)

/-- Case B stores nothing into the output window's buffer (idle there and not written back): a placeholder
    nothing consults. -/
def out_r1_B_3 (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : ¬condL_r1 i)
    (x0 : Vec F S2048x2048 .f32) (x1 : Vec F S2048x128 .f32) (x2 : Vec F S2048x1 .f32) (xs0 : Vec F S2048x128 .f32) : Vec F S2048x128 .f32 :=
  VO_r1.read (Elt F) (VO_r1.writes (Elt F) VO_r1.junk (kernelRun_r1_B c i arg2 harg2 arg3 harg3 arg4 harg4 arg5 harg5 arg6 harg6 hc0 hc1 x0 x1 x2 xs0).1)

/-- Case B's stores into the accumulator tile it, so they cover it. -/
theorem scover_r1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : ¬condL_r1 i)
    (x0 : Vec F S2048x2048 .f32) (x1 : Vec F S2048x128 .f32) (x2 : Vec F S2048x1 .f32) (xs0 : Vec F S2048x128 .f32) (y : S2048x128.Idx) :
    ∃ pc ∈ (kernelRun_r1_B c i arg2 harg2 arg3 harg3 arg4 harg4 arg5 harg5 arg6 harg6 hc0 hc1 x0 x1 x2 xs0).2.1, y ∈ pc.1.set :=
  View.cover_of_tiledL (kernelRun_r1_B c i arg2 harg2 arg3 harg3 arg4 harg4 arg5 harg5 arg6 harg6 hc0 hc1 x0 x1 x2 xs0).2.1 S2048x128.size (by sl_kernel_rfl) y

/-- What case B leaves in the accumulator: its pieces read back. -/
def sout_r1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : ¬condL_r1 i)
    (x0 : Vec F S2048x2048 .f32) (x1 : Vec F S2048x128 .f32) (x2 : Vec F S2048x1 .f32) (xs0 : Vec F S2048x128 .f32) : Vec F S2048x128 .f32 :=
  VS_r1.read (Elt F) (VS_r1.writes (Elt F) VS_r1.junk (kernelRun_r1_B c i arg2 harg2 arg3 harg3 arg4 harg4 arg5 harg5 arg6 harg6 hc0 hc1 x0 x1 x2 xs0).2.1)

/-- At a last step the stores into the output window's buffer tile it, so they cover it. -/
theorem cover_r1_C_3 (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) (y : S2048x128.Idx) :
    ∃ pc ∈ (kernelRun_r1_C c i arg2 harg2 arg3 harg3 arg4 harg4 arg5 harg5 arg6 harg6 hc0 hc1 x0 x1 x2 xs0).1, y ∈ pc.1.set :=
  View.cover_of_tiledL (kernelRun_r1_C c i arg2 harg2 arg3 harg3 arg4 harg4 arg5 harg5 arg6 harg6 hc0 hc1 x0 x1 x2 xs0).1 S2048x128.size (by sl_kernel_rfl) y

/-- What a last step leaves in the output window's buffer: its pieces read back. -/
def out_r1_C_3 (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) : Vec F S2048x128 .f32 :=
  VO_r1.read (Elt F) (VO_r1.writes (Elt F) VO_r1.junk (kernelRun_r1_C c i arg2 harg2 arg3 harg3 arg4 harg4 arg5 harg5 arg6 harg6 hc0 hc1 x0 x1 x2 xs0).1)

/-- Case C's stores into the accumulator tile it, so they cover it. -/
theorem scover_r1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) (y : S2048x128.Idx) :
    ∃ pc ∈ (kernelRun_r1_C c i arg2 harg2 arg3 harg3 arg4 harg4 arg5 harg5 arg6 harg6 hc0 hc1 x0 x1 x2 xs0).2.1, y ∈ pc.1.set :=
  View.cover_of_tiledL (kernelRun_r1_C c i arg2 harg2 arg3 harg3 arg4 harg4 arg5 harg5 arg6 harg6 hc0 hc1 x0 x1 x2 xs0).2.1 S2048x128.size (by sl_kernel_rfl) y

/-- What case C leaves in the accumulator: its pieces read back. -/
def sout_r1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) : Vec F S2048x128 .f32 :=
  VS_r1.read (Elt F) (VS_r1.writes (Elt F) VS_r1.junk (kernelRun_r1_C c i arg2 harg2 arg3 harg3 arg4 harg4 arg5 harg5 arg6 harg6 hc0 hc1 x0 x1 x2 xs0).2.1)

section Region1
variable (V : (c : Dev nD) → (b : Ref sig .tc) → Buf (Elt F) ((c : Thread nD τ).loc b))

/-! ### The accumulation -/

/-- What the output window's buffer and the accumulator hold after the body at position n: the case the closed forms
    select, run at the point's buffers and input blocks, the accumulator entering at what position n - 1 left. No
    point is both a first and a last step. -/
def outsAt_r1 (c : Dev nD) : (n : ℕ) → n < cfg1.N → Vec F S2048x128 .f32 × Vec F S2048x128 .f32
  | 0, hn => (out_r1_A_3 c (grid1.coords ⟨0, hn⟩) (ms_r1_0 ⟨0, hn⟩) (hs_r1_0 ⟨0, hn⟩) (ms_r1_1 ⟨0, hn⟩) (hs_r1_1 ⟨0, hn⟩) (ms_r1_2 ⟨0, hn⟩) (hs_r1_2 ⟨0, hn⟩) (ms_r1_3 ⟨0, hn⟩) (hs_r1_3 ⟨0, hn⟩) scM_r1 (Memref.isWhole_whole _) ((hcondZ_r1 ⟨0, hn⟩).mpr (Nat.zero_mod _)) (fun h => (fun h => by (try dsimp only at h); omega) ((hcondL_r1 ⟨0, hn⟩).mp h)) (iblk1 V c 0 ⟨0, hn⟩) (iblk1 V c 1 ⟨0, hn⟩) (iblk1 V c 2 ⟨0, hn⟩), sout_r1_A c (grid1.coords ⟨0, hn⟩) (ms_r1_0 ⟨0, hn⟩) (hs_r1_0 ⟨0, hn⟩) (ms_r1_1 ⟨0, hn⟩) (hs_r1_1 ⟨0, hn⟩) (ms_r1_2 ⟨0, hn⟩) (hs_r1_2 ⟨0, hn⟩) (ms_r1_3 ⟨0, hn⟩) (hs_r1_3 ⟨0, hn⟩) scM_r1 (Memref.isWhole_whole _) ((hcondZ_r1 ⟨0, hn⟩).mpr (Nat.zero_mod _)) (fun h => (fun h => by (try dsimp only at h); omega) ((hcondL_r1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out_r1_A_3 c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) ((hcondZ_r1 ⟨n + 1, hn⟩).mpr h0) (fun h => h1 ((hcondL_r1 ⟨n + 1, hn⟩).mp h)) (iblk1 V c 0 ⟨n + 1, hn⟩) (iblk1 V c 1 ⟨n + 1, hn⟩) (iblk1 V c 2 ⟨n + 1, hn⟩), sout_r1_A c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) ((hcondZ_r1 ⟨n + 1, hn⟩).mpr h0) (fun h => h1 ((hcondL_r1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out_r1_C_3 c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) (fun h => h0 ((hcondZ_r1 ⟨n + 1, hn⟩).mp h)) ((hcondL_r1 ⟨n + 1, hn⟩).mpr h1) (iblk1 V c 0 ⟨n + 1, hn⟩) (iblk1 V c 1 ⟨n + 1, hn⟩) (iblk1 V c 2 ⟨n + 1, hn⟩) (outsAt_r1 c n (Nat.lt_of_succ_lt hn)).2, sout_r1_C c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) (fun h => h0 ((hcondZ_r1 ⟨n + 1, hn⟩).mp h)) ((hcondL_r1 ⟨n + 1, hn⟩).mpr h1) (iblk1 V c 0 ⟨n + 1, hn⟩) (iblk1 V c 1 ⟨n + 1, hn⟩) (iblk1 V c 2 ⟨n + 1, hn⟩) (outsAt_r1 c n (Nat.lt_of_succ_lt hn)).2)
      else
        (out_r1_B_3 c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) (fun h => h0 ((hcondZ_r1 ⟨n + 1, hn⟩).mp h)) (fun h => h1 ((hcondL_r1 ⟨n + 1, hn⟩).mp h)) (iblk1 V c 0 ⟨n + 1, hn⟩) (iblk1 V c 1 ⟨n + 1, hn⟩) (iblk1 V c 2 ⟨n + 1, hn⟩) (outsAt_r1 c n (Nat.lt_of_succ_lt hn)).2, sout_r1_B c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) (fun h => h0 ((hcondZ_r1 ⟨n + 1, hn⟩).mp h)) (fun h => h1 ((hcondL_r1 ⟨n + 1, hn⟩).mp h)) (iblk1 V c 0 ⟨n + 1, hn⟩) (iblk1 V c 1 ⟨n + 1, hn⟩) (iblk1 V c 2 ⟨n + 1, hn⟩) (outsAt_r1 c n (Nat.lt_of_succ_lt hn)).2)

/-- At a first step: that case's contents. -/
theorem outsAt_r1_A (c : Dev nD) (t : Fin cfg1.N) (h0 : t.val % 8 = 0) (h1 : ¬t.val % 8 = 7) :
    outsAt_r1 V c t.val t.isLt = (out_r1_A_3 c (grid1.coords t) (ms_r1_0 t) (hs_r1_0 t) (ms_r1_1 t) (hs_r1_1 t) (ms_r1_2 t) (hs_r1_2 t) (ms_r1_3 t) (hs_r1_3 t) scM_r1 (Memref.isWhole_whole _) ((hcondZ_r1 t).mpr h0) (fun h => h1 ((hcondL_r1 t).mp h)) (iblk1 V c 0 t) (iblk1 V c 1 t) (iblk1 V c 2 t), sout_r1_A c (grid1.coords t) (ms_r1_0 t) (hs_r1_0 t) (ms_r1_1 t) (hs_r1_1 t) (ms_r1_2 t) (hs_r1_2 t) (ms_r1_3 t) (hs_r1_3 t) scM_r1 (Memref.isWhole_whole _) ((hcondZ_r1 t).mpr h0) (fun h => h1 ((hcondL_r1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle step: that case's contents, over what the point before left. -/
theorem outsAt_r1_B (c : Dev nD) (t : Fin cfg1.N) (h0 : ¬t.val % 8 = 0) (h1 : ¬t.val % 8 = 7) :
    outsAt_r1 V c t.val t.isLt = (out_r1_B_3 c (grid1.coords t) (ms_r1_0 t) (hs_r1_0 t) (ms_r1_1 t) (hs_r1_1 t) (ms_r1_2 t) (hs_r1_2 t) (ms_r1_3 t) (hs_r1_3 t) scM_r1 (Memref.isWhole_whole _) (fun h => h0 ((hcondZ_r1 t).mp h)) (fun h => h1 ((hcondL_r1 t).mp h)) (iblk1 V c 0 t) (iblk1 V c 1 t) (iblk1 V c 2 t) (outsAt_r1 V c (t.val - 1) (Nat.lt_of_le_of_lt (Nat.sub_le _ _) t.isLt)).2, sout_r1_B c (grid1.coords t) (ms_r1_0 t) (hs_r1_0 t) (ms_r1_1 t) (hs_r1_1 t) (ms_r1_2 t) (hs_r1_2 t) (ms_r1_3 t) (hs_r1_3 t) scM_r1 (Memref.isWhole_whole _) (fun h => h0 ((hcondZ_r1 t).mp h)) (fun h => h1 ((hcondL_r1 t).mp h)) (iblk1 V c 0 t) (iblk1 V c 1 t) (iblk1 V c 2 t) (outsAt_r1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: that case's contents, over what the point before left. -/
theorem outsAt_r1_C (c : Dev nD) (t : Fin cfg1.N) (h0 : ¬t.val % 8 = 0) (h1 : t.val % 8 = 7) :
    outsAt_r1 V c t.val t.isLt = (out_r1_C_3 c (grid1.coords t) (ms_r1_0 t) (hs_r1_0 t) (ms_r1_1 t) (hs_r1_1 t) (ms_r1_2 t) (hs_r1_2 t) (ms_r1_3 t) (hs_r1_3 t) scM_r1 (Memref.isWhole_whole _) (fun h => h0 ((hcondZ_r1 t).mp h)) ((hcondL_r1 t).mpr h1) (iblk1 V c 0 t) (iblk1 V c 1 t) (iblk1 V c 2 t) (outsAt_r1 V c (t.val - 1) (Nat.lt_of_le_of_lt (Nat.sub_le _ _) t.isLt)).2, sout_r1_C c (grid1.coords t) (ms_r1_0 t) (hs_r1_0 t) (ms_r1_1 t) (hs_r1_1 t) (ms_r1_2 t) (hs_r1_2 t) (ms_r1_3 t) (hs_r1_3 t) scM_r1 (Memref.isWhole_whole _) (fun h => h0 ((hcondZ_r1 t).mp h)) ((hcondL_r1 t).mpr h1) (iblk1 V c 0 t) (iblk1 V c 1 t) (iblk1 V c 2 t) (outsAt_r1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ### The invariant -/

/-- The region's invariant before position n: before the first point what the region is entered with (the accumulator
    at anything); afterwards the same chain with the accumulator at what the point before left in it. -/
def PhiS_r1 (c : Dev nD) : (n : ℕ) → n ≤ cfg1.N → sProp 𝕄
  | 0, _ => Pipeline.ΦA spec1 c
  | n + 1, hn => iprop(rest_r1 c (owns (c : Thread nD τ) scM_r1 fullShare ((outsAt_r1 V c n hn).2)) ∗ (∃ r, prngReg c r))

theorem PhiS_r1_zero (c : Dev nD) (n : ℕ) (h : n ≤ cfg1.N) (hz : n = 0) : PhiS_r1 V c n h = Pipeline.ΦA spec1 c := by
  subst hz; rfl

theorem PhiS_r1_succ (c : Dev nD) (n : ℕ) (hn : n < cfg1.N) :
    PhiS_r1 V c (n + 1) hn = iprop(rest_r1 c (owns (c : Thread nD τ) scM_r1 fullShare ((outsAt_r1 V c n hn).2)) ∗ (∃ r, prngReg c r)) := rfl

theorem PhiS_r1_pos (c : Dev nD) (n : ℕ) (h : n ≤ cfg1.N) (hz : n ≠ 0) :
    PhiS_r1 V c n h = iprop(rest_r1 c (owns (c : Thread nD τ) scM_r1 fullShare ((outsAt_r1 V c (n - 1) (by omega)).2)) ∗ (∃ r, prngReg c r)) := by
  cases n with
  | zero => exact absurd rfl hz
  | succ n => rfl

/-! ### The proof data -/

/-- The proof data of region 1 on core c: the arrays as the region finds them; after the body at point t each input's
    buffer at its block and the output's at what the accumulation says; the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt_r1 V c t.val t.isLt).1
  Φ t := PhiS_r1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_r1_castSucc (c : Dev nD) (t : Fin cfg1.N) :
    (dat1 V c).Φ t.castSucc = PhiS_r1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt_r1 V c t.val t.isLt).1 := by dsimp only [dat1]

theorem before1_0 (c : Dev nD) (t : Fin cfg1.N) (d) : (dat1 V c).before 0 t d = iblk1 V c 0 t :=
  before_r1_0_of V (dat1 V c) (A_eq1 V c 0) (after1_0 V c) t d
theorem before1_1 (c : Dev nD) (t : Fin cfg1.N) (d) : (dat1 V c).before 1 t d = iblk1 V c 1 t :=
  before_r1_1_of V (dat1 V c) (A_eq1 V c 1) (after1_1 V c) t d
theorem before1_2 (c : Dev nD) (t : Fin cfg1.N) (d) : (dat1 V c).before 2 t d = iblk1 V c 2 t :=
  before_r1_2_of V (dat1 V c) (A_eq1 V c 2) (after1_2 V c) t d

/-! ### The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms_r1_0 t) fullShare ((dat1 V c).before 0 t d))
    ∗ (∃ d, owns (c : Thread nD τ) (ms_r1_1 t) fullShare ((dat1 V c).before 1 t d))
    ∗ (∃ d, owns (c : Thread nD τ) (ms_r1_2 t) fullShare ((dat1 V c).before 2 t d))
    ∗ (∃ d, owns (c : Thread nD τ) (ms_r1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the closed forms say which case the point is in; the
    invariant hands the body the accumulator (at anything at the very first point, at what the point before left
    otherwise) beside the other regions' scoped buffers, which the body does not touch, and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS_r1 V c (t.val + 1) t.isLt from rfl, PhiS_r1_succ]
  have hN : t.val < 32 := lt_of_lt_of_eq t.isLt (show cfg1.N = 32 from N_1)
  rw [show (dat1 V c).leavesExact 0 t = owns (c : Thread nD τ) (ms_r1_0 t) fullShare ((dat1 V c).after 0 t) from by
    unfold Dat.leavesExact; rw [liveAt_r1_0 t], after1_0]
  rw [show (dat1 V c).leavesExact 1 t = owns (c : Thread nD τ) (ms_r1_1 t) fullShare ((dat1 V c).after 1 t) from by
    unfold Dat.leavesExact; rw [liveAt_r1_1 t], after1_1]
  rw [show (dat1 V c).leavesExact 2 t = owns (c : Thread nD τ) (ms_r1_2 t) fullShare ((dat1 V c).after 2 t) from by
    unfold Dat.leavesExact; rw [liveAt_r1_2 t], after1_2]
  by_cases h0 : t.val % 8 = 0
  · by_cases h1 : t.val % 8 = 7
    · exfalso; omega
    · rw [Dat.leavesExact_idle (dat1 V c) 3 t (idleAt_r1_3_A t ((hcondZ_r1 t).mpr h0) (fun h => h1 ((hcondL_r1 t).mp h))) (noFlush_r1_3_A t ((hcondZ_r1 t).mpr h0) (fun h => h1 ((hcondL_r1 t).mp h)))]
      rw [outsAt_r1_A V c t h0 h1]
      unfold sout_r1_A; (try dsimp only)
      by_cases hz : t.val = 0
      · rw [PhiS_r1_castSucc V c t, PhiS_r1_zero V c _ _ hz, PhiA_r1_eq]
        iintro ⟨⟨HR, Hg⟩, Ho, ⟨%d0, H0⟩, ⟨%d1, H1⟩, ⟨%d2, H2⟩, ⟨%d3, H3⟩⟩
        ihave HR' := (rest_r1_take c _) $$ HR
        icases HR' with ⟨HS0, HR⟩
        iapply ((kernelRun_r1_A c (grid1.coords t) _ _ _ _ _ _ _ _ _ _ ((hcondZ_r1 t).mpr h0) (fun h => h1 ((hcondL_r1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · iapply (rest_r1_put c _)
            isplitl [HS0]
            · unfold owns; iexists _; isplitr
              swap; · iexact HS0
              ipureintro; exact View.read_writes_of_cover _ _ _ _ _ (scover_r1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_r1_castSucc V c t, PhiS_r1_pos V c _ _ hz]
        iintro ⟨⟨HR, Hg⟩, Ho, ⟨%d0, H0⟩, ⟨%d1, H1⟩, ⟨%d2, H2⟩, ⟨%d3, H3⟩⟩
        ihave HR' := (rest_r1_take c _) $$ HR
        icases HR' with ⟨HS0, HR⟩
        iapply ((kernelRun_r1_A c (grid1.coords t) _ _ _ _ _ _ _ _ _ _ ((hcondZ_r1 t).mpr h0) (fun h => h1 ((hcondL_r1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · iapply (rest_r1_put c _)
            isplitl [HS0]
            · unfold owns; iexists _; isplitr
              swap; · iexact HS0
              ipureintro; exact View.read_writes_of_cover _ _ _ _ _ (scover_r1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 3 t = owns (c : Thread nD τ) (ms_r1_3 t) fullShare ((dat1 V c).after 3 t) from by
        unfold Dat.leavesExact; rw [liveAt_r1_3_C t (fun h => h0 ((hcondZ_r1 t).mp h)) ((hcondL_r1 t).mpr h1)], after1_3]
      rw [outsAt_r1_C V c t h0 h1]
      unfold out_r1_C_3 sout_r1_C; (try dsimp only)
      rw [PhiS_r1_castSucc V c t, PhiS_r1_pos V c _ _ hz]
      iintro ⟨⟨HR, Hg⟩, Ho, ⟨%d0, H0⟩, ⟨%d1, H1⟩, ⟨%d2, H2⟩, ⟨%d3, H3⟩⟩
      ihave HR' := (rest_r1_take c _) $$ HR
      icases HR' with ⟨HS0, HR⟩
      iapply ((kernelRun_r1_C c (grid1.coords t) _ _ _ _ _ _ _ _ _ _ (fun h => h0 ((hcondZ_r1 t).mp h)) ((hcondL_r1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · iapply (rest_r1_put c _)
          isplitl [HS0]
          · unfold owns; iexists _; isplitr
            swap; · iexact HS0
            ipureintro; exact View.read_writes_of_cover _ _ _ _ _ (scover_r1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_r1_C_3 c _ _ _ _ _ _ _ _ _ _ _ _ _ _ _ _ _)
    · rw [Dat.leavesExact_idle (dat1 V c) 3 t (idleAt_r1_3_B t (fun h => h0 ((hcondZ_r1 t).mp h)) (fun h => h1 ((hcondL_r1 t).mp h))) (noFlush_r1_3_B t (fun h => h0 ((hcondZ_r1 t).mp h)) (fun h => h1 ((hcondL_r1 t).mp h)))]
      rw [outsAt_r1_B V c t h0 h1]
      unfold sout_r1_B; (try dsimp only)
      rw [PhiS_r1_castSucc V c t, PhiS_r1_pos V c _ _ hz]
      iintro ⟨⟨HR, Hg⟩, Ho, ⟨%d0, H0⟩, ⟨%d1, H1⟩, ⟨%d2, H2⟩, ⟨%d3, H3⟩⟩
      ihave HR' := (rest_r1_take c _) $$ HR
      icases HR' with ⟨HS0, HR⟩
      iapply ((kernelRun_r1_B c (grid1.coords t) _ _ _ _ _ _ _ _ _ _ (fun h => h0 ((hcondZ_r1 t).mp h)) (fun h => h1 ((hcondL_r1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · iapply (rest_r1_put c _)
          isplitl [HS0]
          · unfold owns; iexists _; isplitr
            swap; · iexact HS0
            ipureintro; exact View.read_writes_of_cover _ _ _ _ _ (scover_r1_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS_r1 V c 0 (Nat.zero_le _) from rfl, PhiS_r1_zero V c 0 _ rfl]
  try exact Idealize.SL.BI.Entails.refl _

/-- After the last point the invariant gives back what the region was entered with: the accumulator's contents are
    forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS_r1 V c (Fin.last cfg1.N).val (Nat.le_of_lt_succ (Fin.last cfg1.N).isLt) from rfl,
    PhiS_r1_pos V c _ _ hne, PhiA_r1_eq]
  iintro ⟨HR, Hg⟩
  isplitl [HR]
  · ihave HR' := (rest_r1_take c _) $$ HR
    icases HR' with ⟨HS0, HR⟩
    iapply (rest_r1_put c _)
    isplitl [HS0]; · iexists _; iexact HS0
    iexact HR
  iexact Hg

end Region1

end Cert.Kernel.Fr

end
-- ==== Proof.KR2Rest.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers beside region 2's staging buffers

While region 2 runs, the core's scoped memory beside the region's own staging buffers is the other regions' staging
buffers, each whole at some contents nobody names, and the two accumulators. The region's accumulator is the one
buffer of these whose contents matter from one grid point to the next, so the chain is stated with that buffer's
place held by a parameter P: at anything before the first point, at the running partial sum afterwards. -/

/-- The scoped buffers that are no staging buffer of region 2, each whole at some contents, the accumulator's
    place taken by P. -/
def rest_r2 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ P)

/-- The accumulator of region 2, a whole scoped buffer. -/
abbrev scM_r2 : Memref sig .tc .vmem S2048x128 .f32 := Memref.whole cc2_scratch0

/-- What the region is entered with, the scoped rest and the generator register, is the chain with the accumulator
    owned at some contents. -/
theorem PhiA_r2_eq (c : Dev nD) :
    (Pipeline.ΦA spec2 c : sProp 𝕄)
      = iprop(rest_r2 c (iprop(∃ d, owns (c : Thread nD τ) scM_r2 fullShare d)) ∗ (∃ r, prngReg c r)) := by
  unfold Pipeline.ΦA rest_r2; rw [scopedRest2_eq]; simp only [scM_r2, owns_whole]; try rfl

/-- The accumulator's place taken out of the chain. -/
theorem rest_r2_take (c : Dev nD) (P : sProp 𝕄) : rest_r2 (F := F) c P ⊢ iprop(P ∗ rest_r2 (F := F) c iprop(emp)) := by
  unfold rest_r2
  iintro ⟨H0, H1, H2, H3, H4, H5, H6, H7, H8, H9, H10, H11, H12, H13, HP⟩
  isplitl [HP]; · iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iempintro

/-- And put back. -/
theorem rest_r2_put (c : Dev nD) (P : sProp 𝕄) : iprop(P ∗ rest_r2 (F := F) c iprop(emp)) ⊢ rest_r2 (F := F) c P := by
  unfold rest_r2
  iintro ⟨HP, H0, H1, H2, H3, H4, H5, H6, H7, H8, H9, H10, H11, H12, H13, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HP

end Cert.Kernel.Fr

end
-- ==== Proof.KR2Shared.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import proofs.«114685_j41644002902021_1_alg».proof.Proof.KR2Rest
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2, point by point

The region computes each block of 2048 output rows as a sum of products of blocks, one product per step of the
grid's second coordinate, which runs fastest: with 4 steps, point t works on output block t / 4 at step t % 4.
The body clears the accumulator at the first step, adds the step's product at every point, and at the last step
scales the accumulator row by row and stores the output block. This module states what the three cases of a
point share: the two branch conditions in closed form, where the output window is left alone, and the buffers
the body is called with. -/

/-- The condition of the clearing branch, from the grid coordinates: the step coordinate is 0. -/
abbrev condZ_r2 (i : grid2.Coords) : Prop := (Scalar.cmpi .ne (Scalar.extui (Scalar.cmpi .eq (BitVec.ofNat 32 (i 1).val) 0#32)) 0#32) = 1#1
/-- It holds at the points whose number is 0 modulo 4. -/
theorem hcondZ_r2 : ∀ t : Fin cfg2.N, condZ_r2 (grid2.coords t) ↔ t.val % 4 = 0 :=
  (by decide +kernel : ∀ t : Fin grid2.N, condZ_r2 (grid2.coords t) ↔ t.val % 4 = 0)

/-- The condition of the storing branch: the step coordinate is the last one. -/
abbrev condL_r2 (i : grid2.Coords) : Prop := k2_cond2 i = 1#1
/-- It holds at the points whose number is 3 modulo 4. -/
theorem hcondL_r2 : ∀ t : Fin cfg2.N, condL_r2 (grid2.coords t) ↔ t.val % 4 = 3 :=
  (by decide +kernel : ∀ t : Fin grid2.N, condL_r2 (grid2.coords t) ↔ t.val % 4 = 3)

/-! ### Where the windows are idle -/

/-- The three input windows are never idle. -/
theorem liveAt_r2_0 : ∀ t : Fin cfg2.N, cfg2.idle 0 (grid2.coords t) = false := by decide +kernel
theorem liveAt_r2_1 : ∀ t : Fin cfg2.N, cfg2.idle 1 (grid2.coords t) = false := by decide +kernel
theorem liveAt_r2_2 : ∀ t : Fin cfg2.N, cfg2.idle 2 (grid2.coords t) = false := by decide +kernel
/-- At a first step the output window is idle and not written back: nothing is stored into it. -/
theorem idleAt_r2_3_A : ∀ t : Fin cfg2.N, condZ_r2 (grid2.coords t) → ¬condL_r2 (grid2.coords t) → cfg2.idle 3 (grid2.coords t) = true := by decide +kernel
theorem noFlush_r2_3_A : ∀ t : Fin cfg2.N, condZ_r2 (grid2.coords t) → ¬condL_r2 (grid2.coords t) → (cfg2.win 3).flush t = false := by decide +kernel
/-- The same at a middle step. -/
theorem idleAt_r2_3_B : ∀ t : Fin cfg2.N, ¬condZ_r2 (grid2.coords t) → ¬condL_r2 (grid2.coords t) → cfg2.idle 3 (grid2.coords t) = true := by decide +kernel
theorem noFlush_r2_3_B : ∀ t : Fin cfg2.N, ¬condZ_r2 (grid2.coords t) → ¬condL_r2 (grid2.coords t) → (cfg2.win 3).flush t = false := by decide +kernel
/-- At a last step the output window is live: the scaled accumulator is stored into it. -/
theorem liveAt_r2_3_C : ∀ t : Fin cfg2.N, ¬condZ_r2 (grid2.coords t) → condL_r2 (grid2.coords t) → cfg2.idle 3 (grid2.coords t) = false := by decide +kernel

/-! ### The buffers the body is called with -/

/-- One staging buffer of the output window, through which its contents are stated. -/
abbrev VO_r2 : View sig .tc .vmem S2048x128 .f32 := (Memref.whole cc2_stg3_0 : Memref sig .tc .vmem S2048x128 .f32).view
/-- Each window's current staging memref at point t, as the pipeline passes it, and its wholeness. -/
abbrev ms_r2_0 (t : Fin cfg2.N) : Memref sig .tc .vmem S2048x2048 .f32 := win2_0.stage (cfg2.slots t 0)
abbrev hs_r2_0 (t : Fin cfg2.N) : (ms_r2_0 t).IsWhole := hstage2_0 ((cfg2.slots t 0).cast nbuf2_0)
abbrev ms_r2_1 (t : Fin cfg2.N) : Memref sig .tc .vmem S2048x128 .f32 := win2_1.stage (cfg2.slots t 1)
abbrev hs_r2_1 (t : Fin cfg2.N) : (ms_r2_1 t).IsWhole := hstage2_1 ((cfg2.slots t 1).cast nbuf2_1)
abbrev ms_r2_2 (t : Fin cfg2.N) : Memref sig .tc .vmem S2048x1 .f32 := win2_2.stage (cfg2.slots t 2)
abbrev hs_r2_2 (t : Fin cfg2.N) : (ms_r2_2 t).IsWhole := hstage2_2 ((cfg2.slots t 2).cast nbuf2_2)
abbrev ms_r2_3 (t : Fin cfg2.N) : Memref sig .tc .vmem S2048x128 .f32 := win2_3.stage (cfg2.slots t 3)
abbrev hs_r2_3 (t : Fin cfg2.N) : (ms_r2_3 t).IsWhole := hstage2_3 ((cfg2.slots t 3).cast nbuf2_3)
/-- The accumulator as a view: what it holds is stated through it. -/
abbrev VS_r2 : View sig .tc .vmem S2048x128 .f32 := (scM_r2 : Memref sig .tc .vmem S2048x128 .f32).view

end Cert.Kernel.Fr

end
-- ==== Proof.KR2RunA.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import proofs.«114685_j41644002902021_1_alg».proof.Proof.KR2Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A FIRST STEP (the clearing branch taken, the storing branch not). On whole staging memrefs,
    the three inputs at their contents, the output window's buffer at contents handed back untouched, the
    accumulator at anything, the body runs to the continuation holding the inputs as they were and the accumulator
    with its stores written: first the clearing, then the step's product added to what was read back. The pieces
    are what the run finds. -/
noncomputable def kernelRun_r2_A (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r2 i) (hc1 : ¬condL_r2 i)
    (x0 : Vec F S2048x2048 .f32) (x1 : Vec F S2048x128 .f32) (x2 : Vec F S2048x1 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__ny_kernel i arg2 harg2 arg3 harg3 arg4 harg4 arg5 harg5 arg6 harg6) K } := by
  refine ⟨[], ?_, fun xi3 E K => ?run⟩
  case run =>
    simp only [cc2__ny_kernel_eq_skeleton]; unfold cc2__ny_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KR2RunB.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import proofs.«114685_j41644002902021_1_alg».proof.Proof.KR2RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A MIDDLE STEP (neither branch taken). The three inputs at their contents, the output window's
    buffer handed back untouched, the accumulator at what the point before left: the body runs to the continuation
    holding the accumulator with its one store written, the step's product added to what it held. -/
noncomputable def kernelRun_r2_B (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : ¬condL_r2 i)
    (x0 : Vec F S2048x2048 .f32) (x1 : Vec F S2048x128 .f32) (x2 : Vec F S2048x1 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__ny_kernel i arg2 harg2 arg3 harg3 arg4 harg4 arg5 harg5 arg6 harg6) K } := by
  refine ⟨[], ?_, fun xi3 E K => ?run⟩
  case run =>
    simp only [cc2__ny_kernel_eq_skeleton]; unfold cc2__ny_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KR2RunC.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import proofs.«114685_j41644002902021_1_alg».proof.Proof.KR2RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A LAST STEP (the clearing branch not taken, the storing branch taken). The three inputs at
    their contents, the output window's buffer at anything, the accumulator at what the point before left: the body
    runs to the continuation holding the accumulator with its store written and the output's buffer with the scaled
    accumulator stored. -/
noncomputable def kernelRun_r2_C (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__ny_kernel i arg2 harg2 arg3 harg3 arg4 harg4 arg5 harg5 arg6 harg6) K } := by
  refine ⟨?_, ?_, fun E K => ?run⟩
  case run =>
    simp only [cc2__ny_kernel_eq_skeleton]; unfold cc2__ny_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.KReg2.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import proofs.«114685_j41644002902021_1_alg».proof.Proof.KR2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2, the proof data and the body obligation, at the contents V the region is entered with -/

section Region2
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window not
    fetched at a point has not moved its block index since the point before). -/
theorem before_r2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before_r2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before_r2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ### What each case leaves -/

/-- Case A stores nothing into the output window's buffer (idle there and not written back): a placeholder
    nothing consults. -/
def out_r2_A_3 (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r2 i) (hc1 : ¬condL_r2 i)
    (x0 : Vec F S2048x2048 .f32) (x1 : Vec F S2048x128 .f32) (x2 : Vec F S2048x1 .f32) : Vec F S2048x128 .f32 :=
  VO_r2.read (Elt F) (VO_r2.writes (Elt F) VO_r2.junk (kernelRun_r2_A c i arg2 harg2 arg3 harg3 arg4 harg4 arg5 harg5 arg6 harg6 hc0 hc1 x0 x1 x2).1)

/-- Case A's stores into the accumulator tile it, so they cover it. -/
theorem scover_r2_A (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r2 i) (hc1 : ¬condL_r2 i)
    (x0 : Vec F S2048x2048 .f32) (x1 : Vec F S2048x128 .f32) (x2 : Vec F S2048x1 .f32) (y : S2048x128.Idx) :
    ∃ pc ∈ (kernelRun_r2_A c i arg2 harg2 arg3 harg3 arg4 harg4 arg5 harg5 arg6 harg6 hc0 hc1 x0 x1 x2).2.1, y ∈ pc.1.set :=
  View.cover_of_tiledL (kernelRun_r2_A c i arg2 harg2 arg3 harg3 arg4 harg4 arg5 harg5 arg6 harg6 hc0 hc1 x0 x1 x2).2.1 S2048x128.size (by sl_kernel_rfl) y

/-- What case A leaves in the accumulator: its pieces read back. -/
def sout_r2_A (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r2 i) (hc1 : ¬condL_r2 i)
    (x0 : Vec F S2048x2048 .f32) (x1 : Vec F S2048x128 .f32) (x2 : Vec F S2048x1 .f32) : Vec F S2048x128 .f32 :=
  VS_r2.read (Elt F) (VS_r2.writes (Elt F) VS_r2.junk (kernelRun_r2_A c i arg2 harg2 arg3 harg3 arg4 harg4 arg5 harg5 arg6 harg6 hc0 hc1 x0 x1 x2).2.1)

/-- Case B stores nothing into the output window's buffer (idle there and not written back): a placeholder
    nothing consults. -/
def out_r2_B_3 (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : ¬condL_r2 i)
    (x0 : Vec F S2048x2048 .f32) (x1 : Vec F S2048x128 .f32) (x2 : Vec F S2048x1 .f32) (xs0 : Vec F S2048x128 .f32) : Vec F S2048x128 .f32 :=
  VO_r2.read (Elt F) (VO_r2.writes (Elt F) VO_r2.junk (kernelRun_r2_B c i arg2 harg2 arg3 harg3 arg4 harg4 arg5 harg5 arg6 harg6 hc0 hc1 x0 x1 x2 xs0).1)

/-- Case B's stores into the accumulator tile it, so they cover it. -/
theorem scover_r2_B (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : ¬condL_r2 i)
    (x0 : Vec F S2048x2048 .f32) (x1 : Vec F S2048x128 .f32) (x2 : Vec F S2048x1 .f32) (xs0 : Vec F S2048x128 .f32) (y : S2048x128.Idx) :
    ∃ pc ∈ (kernelRun_r2_B c i arg2 harg2 arg3 harg3 arg4 harg4 arg5 harg5 arg6 harg6 hc0 hc1 x0 x1 x2 xs0).2.1, y ∈ pc.1.set :=
  View.cover_of_tiledL (kernelRun_r2_B c i arg2 harg2 arg3 harg3 arg4 harg4 arg5 harg5 arg6 harg6 hc0 hc1 x0 x1 x2 xs0).2.1 S2048x128.size (by sl_kernel_rfl) y

/-- What case B leaves in the accumulator: its pieces read back. -/
def sout_r2_B (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : ¬condL_r2 i)
    (x0 : Vec F S2048x2048 .f32) (x1 : Vec F S2048x128 .f32) (x2 : Vec F S2048x1 .f32) (xs0 : Vec F S2048x128 .f32) : Vec F S2048x128 .f32 :=
  VS_r2.read (Elt F) (VS_r2.writes (Elt F) VS_r2.junk (kernelRun_r2_B c i arg2 harg2 arg3 harg3 arg4 harg4 arg5 harg5 arg6 harg6 hc0 hc1 x0 x1 x2 xs0).2.1)

/-- At a last step the stores into the output window's buffer tile it, so they cover it. -/
theorem cover_r2_C_3 (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) (y : S2048x128.Idx) :
    ∃ pc ∈ (kernelRun_r2_C c i arg2 harg2 arg3 harg3 arg4 harg4 arg5 harg5 arg6 harg6 hc0 hc1 x0 x1 x2 xs0).1, y ∈ pc.1.set :=
  View.cover_of_tiledL (kernelRun_r2_C c i arg2 harg2 arg3 harg3 arg4 harg4 arg5 harg5 arg6 harg6 hc0 hc1 x0 x1 x2 xs0).1 S2048x128.size (by sl_kernel_rfl) y

/-- What a last step leaves in the output window's buffer: its pieces read back. -/
def out_r2_C_3 (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) : Vec F S2048x128 .f32 :=
  VO_r2.read (Elt F) (VO_r2.writes (Elt F) VO_r2.junk (kernelRun_r2_C c i arg2 harg2 arg3 harg3 arg4 harg4 arg5 harg5 arg6 harg6 hc0 hc1 x0 x1 x2 xs0).1)

/-- Case C's stores into the accumulator tile it, so they cover it. -/
theorem scover_r2_C (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) (y : S2048x128.Idx) :
    ∃ pc ∈ (kernelRun_r2_C c i arg2 harg2 arg3 harg3 arg4 harg4 arg5 harg5 arg6 harg6 hc0 hc1 x0 x1 x2 xs0).2.1, y ∈ pc.1.set :=
  View.cover_of_tiledL (kernelRun_r2_C c i arg2 harg2 arg3 harg3 arg4 harg4 arg5 harg5 arg6 harg6 hc0 hc1 x0 x1 x2 xs0).2.1 S2048x128.size (by sl_kernel_rfl) y

/-- What case C leaves in the accumulator: its pieces read back. -/
def sout_r2_C (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) : Vec F S2048x128 .f32 :=
  VS_r2.read (Elt F) (VS_r2.writes (Elt F) VS_r2.junk (kernelRun_r2_C c i arg2 harg2 arg3 harg3 arg4 harg4 arg5 harg5 arg6 harg6 hc0 hc1 x0 x1 x2 xs0).2.1)

section Region2
variable (V : (c : Dev nD) → (b : Ref sig .tc) → Buf (Elt F) ((c : Thread nD τ).loc b))

/-! ### The accumulation -/

/-- What the output window's buffer and the accumulator hold after the body at position n: the case the closed forms
    select, run at the point's buffers and input blocks, the accumulator entering at what position n - 1 left. No
    point is both a first and a last step. -/
def outsAt_r2 (c : Dev nD) : (n : ℕ) → n < cfg2.N → Vec F S2048x128 .f32 × Vec F S2048x128 .f32
  | 0, hn => (out_r2_A_3 c (grid2.coords ⟨0, hn⟩) (ms_r2_0 ⟨0, hn⟩) (hs_r2_0 ⟨0, hn⟩) (ms_r2_1 ⟨0, hn⟩) (hs_r2_1 ⟨0, hn⟩) (ms_r2_2 ⟨0, hn⟩) (hs_r2_2 ⟨0, hn⟩) (ms_r2_3 ⟨0, hn⟩) (hs_r2_3 ⟨0, hn⟩) scM_r2 (Memref.isWhole_whole _) ((hcondZ_r2 ⟨0, hn⟩).mpr (Nat.zero_mod _)) (fun h => (fun h => by (try dsimp only at h); omega) ((hcondL_r2 ⟨0, hn⟩).mp h)) (iblk2 V c 0 ⟨0, hn⟩) (iblk2 V c 1 ⟨0, hn⟩) (iblk2 V c 2 ⟨0, hn⟩), sout_r2_A c (grid2.coords ⟨0, hn⟩) (ms_r2_0 ⟨0, hn⟩) (hs_r2_0 ⟨0, hn⟩) (ms_r2_1 ⟨0, hn⟩) (hs_r2_1 ⟨0, hn⟩) (ms_r2_2 ⟨0, hn⟩) (hs_r2_2 ⟨0, hn⟩) (ms_r2_3 ⟨0, hn⟩) (hs_r2_3 ⟨0, hn⟩) scM_r2 (Memref.isWhole_whole _) ((hcondZ_r2 ⟨0, hn⟩).mpr (Nat.zero_mod _)) (fun h => (fun h => by (try dsimp only at h); omega) ((hcondL_r2 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out_r2_A_3 c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) ((hcondZ_r2 ⟨n + 1, hn⟩).mpr h0) (fun h => h1 ((hcondL_r2 ⟨n + 1, hn⟩).mp h)) (iblk2 V c 0 ⟨n + 1, hn⟩) (iblk2 V c 1 ⟨n + 1, hn⟩) (iblk2 V c 2 ⟨n + 1, hn⟩), sout_r2_A c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) ((hcondZ_r2 ⟨n + 1, hn⟩).mpr h0) (fun h => h1 ((hcondL_r2 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out_r2_C_3 c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) (fun h => h0 ((hcondZ_r2 ⟨n + 1, hn⟩).mp h)) ((hcondL_r2 ⟨n + 1, hn⟩).mpr h1) (iblk2 V c 0 ⟨n + 1, hn⟩) (iblk2 V c 1 ⟨n + 1, hn⟩) (iblk2 V c 2 ⟨n + 1, hn⟩) (outsAt_r2 c n (Nat.lt_of_succ_lt hn)).2, sout_r2_C c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) (fun h => h0 ((hcondZ_r2 ⟨n + 1, hn⟩).mp h)) ((hcondL_r2 ⟨n + 1, hn⟩).mpr h1) (iblk2 V c 0 ⟨n + 1, hn⟩) (iblk2 V c 1 ⟨n + 1, hn⟩) (iblk2 V c 2 ⟨n + 1, hn⟩) (outsAt_r2 c n (Nat.lt_of_succ_lt hn)).2)
      else
        (out_r2_B_3 c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) (fun h => h0 ((hcondZ_r2 ⟨n + 1, hn⟩).mp h)) (fun h => h1 ((hcondL_r2 ⟨n + 1, hn⟩).mp h)) (iblk2 V c 0 ⟨n + 1, hn⟩) (iblk2 V c 1 ⟨n + 1, hn⟩) (iblk2 V c 2 ⟨n + 1, hn⟩) (outsAt_r2 c n (Nat.lt_of_succ_lt hn)).2, sout_r2_B c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) (fun h => h0 ((hcondZ_r2 ⟨n + 1, hn⟩).mp h)) (fun h => h1 ((hcondL_r2 ⟨n + 1, hn⟩).mp h)) (iblk2 V c 0 ⟨n + 1, hn⟩) (iblk2 V c 1 ⟨n + 1, hn⟩) (iblk2 V c 2 ⟨n + 1, hn⟩) (outsAt_r2 c n (Nat.lt_of_succ_lt hn)).2)

/-- At a first step: that case's contents. -/
theorem outsAt_r2_A (c : Dev nD) (t : Fin cfg2.N) (h0 : t.val % 4 = 0) (h1 : ¬t.val % 4 = 3) :
    outsAt_r2 V c t.val t.isLt = (out_r2_A_3 c (grid2.coords t) (ms_r2_0 t) (hs_r2_0 t) (ms_r2_1 t) (hs_r2_1 t) (ms_r2_2 t) (hs_r2_2 t) (ms_r2_3 t) (hs_r2_3 t) scM_r2 (Memref.isWhole_whole _) ((hcondZ_r2 t).mpr h0) (fun h => h1 ((hcondL_r2 t).mp h)) (iblk2 V c 0 t) (iblk2 V c 1 t) (iblk2 V c 2 t), sout_r2_A c (grid2.coords t) (ms_r2_0 t) (hs_r2_0 t) (ms_r2_1 t) (hs_r2_1 t) (ms_r2_2 t) (hs_r2_2 t) (ms_r2_3 t) (hs_r2_3 t) scM_r2 (Memref.isWhole_whole _) ((hcondZ_r2 t).mpr h0) (fun h => h1 ((hcondL_r2 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- At a middle step: that case's contents, over what the point before left. -/
theorem outsAt_r2_B (c : Dev nD) (t : Fin cfg2.N) (h0 : ¬t.val % 4 = 0) (h1 : ¬t.val % 4 = 3) :
    outsAt_r2 V c t.val t.isLt = (out_r2_B_3 c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) (fun h => h1 ((hcondL_r2 t).mp h)) (iblk2 V c 0 t) (iblk2 V c 1 t) (iblk2 V c 2 t) (outsAt_r2 V c (t.val - 1) (Nat.lt_of_le_of_lt (Nat.sub_le _ _) t.isLt)).2, sout_r2_B c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) (fun h => h1 ((hcondL_r2 t).mp h)) (iblk2 V c 0 t) (iblk2 V c 1 t) (iblk2 V c 2 t) (outsAt_r2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: that case's contents, over what the point before left. -/
theorem outsAt_r2_C (c : Dev nD) (t : Fin cfg2.N) (h0 : ¬t.val % 4 = 0) (h1 : t.val % 4 = 3) :
    outsAt_r2 V c t.val t.isLt = (out_r2_C_3 c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) ((hcondL_r2 t).mpr h1) (iblk2 V c 0 t) (iblk2 V c 1 t) (iblk2 V c 2 t) (outsAt_r2 V c (t.val - 1) (Nat.lt_of_le_of_lt (Nat.sub_le _ _) t.isLt)).2, sout_r2_C c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) ((hcondL_r2 t).mpr h1) (iblk2 V c 0 t) (iblk2 V c 1 t) (iblk2 V c 2 t) (outsAt_r2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ### The invariant -/

/-- The region's invariant before position n: before the first point what the region is entered with (the accumulator
    at anything); afterwards the same chain with the accumulator at what the point before left in it. -/
def PhiS_r2 (c : Dev nD) : (n : ℕ) → n ≤ cfg2.N → sProp 𝕄
  | 0, _ => Pipeline.ΦA spec2 c
  | n + 1, hn => iprop(rest_r2 c (owns (c : Thread nD τ) scM_r2 fullShare ((outsAt_r2 V c n hn).2)) ∗ (∃ r, prngReg c r))

theorem PhiS_r2_zero (c : Dev nD) (n : ℕ) (h : n ≤ cfg2.N) (hz : n = 0) : PhiS_r2 V c n h = Pipeline.ΦA spec2 c := by
  subst hz; rfl

theorem PhiS_r2_succ (c : Dev nD) (n : ℕ) (hn : n < cfg2.N) :
    PhiS_r2 V c (n + 1) hn = iprop(rest_r2 c (owns (c : Thread nD τ) scM_r2 fullShare ((outsAt_r2 V c n hn).2)) ∗ (∃ r, prngReg c r)) := rfl

theorem PhiS_r2_pos (c : Dev nD) (n : ℕ) (h : n ≤ cfg2.N) (hz : n ≠ 0) :
    PhiS_r2 V c n h = iprop(rest_r2 c (owns (c : Thread nD τ) scM_r2 fullShare ((outsAt_r2 V c (n - 1) (by omega)).2)) ∗ (∃ r, prngReg c r)) := by
  cases n with
  | zero => exact absurd rfl hz
  | succ n => rfl

/-! ### The proof data -/

/-- The proof data of region 2 on core c: the arrays as the region finds them; after the body at point t each input's
    buffer at its block and the output's at what the accumulation says; the invariant above; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt_r2 V c t.val t.isLt).1
  Φ t := PhiS_r2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_r2_castSucc (c : Dev nD) (t : Fin cfg2.N) :
    (dat2 V c).Φ t.castSucc = PhiS_r2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt_r2 V c t.val t.isLt).1 := by dsimp only [dat2]

theorem before2_0 (c : Dev nD) (t : Fin cfg2.N) (d) : (dat2 V c).before 0 t d = iblk2 V c 0 t :=
  before_r2_0_of V (dat2 V c) (A_eq2 V c 0) (after2_0 V c) t d
theorem before2_1 (c : Dev nD) (t : Fin cfg2.N) (d) : (dat2 V c).before 1 t d = iblk2 V c 1 t :=
  before_r2_1_of V (dat2 V c) (A_eq2 V c 1) (after2_1 V c) t d
theorem before2_2 (c : Dev nD) (t : Fin cfg2.N) (d) : (dat2 V c).before 2 t d = iblk2 V c 2 t :=
  before_r2_2_of V (dat2 V c) (A_eq2 V c 2) (after2_2 V c) t d

/-! ### The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms_r2_0 t) fullShare ((dat2 V c).before 0 t d))
    ∗ (∃ d, owns (c : Thread nD τ) (ms_r2_1 t) fullShare ((dat2 V c).before 1 t d))
    ∗ (∃ d, owns (c : Thread nD τ) (ms_r2_2 t) fullShare ((dat2 V c).before 2 t d))
    ∗ (∃ d, owns (c : Thread nD τ) (ms_r2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the closed forms say which case the point is in; the
    invariant hands the body the accumulator (at anything at the very first point, at what the point before left
    otherwise) beside the other regions' scoped buffers, which the body does not touch, and takes it back at this
    point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS_r2 V c (t.val + 1) t.isLt from rfl, PhiS_r2_succ]
  have hN : t.val < 32 := lt_of_lt_of_eq t.isLt (show cfg2.N = 32 from N_2)
  rw [show (dat2 V c).leavesExact 0 t = owns (c : Thread nD τ) (ms_r2_0 t) fullShare ((dat2 V c).after 0 t) from by
    unfold Dat.leavesExact; rw [liveAt_r2_0 t], after2_0]
  rw [show (dat2 V c).leavesExact 1 t = owns (c : Thread nD τ) (ms_r2_1 t) fullShare ((dat2 V c).after 1 t) from by
    unfold Dat.leavesExact; rw [liveAt_r2_1 t], after2_1]
  rw [show (dat2 V c).leavesExact 2 t = owns (c : Thread nD τ) (ms_r2_2 t) fullShare ((dat2 V c).after 2 t) from by
    unfold Dat.leavesExact; rw [liveAt_r2_2 t], after2_2]
  by_cases h0 : t.val % 4 = 0
  · by_cases h1 : t.val % 4 = 3
    · exfalso; omega
    · rw [Dat.leavesExact_idle (dat2 V c) 3 t (idleAt_r2_3_A t ((hcondZ_r2 t).mpr h0) (fun h => h1 ((hcondL_r2 t).mp h))) (noFlush_r2_3_A t ((hcondZ_r2 t).mpr h0) (fun h => h1 ((hcondL_r2 t).mp h)))]
      rw [outsAt_r2_A V c t h0 h1]
      unfold sout_r2_A; (try dsimp only)
      by_cases hz : t.val = 0
      · rw [PhiS_r2_castSucc V c t, PhiS_r2_zero V c _ _ hz, PhiA_r2_eq]
        iintro ⟨⟨HR, Hg⟩, Ho, ⟨%d0, H0⟩, ⟨%d1, H1⟩, ⟨%d2, H2⟩, ⟨%d3, H3⟩⟩
        ihave HR' := (rest_r2_take c _) $$ HR
        icases HR' with ⟨HS0, HR⟩
        iapply ((kernelRun_r2_A c (grid2.coords t) _ _ _ _ _ _ _ _ _ _ ((hcondZ_r2 t).mpr h0) (fun h => h1 ((hcondL_r2 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · iapply (rest_r2_put c _)
            isplitl [HS0]
            · unfold owns; iexists _; isplitr
              swap; · iexact HS0
              ipureintro; exact View.read_writes_of_cover _ _ _ _ _ (scover_r2_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_r2_castSucc V c t, PhiS_r2_pos V c _ _ hz]
        iintro ⟨⟨HR, Hg⟩, Ho, ⟨%d0, H0⟩, ⟨%d1, H1⟩, ⟨%d2, H2⟩, ⟨%d3, H3⟩⟩
        ihave HR' := (rest_r2_take c _) $$ HR
        icases HR' with ⟨HS0, HR⟩
        iapply ((kernelRun_r2_A c (grid2.coords t) _ _ _ _ _ _ _ _ _ _ ((hcondZ_r2 t).mpr h0) (fun h => h1 ((hcondL_r2 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · iapply (rest_r2_put c _)
            isplitl [HS0]
            · unfold owns; iexists _; isplitr
              swap; · iexact HS0
              ipureintro; exact View.read_writes_of_cover _ _ _ _ _ (scover_r2_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat2 V c).leavesExact 3 t = owns (c : Thread nD τ) (ms_r2_3 t) fullShare ((dat2 V c).after 3 t) from by
        unfold Dat.leavesExact; rw [liveAt_r2_3_C t (fun h => h0 ((hcondZ_r2 t).mp h)) ((hcondL_r2 t).mpr h1)], after2_3]
      rw [outsAt_r2_C V c t h0 h1]
      unfold out_r2_C_3 sout_r2_C; (try dsimp only)
      rw [PhiS_r2_castSucc V c t, PhiS_r2_pos V c _ _ hz]
      iintro ⟨⟨HR, Hg⟩, Ho, ⟨%d0, H0⟩, ⟨%d1, H1⟩, ⟨%d2, H2⟩, ⟨%d3, H3⟩⟩
      ihave HR' := (rest_r2_take c _) $$ HR
      icases HR' with ⟨HS0, HR⟩
      iapply ((kernelRun_r2_C c (grid2.coords t) _ _ _ _ _ _ _ _ _ _ (fun h => h0 ((hcondZ_r2 t).mp h)) ((hcondL_r2 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · iapply (rest_r2_put c _)
          isplitl [HS0]
          · unfold owns; iexists _; isplitr
            swap; · iexact HS0
            ipureintro; exact View.read_writes_of_cover _ _ _ _ _ (scover_r2_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_r2_C_3 c _ _ _ _ _ _ _ _ _ _ _ _ _ _ _ _ _)
    · rw [Dat.leavesExact_idle (dat2 V c) 3 t (idleAt_r2_3_B t (fun h => h0 ((hcondZ_r2 t).mp h)) (fun h => h1 ((hcondL_r2 t).mp h))) (noFlush_r2_3_B t (fun h => h0 ((hcondZ_r2 t).mp h)) (fun h => h1 ((hcondL_r2 t).mp h)))]
      rw [outsAt_r2_B V c t h0 h1]
      unfold sout_r2_B; (try dsimp only)
      rw [PhiS_r2_castSucc V c t, PhiS_r2_pos V c _ _ hz]
      iintro ⟨⟨HR, Hg⟩, Ho, ⟨%d0, H0⟩, ⟨%d1, H1⟩, ⟨%d2, H2⟩, ⟨%d3, H3⟩⟩
      ihave HR' := (rest_r2_take c _) $$ HR
      icases HR' with ⟨HS0, HR⟩
      iapply ((kernelRun_r2_B c (grid2.coords t) _ _ _ _ _ _ _ _ _ _ (fun h => h0 ((hcondZ_r2 t).mp h)) (fun h => h1 ((hcondL_r2 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · iapply (rest_r2_put c _)
          isplitl [HS0]
          · unfold owns; iexists _; isplitr
            swap; · iexact HS0
            ipureintro; exact View.read_writes_of_cover _ _ _ _ _ (scover_r2_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS_r2 V c 0 (Nat.zero_le _) from rfl, PhiS_r2_zero V c 0 _ rfl]
  try exact Idealize.SL.BI.Entails.refl _

/-- After the last point the invariant gives back what the region was entered with: the accumulator's contents are
    forgotten. -/
theorem hout2 (c : Dev nD) : (dat2 V c).Φ (Fin.last cfg2.N) ⊢ Pipeline.ΦA spec2 c := by
  have hne : (Fin.last cfg2.N).val ≠ 0 := by rw [Fin.val_last]; have : cfg2.N = 32 := N_2; omega
  rw [show (dat2 V c).Φ (Fin.last cfg2.N) = PhiS_r2 V c (Fin.last cfg2.N).val (Nat.le_of_lt_succ (Fin.last cfg2.N).isLt) from rfl,
    PhiS_r2_pos V c _ _ hne, PhiA_r2_eq]
  iintro ⟨HR, Hg⟩
  isplitl [HR]
  · ihave HR' := (rest_r2_take c _) $$ HR
    icases HR' with ⟨HS0, HR⟩
    iapply (rest_r2_put c _)
    isplitl [HS0]; · iexists _; iexact HS0
    iexact HR
  iexact Hg

end Region2

end Cert.Kernel.Fr

end
-- ==== Proof.KLaunch3.lean ====
import proofs.«114685_j41644002902021_1_alg».proof.Proof.Gen.Kernel.Launch
import proofs.«114685_j41644002902021_1_alg».proof.Proof.Gen.Kernel.Skeleton
import proofs.«114685_j41644002902021_1_alg».proof.Proof.Gen.Kernel.Points
import proofs.«114685_j41644002902021_1_alg».proof.Proof.KReg0
import proofs.«114685_j41644002902021_1_alg».proof.Proof.KReg1
import proofs.«114685_j41644002902021_1_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main, from the launch to the return

@main is four items in order: region 0, a host stretch of two reshapes, region 1, region 2. Between two items a
core holds every unscoped buffer whole at a known valuation; the five valuations are a fold from the launch
memory. A region changes only its own arrays (an input array is left as found, an output array ends at the
fold of the region's write-backs); the host stretch changes only the two buffers its reshapes write.

## The buffer contents at each boundary -/

/-- Core c's buffers at launch: what region 0 is entered with (nothing precedes it). -/
abbrev W0 : Dev nD → Valuation τ sig (Elt F) := fun c b => (s₀ m ρ).mem ((c : Dev nD), b)
/-- The same, read at the TensorCore's references. -/
abbrev V0 : (c : Dev nD) → (b : Ref sig .tc) → Buf (Elt F) ((c : Thread nD τ).loc b) := fun c b => W0 m ρ c b
/-- At region 0's exit: its three arrays at what the pipeline leaves, every other buffer as at launch. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 0's exit contents at the TensorCore's references. -/
abbrev V1 : (c : Dev nD) → (b : Ref sig .tc) → Buf (Elt F) ((c : Thread nD τ).loc b) := fun c b => W1 m ρ c b
/-- At region 0's exit each of its arrays holds what the pipeline leaves, and every other buffer what it held at
    entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes: main_v1 holds main_arg3 as a column, main_v2 holds main_arg4 as a column, every other
    buffer is as region 0 left it. What region 1 is entered with. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit: its four arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Region 1's exit contents at the TensorCore's references: what region 2 is entered with. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit, the end of @main: its four arrays at what the pipeline leaves, every other buffer as
    entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- Region 2's exit contents at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## What the host stretch writes -/

/-- Neither reshape allocates a buffer. -/
theorem hostOps1_fresh : (hostOps1 : List (HloOp τ sig (Elt F))).Forall fun op => op.fresh = ∅ :=
  ⟨rfl, rfl⟩
/-- The two buffers the reshapes write: the two columns. -/
abbrev hostOps1_W : List (Ref sig .tc) := [main_v1, main_v2]
theorem hostOps1_writes : (hostOps1 : List (HloOp τ sig (Elt F))).Forall fun op =>
    op.writes ⊆ (hostOps1_W.map (Proc.devRef (τ := τ) .tc)).toFinset := by
  have h : ∀ (x y : Ref sig .tc) he hn hx hy, y ∈ (hostOps1_W : List (Ref sig .tc)) →
      (StableHlo.reshape (τ := τ) (Val := Elt F) x y he hn hx hy).writes ⊆ (hostOps1_W.map (Proc.devRef (τ := τ) .tc)).toFinset := by
    intro x y he hn hx hy hy'
    rw [StableHlo.reshape_writes, Finset.singleton_subset_iff, List.mem_toFinset]
    exact List.mem_map_of_mem hy'
  exact ⟨h _ _ _ _ _ _ (by decide), h _ _ _ _ _ _ (by decide)⟩
/-- A buffer that is neither column is, after the stretch, as region 0 left it. -/
theorem W2_of (c : Dev nD) (r : Ref sig .tc) (h : r ∉ (hostOps1_W : List (Ref sig .tc))) :
    W2 m ρ c (Proc.devRef .tc r) = W1 m ρ c (Proc.devRef .tc r) :=
  StableHlo.after_of_writes_sub hostOps1 _ hostOps1_writes h

/-! ## Each argument ends as launched

No reshape writes an argument, and a region that reads one reads it through an input window, whose array the
pipeline leaves as it found it; so the fold at an argument's buffer walks back to the launch memory. -/

/-- main_arg2 is region 1's first input and region 2's first input; when region 1 is entered it is as launched. -/
theorem V2_main_arg2 (c : Dev nD) : V2 m ρ c main_arg2 = m ((c : Thread nD τ).loc main_arg2) :=
  calc W2 m ρ c (Proc.devRef .tc main_arg2)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
/-- When region 2 is entered it is still as launched: region 1 read it through an input window. -/
theorem V3_main_arg2 (c : Dev nD) : V3 m ρ c main_arg2 = m ((c : Thread nD τ).loc main_arg2) :=
  ((W3_arr m ρ c 0).trans (((dat1 (V2 m ρ) c).arrAt_in 0 rfl _).trans (A_eq1 (V2 m ρ) c 0))).trans (V2_main_arg2 m ρ c)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W4_main_arg2 (c : Dev nD) : W4 m ρ c (Proc.devRef .tc main_arg2) = m ((c : Thread nD τ).loc main_arg2) :=
  ((W4_arr m ρ c 0).trans (((dat2 (V3 m ρ) c).arrAt_in 0 rfl _).trans (A_eq2 (V3 m ρ) c 0))).trans (V3_main_arg2 m ρ c)
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl

/-- The program's result, main_v4, is region 2's output array: at the end it holds the fold of region 2's
    write-backs. -/
theorem W4_main_v4 (c : Dev nD) : W4 m ρ c (Proc.devRef .tc main_v4) = (dat2 (V3 m ρ) c).arrAt 3 cfg2.N :=
  W4_arr m ρ c 3

/-! ## What each region finds in the arrays it reads -/

/-- Region 0 is entered with the launch memory. -/
theorem V0_apply (c : Dev nD) (b : Ref sig .tc) : V0 m ρ c b = m ((c : Thread nD τ).loc b) := rfl

/-- Region 1 finds in main_v0 what region 0's write-backs left there: no reshape writes it. -/
theorem V2_main_v0 (c : Dev nD) : V2 m ρ c main_v0 = (dat0 (V0 m ρ) c).arrAt 2 cfg0.N :=
  (W2_of m ρ c main_v0 (by decide)).trans (W1_arr m ρ c 2)

/-- Region 2 finds in main_v3 what region 1's write-backs left there. -/
theorem V3_main_v3 (c : Dev nD) : V3 m ρ c main_v3 = (dat1 (V2 m ρ) c).arrAt 3 cfg1.N :=
  W3_arr m ρ c 3

/-- Region 1 finds in main_v1 the argument main_arg3 laid out as a column: the first reshape wrote it from
    main_arg3, which region 0 does not touch. -/
theorem V2_main_v1 (c : Dev nD) : V2 m ρ c main_v1 = fun i =>
    (rfl : main_arg3.ty.elt = main_v1.ty.elt) ▸ shapeCast main_v1.ty.shape (m ((c : Thread nD τ).loc main_arg3)) shapeCasts_S8192_S8192x1 i := by
  have h : W1 m ρ c (Proc.devRef .tc main_arg3) = m ((c : Thread nD τ).loc main_arg3) :=
    (W1_of_ne m ρ c main_arg3 (by decide)).trans rfl
  show StableHlo.after hostOps1 (W1 m ρ c) (Proc.devRef .tc main_v1) = _
  unfold hostOps1
  after_results
  rw [h]

/-- Region 2 finds in main_v2 the argument main_arg4 laid out as a column: the second reshape wrote it from
    main_arg4, which region 0 does not touch, and region 1 does not touch main_v2. -/
theorem V3_main_v2 (c : Dev nD) : V3 m ρ c main_v2 = fun i =>
    (rfl : main_arg4.ty.elt = main_v2.ty.elt) ▸ shapeCast main_v2.ty.shape (m ((c : Thread nD τ).loc main_arg4)) shapeCasts_S16384_S16384x1 i := by
  have h : W1 m ρ c (Proc.devRef .tc main_arg4) = m ((c : Thread nD τ).loc main_arg4) :=
    (W1_of_ne m ρ c main_arg4 (by decide)).trans rfl
  have h3 : V3 m ρ c main_v2 = W2 m ρ c (Proc.devRef .tc main_v2) := W3_of_ne m ρ c main_v2 (by decide)
  rw [h3]
  show StableHlo.after hostOps1 (W1 m ρ c) (Proc.devRef .tc main_v2) = _
  unfold hostOps1
  after_results
  rw [h]

/-! ## The proof data family and the thread state -/

/-- The prefetched tables' admissible contents: no region has a table. -/
abbrev adm : (p : Fin 3) → (pcfgs (F := F) p).Adm := fun p => (cfgs p).toPCfg_adm
/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its debts, at nothing. -/
abbrev R (c : Dev nD) : sProp 𝕄 := iprop((∃ r, prngReg c r) ∗ ∃ W, owes (c : Thread nD τ) (0 : CellTallies nD τ sig Unit) W)
/-- A host stretch as a segment over the unscoped buffers from the contents W, R riding along: it leaves those
    buffers at the stretch's result from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents W4, the
    generator register at some state. -/
abbrev Tₙ (c : Dev nD) : sProp 𝕄 := iprop(StableHlo.held (c : Thread nD τ) (Pipeline.ucRefs τ sig) (W4 m ρ c) ∗ ∃ r, prngReg c r)

/-! ## The regions as segments

Each region is entered from every unscoped buffer at its entry valuation and left at its exit valuation. Its
arrays are split out of the unscoped buffers and put back at the exit contents; the generator register and the
scoped buffers no window stages make the region's invariant before its first point and are given back after its
last; nothing is owed; the kernels have no semaphore of their own. -/

set_option backward.isDefEq.respectTransparency.types false in
/-- Region 0: from the launch contents W0 to W1. Its invariant is the same at every point. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: from W2 to W3. Its invariant carries the accumulator from point to point: before the first point
    it is what the region is entered with, and after the last point it gives that back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    iintro H
    ihave H' := (hout1 (V2 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: from W3 to W4, the end. Its invariant carries the accumulator as region 1's does. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    iintro ⟨Hp, -, Hr⟩
    iapply (hin2 (V3 m ρ) c)
    unfold Pipeline.ΦA
    isplitl [Hr]; · iexact Hr
    iexact Hp
  hout c := by
    rw [Pipeline.ownSems0_none, show (pdats m ρ 2 c).Φ (Fin.last _) = (dat2 (V3 m ρ) c).Φ (Fin.last cfg2.N) from rfl]
    iintro H
    ihave H' := (hout2 (V3 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: region 0 from the launch contents, the two reshapes from W1, region 1,
    region 2. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]
/-- @main is the run of the segments. -/
theorem main_run (c : Dev nD) : main (F := F) c = Pipeline.Seg.run (segs m ρ) :=
  main_segs adm (pdats m ρ) () 𝒱₀ L lv (hseg hostOps1 hostOps1_sub hostOps1_fresh (W1 m ρ)) (reg0 m ρ) (reg1 m ρ) (reg2 m ρ) rfl c

set_option backward.isDefEq.respectTransparency.types false in
/-- THE RUN. At the compiled mesh, from any memory with zero counters, every weakly fair execution of @main on
    the TensorCores terminates, nothing faulting, and in every final state every unscoped buffer of every core
    holds the last valuation W4. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: in every final state each of the five argument arrays holds what it held at launch. Each is an
    unscoped buffer, so the run gives it at W4, and W4 at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Fr

end
-- ==== Proof.Reg0.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the linear layer `o = x_block · w`

The grid has eight points. At point `t` the body is handed three whole staging buffers: the
`2048 × 256` block of `x` for that point, the whole `256 × 128` weight `w` (the same block at
every point, so it is brought in once and stays), and the `2048 × 128` output block. It reads the
two inputs whole, multiplies them into a zero accumulator, and overwrites the output block whole
with the product. Everything is stated at the buffer contents `V` the region is entered with. -/

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the input buffers hold when the body runs -/

/-- The `x` window (window 0) holds its block of `x` at every point: for any proof data over the
    entry arrays whose body leaves that block where it found it. The window is whole-block (no
    clipping), an input, and never idle, so its buffer holds exactly what a fetch would bring. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := by
    intro t
    rw [hafter]
    unfold Dat.blockOf iblk0
    rw [hA]
    try rfl
  rw [dat.before_in_eq_fetched 0 rfl (fun _ => rfl) (fun _ _ _ => rfl) hkeep t d]
  unfold Dat.fetched Dat.blockOf iblk0
  rw [hA]
  try rfl

/-- The weight window (window 1) holds the whole weight at every point. It is fetched at the first
    point only; at a later point its block index has not moved (there is one block), so the buffer
    still holds the block fetched earlier, which is this point's block. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := by
    intro t
    rw [hafter]
    unfold Dat.blockOf iblk0
    rw [hA]
    try rfl
  rw [dat.before_in_eq_fetched 1 rfl (fun _ => rfl) (fun _ _ _ => rfl) hkeep t d]
  unfold Dat.fetched Dat.blockOf iblk0
  rw [hA]
  try rfl

/-! ## The body's accesses: each buffer whole -/

abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S2048x128 := Rect.unit (s := S2048x128) ![0, 0] S2048x128.size inb_S2048x128_S2048x128_0_0

/-- What the body leaves in the output window's buffer, from the two input blocks. -/
def out0_2 (x0 : Vec F S2048x256 .f32) (x1 : Vec F S256x128 .f32) : Vec F S2048x128 .f32 :=
  View.canon [⟨r0_2, k0_pay1 (View.ld x0 r0_0) (View.ld x1 r0_1)⟩]

/-- The one store is of the whole `2048 × 128` block, so every index of the block is written. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

/-! ## The body's triple -/

set_option maxHeartbeats 1000000 in
/-- The body on three whole buffers — the first holding `x0`, the second `x1`, the third anything —
    returns with the inputs unchanged and the third holding `out0_2 x0 x1`: the product of the two
    blocks accumulated from zero. The body reads the third buffer before overwriting it; the value
    read is not used. -/
theorem sound_kernel0 (c : Dev nD) (E : Set ℕ) (i : grid0.Coords)
    (arg1 : Memref sig .tc .vmem S2048x256 .f32) (harg1 : arg1.IsWhole)
    (arg2 : Memref sig .tc .vmem S256x128 .f32) (harg2 : arg2.IsWhole)
    (arg3 : Memref sig .tc .vmem S2048x128 .f32) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]
  unfold cc0__linear_kernel_skel owns
  iintro ⟨⟨%f1, %e1, Hx⟩, ⟨%f2, %e2, Hw⟩, ⟨%d3, %f3, -, Ho⟩, Hk⟩
  subst e1 e2
  sl_exec
  sl_step
  iapply Hk
  isplitl [Hx]
  · iexists f1
    isplitr
    · ipureintro; rfl
    · iexact Hx
  isplitl [Hw]
  · iexists f2
    isplitr
    · ipureintro; rfl
    · iexact Hw
  iexists _
  isplitr
  rotate_left
  · iexact Ho
  · ipureintro
    exact View.read_writes_eq_canon _ _ _ (cover0_2 _)

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the contents the region is entered with. -/
theorem A_eq0 (c : Dev nD) (w : Fin cfg0.W) : (dat0 V c).A w = V c (Pipeline.arrRef spec0 w) := by
  dsimp only [dat0]

/-- After the body: the `x` window still holds its block, -/
theorem after0_0 (c : Dev nD) (t : Fin cfg0.N) : (dat0 V c).after 0 t = iblk0 V c 0 t := by dsimp only [dat0]
/-- the weight window still holds the weight, -/
theorem after0_1 (c : Dev nD) (t : Fin cfg0.N) : (dat0 V c).after 1 t = iblk0 V c 1 t := by dsimp only [dat0]
/-- and the output window holds the product of the two. -/
theorem after0_2 (c : Dev nD) (t : Fin cfg0.N) : (dat0 V c).after 2 t = out0_2 (iblk0 V c 0 t) (iblk0 V c 1 t) := by dsimp only [dat0]

/-- Before the body, each input window holds its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a point -/

/-- What the body is handed at point `t`: the invariant, the core's debts, and the three windows'
    current buffers, each at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debts, and each buffer at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the body's triple applies with
    those blocks; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Hd, ⟨%d0, Hx⟩, ⟨%d1, Hw⟩, ⟨%d2, Ho⟩⟩
  iapply (sound_kernel0 c Set.univ _ _ _ _ _ _ _ (iblk0 V c 0 t) (iblk0 V c 1 t) _)
  isplitl [Hx]
  · iexact Hx
  isplitl [Hw]
  · iexact Hw
  isplitl [Ho]
  · iexists _; iexact Ho
  iintro ⟨Hx, Hw, Ho⟩
  isplitl [HΦ]
  · iexact HΦ
  isplitl [Hd]
  · iexact Hd
  isplitl [Hx]
  · iexact Hx
  isplitl [Hw]
  · iexact Hw
  iexact Ho

/-- The body obligation, at every point of the grid. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.R1Rest.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers beside region 1's staging buffers

While region 1 runs, the core's scoped memory beside the region's own staging buffers is the other regions' staging
buffers, each whole at some contents nobody names, and the two accumulators. The region's accumulator is the one
buffer of these whose contents matter from one grid point to the next, so the chain is stated with that buffer's
place held by a parameter P: at anything before the first point, at the running partial sum afterwards. -/

/-- The scoped buffers that are no staging buffer of region 1, each whole at some contents, the accumulator's
    place taken by P. -/
def rest_r1 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ P
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_scratch0), ((c : Thread nD τ).loc cc2_scratch0) ↦{fullShare} f))

/-- The accumulator of region 1, a whole scoped buffer. -/
abbrev scM_r1 : Memref sig .tc .vmem S2048x128 .f32 := Memref.whole cc1_scratch0

/-- What the region is entered with, the scoped rest and the generator register, is the chain with the accumulator
    owned at some contents. -/
theorem PhiA_r1_eq (c : Dev nD) :
    (Pipeline.ΦA spec1 c : sProp 𝕄)
      = iprop(rest_r1 c (iprop(∃ d, owns (c : Thread nD τ) scM_r1 fullShare d)) ∗ (∃ r, prngReg c r)) := by
  unfold Pipeline.ΦA rest_r1; rw [scopedRest1_eq]; simp only [scM_r1, owns_whole]; try rfl

/-- The accumulator's place taken out of the chain. -/
theorem rest_r1_take (c : Dev nD) (P : sProp 𝕄) : rest_r1 (F := F) c P ⊢ iprop(P ∗ rest_r1 (F := F) c iprop(emp)) := by
  unfold rest_r1
  iintro ⟨H0, H1, H2, H3, H4, HP, H6, H7, H8, H9, H10, H11, H12, H13, H14⟩
  isplitl [HP]; · iexact HP
  isplitl [H0]; · iexact H0
  isplitl [H1]; · iexact H1
  isplitl [H2]; · iexact H2
  isplitl [H3]; · iexact H3
  isplitl [H4]; · iexact H4
  isplitr; · iempintro
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- And put back. -/
theorem rest_r1_put (c : Dev nD) (P : sProp 𝕄) : iprop(P ∗ rest_r1 (F := F) c iprop(emp)) ⊢ rest_r1 (F := F) c P := by
  unfold rest_r1
  iintro ⟨HP, H0, H1, H2, H3, H4, -, H6, H7, H8, H9, H10, H11, H12, H13, H14⟩
  isplitl [H0]; · iexact H0
  isplitl [H1]; · iexact H1
  isplitl [H2]; · iexact H2
  isplitl [H3]; · iexact H3
  isplitl [H4]; · iexact H4
  isplitl [HP]; · iexact HP
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.KernelIdeal.Fr

end
-- ==== Proof.R1Shared.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import proofs.«114685_j41644002902021_1_alg».proof.Proof.R1Rest
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1, point by point

The region computes each block of 2048 output rows as a sum of products of blocks, one product per step of the
grid's second coordinate, which runs fastest: with 8 steps, point t works on output block t / 8 at step t % 8.
The body clears the accumulator at the first step, adds the step's product at every point, and at the last step
scales the accumulator row by row and stores the output block. This module states what the three cases of a
point share: the two branch conditions in closed form, where the output window is left alone, and the buffers
the body is called with. -/

/-- The condition of the clearing branch, from the grid coordinates: the step coordinate is 0. -/
abbrev condZ_r1 (i : grid1.Coords) : Prop := (Scalar.cmpi .ne (Scalar.extui (Scalar.cmpi .eq (BitVec.ofNat 32 (i 1).val) 0#32)) 0#32) = 1#1
/-- It holds at the points whose number is 0 modulo 8. -/
theorem hcondZ_r1 : ∀ t : Fin cfg1.N, condZ_r1 (grid1.coords t) ↔ t.val % 8 = 0 :=
  (by decide +kernel : ∀ t : Fin grid1.N, condZ_r1 (grid1.coords t) ↔ t.val % 8 = 0)

/-- The condition of the storing branch: the step coordinate is the last one. -/
abbrev condL_r1 (i : grid1.Coords) : Prop := k1_cond2 i = 1#1
/-- It holds at the points whose number is 7 modulo 8. -/
theorem hcondL_r1 : ∀ t : Fin cfg1.N, condL_r1 (grid1.coords t) ↔ t.val % 8 = 7 :=
  (by decide +kernel : ∀ t : Fin grid1.N, condL_r1 (grid1.coords t) ↔ t.val % 8 = 7)

/-! ### Where the windows are idle -/

/-- The three input windows are never idle. -/
theorem liveAt_r1_0 : ∀ t : Fin cfg1.N, cfg1.idle 0 (grid1.coords t) = false := by decide +kernel
theorem liveAt_r1_1 : ∀ t : Fin cfg1.N, cfg1.idle 1 (grid1.coords t) = false := by decide +kernel
theorem liveAt_r1_2 : ∀ t : Fin cfg1.N, cfg1.idle 2 (grid1.coords t) = false := by decide +kernel
/-- At a first step the output window is idle and not written back: nothing is stored into it. -/
theorem idleAt_r1_3_A : ∀ t : Fin cfg1.N, condZ_r1 (grid1.coords t) → ¬condL_r1 (grid1.coords t) → cfg1.idle 3 (grid1.coords t) = true := by decide +kernel
theorem noFlush_r1_3_A : ∀ t : Fin cfg1.N, condZ_r1 (grid1.coords t) → ¬condL_r1 (grid1.coords t) → (cfg1.win 3).flush t = false := by decide +kernel
/-- The same at a middle step. -/
theorem idleAt_r1_3_B : ∀ t : Fin cfg1.N, ¬condZ_r1 (grid1.coords t) → ¬condL_r1 (grid1.coords t) → cfg1.idle 3 (grid1.coords t) = true := by decide +kernel
theorem noFlush_r1_3_B : ∀ t : Fin cfg1.N, ¬condZ_r1 (grid1.coords t) → ¬condL_r1 (grid1.coords t) → (cfg1.win 3).flush t = false := by decide +kernel
/-- At a last step the output window is live: the scaled accumulator is stored into it. -/
theorem liveAt_r1_3_C : ∀ t : Fin cfg1.N, ¬condZ_r1 (grid1.coords t) → condL_r1 (grid1.coords t) → cfg1.idle 3 (grid1.coords t) = false := by decide +kernel

/-! ### The buffers the body is called with -/

/-- One staging buffer of the output window, through which its contents are stated. -/
abbrev VO_r1 : View sig .tc .vmem S2048x128 .f32 := (Memref.whole cc1_stg3_0 : Memref sig .tc .vmem S2048x128 .f32).view
/-- Each window's current staging memref at point t, as the pipeline passes it, and its wholeness. -/
abbrev ms_r1_0 (t : Fin cfg1.N) : Memref sig .tc .vmem S2048x2048 .f32 := win1_0.stage (cfg1.slots t 0)
abbrev hs_r1_0 (t : Fin cfg1.N) : (ms_r1_0 t).IsWhole := hstage1_0 ((cfg1.slots t 0).cast nbuf1_0)
abbrev ms_r1_1 (t : Fin cfg1.N) : Memref sig .tc .vmem S2048x128 .f32 := win1_1.stage (cfg1.slots t 1)
abbrev hs_r1_1 (t : Fin cfg1.N) : (ms_r1_1 t).IsWhole := hstage1_1 ((cfg1.slots t 1).cast nbuf1_1)
abbrev ms_r1_2 (t : Fin cfg1.N) : Memref sig .tc .vmem S2048x1 .f32 := win1_2.stage (cfg1.slots t 2)
abbrev hs_r1_2 (t : Fin cfg1.N) : (ms_r1_2 t).IsWhole := hstage1_2 ((cfg1.slots t 2).cast nbuf1_2)
abbrev ms_r1_3 (t : Fin cfg1.N) : Memref sig .tc .vmem S2048x128 .f32 := win1_3.stage (cfg1.slots t 3)
abbrev hs_r1_3 (t : Fin cfg1.N) : (ms_r1_3 t).IsWhole := hstage1_3 ((cfg1.slots t 3).cast nbuf1_3)
/-- The accumulator as a view: what it holds is stated through it. -/
abbrev VS_r1 : View sig .tc .vmem S2048x128 .f32 := (scM_r1 : Memref sig .tc .vmem S2048x128 .f32).view

end Cert.KernelIdeal.Fr

end
-- ==== Proof.R1RunA.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import proofs.«114685_j41644002902021_1_alg».proof.Proof.R1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A FIRST STEP (the clearing branch taken, the storing branch not). On whole staging memrefs,
    the three inputs at their contents, the output window's buffer at contents handed back untouched, the
    accumulator at anything, the body runs to the continuation holding the inputs as they were and the accumulator
    with its stores written: first the clearing, then the step's product added to what was read back. The pieces
    are what the run finds. -/
noncomputable def kernelRun_r1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r1 i) (hc1 : ¬condL_r1 i)
    (x0 : Vec F S2048x2048 .f32) (x1 : Vec F S2048x128 .f32) (x2 : Vec F S2048x1 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__ey_kernel i arg2 harg2 arg3 harg3 arg4 harg4 arg5 harg5 arg6 harg6) K } := by
  refine ⟨[], ?_, fun xi3 E K => ?run⟩
  case run =>
    simp only [cc1__ey_kernel_eq_skeleton]; unfold cc1__ey_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.R1RunB.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import proofs.«114685_j41644002902021_1_alg».proof.Proof.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A MIDDLE STEP (neither branch taken). The three inputs at their contents, the output window's
    buffer handed back untouched, the accumulator at what the point before left: the body runs to the continuation
    holding the accumulator with its one store written, the step's product added to what it held. -/
noncomputable def kernelRun_r1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : ¬condL_r1 i)
    (x0 : Vec F S2048x2048 .f32) (x1 : Vec F S2048x128 .f32) (x2 : Vec F S2048x1 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__ey_kernel i arg2 harg2 arg3 harg3 arg4 harg4 arg5 harg5 arg6 harg6) K } := by
  refine ⟨[], ?_, fun xi3 E K => ?run⟩
  case run =>
    simp only [cc1__ey_kernel_eq_skeleton]; unfold cc1__ey_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.R1RunC.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import proofs.«114685_j41644002902021_1_alg».proof.Proof.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A LAST STEP (the clearing branch not taken, the storing branch taken). The three inputs at
    their contents, the output window's buffer at anything, the accumulator at what the point before left: the body
    runs to the continuation holding the accumulator with its store written and the output's buffer with the scaled
    accumulator stored. -/
noncomputable def kernelRun_r1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__ey_kernel i arg2 harg2 arg3 harg3 arg4 harg4 arg5 harg5 arg6 harg6) K } := by
  refine ⟨?_, ?_, fun E K => ?run⟩
  case run =>
    simp only [cc1__ey_kernel_eq_skeleton]; unfold cc1__ey_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.Reg1.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import proofs.«114685_j41644002902021_1_alg».proof.Proof.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1, the proof data and the body obligation, at the contents V the region is entered with -/

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window not
    fetched at a point has not moved its block index since the point before). -/
theorem before_r1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before_r1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before_r1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ### What each case leaves -/

/-- Case A stores nothing into the output window's buffer (idle there and not written back): a placeholder
    nothing consults. -/
def out_r1_A_3 (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r1 i) (hc1 : ¬condL_r1 i)
    (x0 : Vec F S2048x2048 .f32) (x1 : Vec F S2048x128 .f32) (x2 : Vec F S2048x1 .f32) : Vec F S2048x128 .f32 :=
  VO_r1.read (Elt F) (VO_r1.writes (Elt F) VO_r1.junk (kernelRun_r1_A c i arg2 harg2 arg3 harg3 arg4 harg4 arg5 harg5 arg6 harg6 hc0 hc1 x0 x1 x2).1)

/-- Case A's stores into the accumulator tile it, so they cover it. -/
theorem scover_r1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r1 i) (hc1 : ¬condL_r1 i)
    (x0 : Vec F S2048x2048 .f32) (x1 : Vec F S2048x128 .f32) (x2 : Vec F S2048x1 .f32) (y : S2048x128.Idx) :
    ∃ pc ∈ (kernelRun_r1_A c i arg2 harg2 arg3 harg3 arg4 harg4 arg5 harg5 arg6 harg6 hc0 hc1 x0 x1 x2).2.1, y ∈ pc.1.set :=
  View.cover_of_tiledL (kernelRun_r1_A c i arg2 harg2 arg3 harg3 arg4 harg4 arg5 harg5 arg6 harg6 hc0 hc1 x0 x1 x2).2.1 S2048x128.size (by sl_kernel_rfl) y

/-- What case A leaves in the accumulator: its pieces read back. -/
def sout_r1_A (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r1 i) (hc1 : ¬condL_r1 i)
    (x0 : Vec F S2048x2048 .f32) (x1 : Vec F S2048x128 .f32) (x2 : Vec F S2048x1 .f32) : Vec F S2048x128 .f32 :=
  VS_r1.read (Elt F) (VS_r1.writes (Elt F) VS_r1.junk (kernelRun_r1_A c i arg2 harg2 arg3 harg3 arg4 harg4 arg5 harg5 arg6 harg6 hc0 hc1 x0 x1 x2).2.1)

/-- Case B stores nothing into the output window's buffer (idle there and not written back): a placeholder
    nothing consults. -/
def out_r1_B_3 (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : ¬condL_r1 i)
    (x0 : Vec F S2048x2048 .f32) (x1 : Vec F S2048x128 .f32) (x2 : Vec F S2048x1 .f32) (xs0 : Vec F S2048x128 .f32) : Vec F S2048x128 .f32 :=
  VO_r1.read (Elt F) (VO_r1.writes (Elt F) VO_r1.junk (kernelRun_r1_B c i arg2 harg2 arg3 harg3 arg4 harg4 arg5 harg5 arg6 harg6 hc0 hc1 x0 x1 x2 xs0).1)

/-- Case B's stores into the accumulator tile it, so they cover it. -/
theorem scover_r1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : ¬condL_r1 i)
    (x0 : Vec F S2048x2048 .f32) (x1 : Vec F S2048x128 .f32) (x2 : Vec F S2048x1 .f32) (xs0 : Vec F S2048x128 .f32) (y : S2048x128.Idx) :
    ∃ pc ∈ (kernelRun_r1_B c i arg2 harg2 arg3 harg3 arg4 harg4 arg5 harg5 arg6 harg6 hc0 hc1 x0 x1 x2 xs0).2.1, y ∈ pc.1.set :=
  View.cover_of_tiledL (kernelRun_r1_B c i arg2 harg2 arg3 harg3 arg4 harg4 arg5 harg5 arg6 harg6 hc0 hc1 x0 x1 x2 xs0).2.1 S2048x128.size (by sl_kernel_rfl) y

/-- What case B leaves in the accumulator: its pieces read back. -/
def sout_r1_B (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : ¬condL_r1 i)
    (x0 : Vec F S2048x2048 .f32) (x1 : Vec F S2048x128 .f32) (x2 : Vec F S2048x1 .f32) (xs0 : Vec F S2048x128 .f32) : Vec F S2048x128 .f32 :=
  VS_r1.read (Elt F) (VS_r1.writes (Elt F) VS_r1.junk (kernelRun_r1_B c i arg2 harg2 arg3 harg3 arg4 harg4 arg5 harg5 arg6 harg6 hc0 hc1 x0 x1 x2 xs0).2.1)

/-- At a last step the stores into the output window's buffer tile it, so they cover it. -/
theorem cover_r1_C_3 (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) (y : S2048x128.Idx) :
    ∃ pc ∈ (kernelRun_r1_C c i arg2 harg2 arg3 harg3 arg4 harg4 arg5 harg5 arg6 harg6 hc0 hc1 x0 x1 x2 xs0).1, y ∈ pc.1.set :=
  View.cover_of_tiledL (kernelRun_r1_C c i arg2 harg2 arg3 harg3 arg4 harg4 arg5 harg5 arg6 harg6 hc0 hc1 x0 x1 x2 xs0).1 S2048x128.size (by sl_kernel_rfl) y

/-- What a last step leaves in the output window's buffer: its pieces read back. -/
def out_r1_C_3 (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) : Vec F S2048x128 .f32 :=
  VO_r1.read (Elt F) (VO_r1.writes (Elt F) VO_r1.junk (kernelRun_r1_C c i arg2 harg2 arg3 harg3 arg4 harg4 arg5 harg5 arg6 harg6 hc0 hc1 x0 x1 x2 xs0).1)

/-- Case C's stores into the accumulator tile it, so they cover it. -/
theorem scover_r1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) (y : S2048x128.Idx) :
    ∃ pc ∈ (kernelRun_r1_C c i arg2 harg2 arg3 harg3 arg4 harg4 arg5 harg5 arg6 harg6 hc0 hc1 x0 x1 x2 xs0).2.1, y ∈ pc.1.set :=
  View.cover_of_tiledL (kernelRun_r1_C c i arg2 harg2 arg3 harg3 arg4 harg4 arg5 harg5 arg6 harg6 hc0 hc1 x0 x1 x2 xs0).2.1 S2048x128.size (by sl_kernel_rfl) y

/-- What case C leaves in the accumulator: its pieces read back. -/
def sout_r1_C (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) : Vec F S2048x128 .f32 :=
  VS_r1.read (Elt F) (VS_r1.writes (Elt F) VS_r1.junk (kernelRun_r1_C c i arg2 harg2 arg3 harg3 arg4 harg4 arg5 harg5 arg6 harg6 hc0 hc1 x0 x1 x2 xs0).2.1)

section Region1
variable (V : (c : Dev nD) → (b : Ref sig .tc) → Buf (Elt F) ((c : Thread nD τ).loc b))

/-! ### The accumulation -/

/-- What the output window's buffer and the accumulator hold after the body at position n: the case the closed forms
    select, run at the point's buffers and input blocks, the accumulator entering at what position n - 1 left. No
    point is both a first and a last step. -/
def outsAt_r1 (c : Dev nD) : (n : ℕ) → n < cfg1.N → Vec F S2048x128 .f32 × Vec F S2048x128 .f32
  | 0, hn => (out_r1_A_3 c (grid1.coords ⟨0, hn⟩) (ms_r1_0 ⟨0, hn⟩) (hs_r1_0 ⟨0, hn⟩) (ms_r1_1 ⟨0, hn⟩) (hs_r1_1 ⟨0, hn⟩) (ms_r1_2 ⟨0, hn⟩) (hs_r1_2 ⟨0, hn⟩) (ms_r1_3 ⟨0, hn⟩) (hs_r1_3 ⟨0, hn⟩) scM_r1 (Memref.isWhole_whole _) ((hcondZ_r1 ⟨0, hn⟩).mpr (Nat.zero_mod _)) (fun h => (fun h => by (try dsimp only at h); omega) ((hcondL_r1 ⟨0, hn⟩).mp h)) (iblk1 V c 0 ⟨0, hn⟩) (iblk1 V c 1 ⟨0, hn⟩) (iblk1 V c 2 ⟨0, hn⟩), sout_r1_A c (grid1.coords ⟨0, hn⟩) (ms_r1_0 ⟨0, hn⟩) (hs_r1_0 ⟨0, hn⟩) (ms_r1_1 ⟨0, hn⟩) (hs_r1_1 ⟨0, hn⟩) (ms_r1_2 ⟨0, hn⟩) (hs_r1_2 ⟨0, hn⟩) (ms_r1_3 ⟨0, hn⟩) (hs_r1_3 ⟨0, hn⟩) scM_r1 (Memref.isWhole_whole _) ((hcondZ_r1 ⟨0, hn⟩).mpr (Nat.zero_mod _)) (fun h => (fun h => by (try dsimp only at h); omega) ((hcondL_r1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out_r1_A_3 c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) ((hcondZ_r1 ⟨n + 1, hn⟩).mpr h0) (fun h => h1 ((hcondL_r1 ⟨n + 1, hn⟩).mp h)) (iblk1 V c 0 ⟨n + 1, hn⟩) (iblk1 V c 1 ⟨n + 1, hn⟩) (iblk1 V c 2 ⟨n + 1, hn⟩), sout_r1_A c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) ((hcondZ_r1 ⟨n + 1, hn⟩).mpr h0) (fun h => h1 ((hcondL_r1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out_r1_C_3 c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) (fun h => h0 ((hcondZ_r1 ⟨n + 1, hn⟩).mp h)) ((hcondL_r1 ⟨n + 1, hn⟩).mpr h1) (iblk1 V c 0 ⟨n + 1, hn⟩) (iblk1 V c 1 ⟨n + 1, hn⟩) (iblk1 V c 2 ⟨n + 1, hn⟩) (outsAt_r1 c n (Nat.lt_of_succ_lt hn)).2, sout_r1_C c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) (fun h => h0 ((hcondZ_r1 ⟨n + 1, hn⟩).mp h)) ((hcondL_r1 ⟨n + 1, hn⟩).mpr h1) (iblk1 V c 0 ⟨n + 1, hn⟩) (iblk1 V c 1 ⟨n + 1, hn⟩) (iblk1 V c 2 ⟨n + 1, hn⟩) (outsAt_r1 c n (Nat.lt_of_succ_lt hn)).2)
      else
        (out_r1_B_3 c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) (fun h => h0 ((hcondZ_r1 ⟨n + 1, hn⟩).mp h)) (fun h => h1 ((hcondL_r1 ⟨n + 1, hn⟩).mp h)) (iblk1 V c 0 ⟨n + 1, hn⟩) (iblk1 V c 1 ⟨n + 1, hn⟩) (iblk1 V c 2 ⟨n + 1, hn⟩) (outsAt_r1 c n (Nat.lt_of_succ_lt hn)).2, sout_r1_B c (grid1.coords ⟨n + 1, hn⟩) (ms_r1_0 ⟨n + 1, hn⟩) (hs_r1_0 ⟨n + 1, hn⟩) (ms_r1_1 ⟨n + 1, hn⟩) (hs_r1_1 ⟨n + 1, hn⟩) (ms_r1_2 ⟨n + 1, hn⟩) (hs_r1_2 ⟨n + 1, hn⟩) (ms_r1_3 ⟨n + 1, hn⟩) (hs_r1_3 ⟨n + 1, hn⟩) scM_r1 (Memref.isWhole_whole _) (fun h => h0 ((hcondZ_r1 ⟨n + 1, hn⟩).mp h)) (fun h => h1 ((hcondL_r1 ⟨n + 1, hn⟩).mp h)) (iblk1 V c 0 ⟨n + 1, hn⟩) (iblk1 V c 1 ⟨n + 1, hn⟩) (iblk1 V c 2 ⟨n + 1, hn⟩) (outsAt_r1 c n (Nat.lt_of_succ_lt hn)).2)

/-- At a first step: that case's contents. -/
theorem outsAt_r1_A (c : Dev nD) (t : Fin cfg1.N) (h0 : t.val % 8 = 0) (h1 : ¬t.val % 8 = 7) :
    outsAt_r1 V c t.val t.isLt = (out_r1_A_3 c (grid1.coords t) (ms_r1_0 t) (hs_r1_0 t) (ms_r1_1 t) (hs_r1_1 t) (ms_r1_2 t) (hs_r1_2 t) (ms_r1_3 t) (hs_r1_3 t) scM_r1 (Memref.isWhole_whole _) ((hcondZ_r1 t).mpr h0) (fun h => h1 ((hcondL_r1 t).mp h)) (iblk1 V c 0 t) (iblk1 V c 1 t) (iblk1 V c 2 t), sout_r1_A c (grid1.coords t) (ms_r1_0 t) (hs_r1_0 t) (ms_r1_1 t) (hs_r1_1 t) (ms_r1_2 t) (hs_r1_2 t) (ms_r1_3 t) (hs_r1_3 t) scM_r1 (Memref.isWhole_whole _) ((hcondZ_r1 t).mpr h0) (fun h => h1 ((hcondL_r1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle step: that case's contents, over what the point before left. -/
theorem outsAt_r1_B (c : Dev nD) (t : Fin cfg1.N) (h0 : ¬t.val % 8 = 0) (h1 : ¬t.val % 8 = 7) :
    outsAt_r1 V c t.val t.isLt = (out_r1_B_3 c (grid1.coords t) (ms_r1_0 t) (hs_r1_0 t) (ms_r1_1 t) (hs_r1_1 t) (ms_r1_2 t) (hs_r1_2 t) (ms_r1_3 t) (hs_r1_3 t) scM_r1 (Memref.isWhole_whole _) (fun h => h0 ((hcondZ_r1 t).mp h)) (fun h => h1 ((hcondL_r1 t).mp h)) (iblk1 V c 0 t) (iblk1 V c 1 t) (iblk1 V c 2 t) (outsAt_r1 V c (t.val - 1) (Nat.lt_of_le_of_lt (Nat.sub_le _ _) t.isLt)).2, sout_r1_B c (grid1.coords t) (ms_r1_0 t) (hs_r1_0 t) (ms_r1_1 t) (hs_r1_1 t) (ms_r1_2 t) (hs_r1_2 t) (ms_r1_3 t) (hs_r1_3 t) scM_r1 (Memref.isWhole_whole _) (fun h => h0 ((hcondZ_r1 t).mp h)) (fun h => h1 ((hcondL_r1 t).mp h)) (iblk1 V c 0 t) (iblk1 V c 1 t) (iblk1 V c 2 t) (outsAt_r1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: that case's contents, over what the point before left. -/
theorem outsAt_r1_C (c : Dev nD) (t : Fin cfg1.N) (h0 : ¬t.val % 8 = 0) (h1 : t.val % 8 = 7) :
    outsAt_r1 V c t.val t.isLt = (out_r1_C_3 c (grid1.coords t) (ms_r1_0 t) (hs_r1_0 t) (ms_r1_1 t) (hs_r1_1 t) (ms_r1_2 t) (hs_r1_2 t) (ms_r1_3 t) (hs_r1_3 t) scM_r1 (Memref.isWhole_whole _) (fun h => h0 ((hcondZ_r1 t).mp h)) ((hcondL_r1 t).mpr h1) (iblk1 V c 0 t) (iblk1 V c 1 t) (iblk1 V c 2 t) (outsAt_r1 V c (t.val - 1) (Nat.lt_of_le_of_lt (Nat.sub_le _ _) t.isLt)).2, sout_r1_C c (grid1.coords t) (ms_r1_0 t) (hs_r1_0 t) (ms_r1_1 t) (hs_r1_1 t) (ms_r1_2 t) (hs_r1_2 t) (ms_r1_3 t) (hs_r1_3 t) scM_r1 (Memref.isWhole_whole _) (fun h => h0 ((hcondZ_r1 t).mp h)) ((hcondL_r1 t).mpr h1) (iblk1 V c 0 t) (iblk1 V c 1 t) (iblk1 V c 2 t) (outsAt_r1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ### The invariant -/

/-- The region's invariant before position n: before the first point what the region is entered with (the accumulator
    at anything); afterwards the same chain with the accumulator at what the point before left in it. -/
def PhiS_r1 (c : Dev nD) : (n : ℕ) → n ≤ cfg1.N → sProp 𝕄
  | 0, _ => Pipeline.ΦA spec1 c
  | n + 1, hn => iprop(rest_r1 c (owns (c : Thread nD τ) scM_r1 fullShare ((outsAt_r1 V c n hn).2)) ∗ (∃ r, prngReg c r))

theorem PhiS_r1_zero (c : Dev nD) (n : ℕ) (h : n ≤ cfg1.N) (hz : n = 0) : PhiS_r1 V c n h = Pipeline.ΦA spec1 c := by
  subst hz; rfl

theorem PhiS_r1_succ (c : Dev nD) (n : ℕ) (hn : n < cfg1.N) :
    PhiS_r1 V c (n + 1) hn = iprop(rest_r1 c (owns (c : Thread nD τ) scM_r1 fullShare ((outsAt_r1 V c n hn).2)) ∗ (∃ r, prngReg c r)) := rfl

theorem PhiS_r1_pos (c : Dev nD) (n : ℕ) (h : n ≤ cfg1.N) (hz : n ≠ 0) :
    PhiS_r1 V c n h = iprop(rest_r1 c (owns (c : Thread nD τ) scM_r1 fullShare ((outsAt_r1 V c (n - 1) (by omega)).2)) ∗ (∃ r, prngReg c r)) := by
  cases n with
  | zero => exact absurd rfl hz
  | succ n => rfl

/-! ### The proof data -/

/-- The proof data of region 1 on core c: the arrays as the region finds them; after the body at point t each input's
    buffer at its block and the output's at what the accumulation says; the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt_r1 V c t.val t.isLt).1
  Φ t := PhiS_r1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_r1_castSucc (c : Dev nD) (t : Fin cfg1.N) :
    (dat1 V c).Φ t.castSucc = PhiS_r1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt_r1 V c t.val t.isLt).1 := by dsimp only [dat1]

theorem before1_0 (c : Dev nD) (t : Fin cfg1.N) (d) : (dat1 V c).before 0 t d = iblk1 V c 0 t :=
  before_r1_0_of V (dat1 V c) (A_eq1 V c 0) (after1_0 V c) t d
theorem before1_1 (c : Dev nD) (t : Fin cfg1.N) (d) : (dat1 V c).before 1 t d = iblk1 V c 1 t :=
  before_r1_1_of V (dat1 V c) (A_eq1 V c 1) (after1_1 V c) t d
theorem before1_2 (c : Dev nD) (t : Fin cfg1.N) (d) : (dat1 V c).before 2 t d = iblk1 V c 2 t :=
  before_r1_2_of V (dat1 V c) (A_eq1 V c 2) (after1_2 V c) t d

/-! ### The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms_r1_0 t) fullShare ((dat1 V c).before 0 t d))
    ∗ (∃ d, owns (c : Thread nD τ) (ms_r1_1 t) fullShare ((dat1 V c).before 1 t d))
    ∗ (∃ d, owns (c : Thread nD τ) (ms_r1_2 t) fullShare ((dat1 V c).before 2 t d))
    ∗ (∃ d, owns (c : Thread nD τ) (ms_r1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the closed forms say which case the point is in; the
    invariant hands the body the accumulator (at anything at the very first point, at what the point before left
    otherwise) beside the other regions' scoped buffers, which the body does not touch, and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS_r1 V c (t.val + 1) t.isLt from rfl, PhiS_r1_succ]
  have hN : t.val < 32 := lt_of_lt_of_eq t.isLt (show cfg1.N = 32 from N_1)
  rw [show (dat1 V c).leavesExact 0 t = owns (c : Thread nD τ) (ms_r1_0 t) fullShare ((dat1 V c).after 0 t) from by
    unfold Dat.leavesExact; rw [liveAt_r1_0 t], after1_0]
  rw [show (dat1 V c).leavesExact 1 t = owns (c : Thread nD τ) (ms_r1_1 t) fullShare ((dat1 V c).after 1 t) from by
    unfold Dat.leavesExact; rw [liveAt_r1_1 t], after1_1]
  rw [show (dat1 V c).leavesExact 2 t = owns (c : Thread nD τ) (ms_r1_2 t) fullShare ((dat1 V c).after 2 t) from by
    unfold Dat.leavesExact; rw [liveAt_r1_2 t], after1_2]
  by_cases h0 : t.val % 8 = 0
  · by_cases h1 : t.val % 8 = 7
    · exfalso; omega
    · rw [Dat.leavesExact_idle (dat1 V c) 3 t (idleAt_r1_3_A t ((hcondZ_r1 t).mpr h0) (fun h => h1 ((hcondL_r1 t).mp h))) (noFlush_r1_3_A t ((hcondZ_r1 t).mpr h0) (fun h => h1 ((hcondL_r1 t).mp h)))]
      rw [outsAt_r1_A V c t h0 h1]
      unfold sout_r1_A; (try dsimp only)
      by_cases hz : t.val = 0
      · rw [PhiS_r1_castSucc V c t, PhiS_r1_zero V c _ _ hz, PhiA_r1_eq]
        iintro ⟨⟨HR, Hg⟩, Ho, ⟨%d0, H0⟩, ⟨%d1, H1⟩, ⟨%d2, H2⟩, ⟨%d3, H3⟩⟩
        ihave HR' := (rest_r1_take c _) $$ HR
        icases HR' with ⟨HS0, HR⟩
        iapply ((kernelRun_r1_A c (grid1.coords t) _ _ _ _ _ _ _ _ _ _ ((hcondZ_r1 t).mpr h0) (fun h => h1 ((hcondL_r1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · iapply (rest_r1_put c _)
            isplitl [HS0]
            · unfold owns; iexists _; isplitr
              swap; · iexact HS0
              ipureintro; exact View.read_writes_of_cover _ _ _ _ _ (scover_r1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_r1_castSucc V c t, PhiS_r1_pos V c _ _ hz]
        iintro ⟨⟨HR, Hg⟩, Ho, ⟨%d0, H0⟩, ⟨%d1, H1⟩, ⟨%d2, H2⟩, ⟨%d3, H3⟩⟩
        ihave HR' := (rest_r1_take c _) $$ HR
        icases HR' with ⟨HS0, HR⟩
        iapply ((kernelRun_r1_A c (grid1.coords t) _ _ _ _ _ _ _ _ _ _ ((hcondZ_r1 t).mpr h0) (fun h => h1 ((hcondL_r1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · iapply (rest_r1_put c _)
            isplitl [HS0]
            · unfold owns; iexists _; isplitr
              swap; · iexact HS0
              ipureintro; exact View.read_writes_of_cover _ _ _ _ _ (scover_r1_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 3 t = owns (c : Thread nD τ) (ms_r1_3 t) fullShare ((dat1 V c).after 3 t) from by
        unfold Dat.leavesExact; rw [liveAt_r1_3_C t (fun h => h0 ((hcondZ_r1 t).mp h)) ((hcondL_r1 t).mpr h1)], after1_3]
      rw [outsAt_r1_C V c t h0 h1]
      unfold out_r1_C_3 sout_r1_C; (try dsimp only)
      rw [PhiS_r1_castSucc V c t, PhiS_r1_pos V c _ _ hz]
      iintro ⟨⟨HR, Hg⟩, Ho, ⟨%d0, H0⟩, ⟨%d1, H1⟩, ⟨%d2, H2⟩, ⟨%d3, H3⟩⟩
      ihave HR' := (rest_r1_take c _) $$ HR
      icases HR' with ⟨HS0, HR⟩
      iapply ((kernelRun_r1_C c (grid1.coords t) _ _ _ _ _ _ _ _ _ _ (fun h => h0 ((hcondZ_r1 t).mp h)) ((hcondL_r1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · iapply (rest_r1_put c _)
          isplitl [HS0]
          · unfold owns; iexists _; isplitr
            swap; · iexact HS0
            ipureintro; exact View.read_writes_of_cover _ _ _ _ _ (scover_r1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_r1_C_3 c _ _ _ _ _ _ _ _ _ _ _ _ _ _ _ _ _)
    · rw [Dat.leavesExact_idle (dat1 V c) 3 t (idleAt_r1_3_B t (fun h => h0 ((hcondZ_r1 t).mp h)) (fun h => h1 ((hcondL_r1 t).mp h))) (noFlush_r1_3_B t (fun h => h0 ((hcondZ_r1 t).mp h)) (fun h => h1 ((hcondL_r1 t).mp h)))]
      rw [outsAt_r1_B V c t h0 h1]
      unfold sout_r1_B; (try dsimp only)
      rw [PhiS_r1_castSucc V c t, PhiS_r1_pos V c _ _ hz]
      iintro ⟨⟨HR, Hg⟩, Ho, ⟨%d0, H0⟩, ⟨%d1, H1⟩, ⟨%d2, H2⟩, ⟨%d3, H3⟩⟩
      ihave HR' := (rest_r1_take c _) $$ HR
      icases HR' with ⟨HS0, HR⟩
      iapply ((kernelRun_r1_B c (grid1.coords t) _ _ _ _ _ _ _ _ _ _ (fun h => h0 ((hcondZ_r1 t).mp h)) (fun h => h1 ((hcondL_r1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · iapply (rest_r1_put c _)
          isplitl [HS0]
          · unfold owns; iexists _; isplitr
            swap; · iexact HS0
            ipureintro; exact View.read_writes_of_cover _ _ _ _ _ (scover_r1_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS_r1 V c 0 (Nat.zero_le _) from rfl, PhiS_r1_zero V c 0 _ rfl]
  try exact Idealize.SL.BI.Entails.refl _

/-- After the last point the invariant gives back what the region was entered with: the accumulator's contents are
    forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS_r1 V c (Fin.last cfg1.N).val (Nat.le_of_lt_succ (Fin.last cfg1.N).isLt) from rfl,
    PhiS_r1_pos V c _ _ hne, PhiA_r1_eq]
  iintro ⟨HR, Hg⟩
  isplitl [HR]
  · ihave HR' := (rest_r1_take c _) $$ HR
    icases HR' with ⟨HS0, HR⟩
    iapply (rest_r1_put c _)
    isplitl [HS0]; · iexists _; iexact HS0
    iexact HR
  iexact Hg

end Region1

end Cert.KernelIdeal.Fr

end
-- ==== Proof.R2Rest.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers beside region 2's staging buffers

While region 2 runs, the core's scoped memory beside the region's own staging buffers is the other regions' staging
buffers, each whole at some contents nobody names, and the two accumulators. The region's accumulator is the one
buffer of these whose contents matter from one grid point to the next, so the chain is stated with that buffer's
place held by a parameter P: at anything before the first point, at the running partial sum afterwards. -/

/-- The scoped buffers that are no staging buffer of region 2, each whole at some contents, the accumulator's
    place taken by P. -/
def rest_r2 (c : Dev nD) (P : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ P)

/-- The accumulator of region 2, a whole scoped buffer. -/
abbrev scM_r2 : Memref sig .tc .vmem S2048x128 .f32 := Memref.whole cc2_scratch0

/-- What the region is entered with, the scoped rest and the generator register, is the chain with the accumulator
    owned at some contents. -/
theorem PhiA_r2_eq (c : Dev nD) :
    (Pipeline.ΦA spec2 c : sProp 𝕄)
      = iprop(rest_r2 c (iprop(∃ d, owns (c : Thread nD τ) scM_r2 fullShare d)) ∗ (∃ r, prngReg c r)) := by
  unfold Pipeline.ΦA rest_r2; rw [scopedRest2_eq]; simp only [scM_r2, owns_whole]; try rfl

/-- The accumulator's place taken out of the chain. -/
theorem rest_r2_take (c : Dev nD) (P : sProp 𝕄) : rest_r2 (F := F) c P ⊢ iprop(P ∗ rest_r2 (F := F) c iprop(emp)) := by
  unfold rest_r2
  iintro ⟨H0, H1, H2, H3, H4, H5, H6, H7, H8, H9, H10, H11, H12, H13, HP⟩
  isplitl [HP]; · iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iempintro

/-- And put back. -/
theorem rest_r2_put (c : Dev nD) (P : sProp 𝕄) : iprop(P ∗ rest_r2 (F := F) c iprop(emp)) ⊢ rest_r2 (F := F) c P := by
  unfold rest_r2
  iintro ⟨HP, H0, H1, H2, H3, H4, H5, H6, H7, H8, H9, H10, H11, H12, H13, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HP

end Cert.KernelIdeal.Fr

end
-- ==== Proof.R2Shared.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import proofs.«114685_j41644002902021_1_alg».proof.Proof.R2Rest
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2, point by point

The region computes each block of 2048 output rows as a sum of products of blocks, one product per step of the
grid's second coordinate, which runs fastest: with 4 steps, point t works on output block t / 4 at step t % 4.
The body clears the accumulator at the first step, adds the step's product at every point, and at the last step
scales the accumulator row by row and stores the output block. This module states what the three cases of a
point share: the two branch conditions in closed form, where the output window is left alone, and the buffers
the body is called with. -/

/-- The condition of the clearing branch, from the grid coordinates: the step coordinate is 0. -/
abbrev condZ_r2 (i : grid2.Coords) : Prop := (Scalar.cmpi .ne (Scalar.extui (Scalar.cmpi .eq (BitVec.ofNat 32 (i 1).val) 0#32)) 0#32) = 1#1
/-- It holds at the points whose number is 0 modulo 4. -/
theorem hcondZ_r2 : ∀ t : Fin cfg2.N, condZ_r2 (grid2.coords t) ↔ t.val % 4 = 0 :=
  (by decide +kernel : ∀ t : Fin grid2.N, condZ_r2 (grid2.coords t) ↔ t.val % 4 = 0)

/-- The condition of the storing branch: the step coordinate is the last one. -/
abbrev condL_r2 (i : grid2.Coords) : Prop := k2_cond2 i = 1#1
/-- It holds at the points whose number is 3 modulo 4. -/
theorem hcondL_r2 : ∀ t : Fin cfg2.N, condL_r2 (grid2.coords t) ↔ t.val % 4 = 3 :=
  (by decide +kernel : ∀ t : Fin grid2.N, condL_r2 (grid2.coords t) ↔ t.val % 4 = 3)

/-! ### Where the windows are idle -/

/-- The three input windows are never idle. -/
theorem liveAt_r2_0 : ∀ t : Fin cfg2.N, cfg2.idle 0 (grid2.coords t) = false := by decide +kernel
theorem liveAt_r2_1 : ∀ t : Fin cfg2.N, cfg2.idle 1 (grid2.coords t) = false := by decide +kernel
theorem liveAt_r2_2 : ∀ t : Fin cfg2.N, cfg2.idle 2 (grid2.coords t) = false := by decide +kernel
/-- At a first step the output window is idle and not written back: nothing is stored into it. -/
theorem idleAt_r2_3_A : ∀ t : Fin cfg2.N, condZ_r2 (grid2.coords t) → ¬condL_r2 (grid2.coords t) → cfg2.idle 3 (grid2.coords t) = true := by decide +kernel
theorem noFlush_r2_3_A : ∀ t : Fin cfg2.N, condZ_r2 (grid2.coords t) → ¬condL_r2 (grid2.coords t) → (cfg2.win 3).flush t = false := by decide +kernel
/-- The same at a middle step. -/
theorem idleAt_r2_3_B : ∀ t : Fin cfg2.N, ¬condZ_r2 (grid2.coords t) → ¬condL_r2 (grid2.coords t) → cfg2.idle 3 (grid2.coords t) = true := by decide +kernel
theorem noFlush_r2_3_B : ∀ t : Fin cfg2.N, ¬condZ_r2 (grid2.coords t) → ¬condL_r2 (grid2.coords t) → (cfg2.win 3).flush t = false := by decide +kernel
/-- At a last step the output window is live: the scaled accumulator is stored into it. -/
theorem liveAt_r2_3_C : ∀ t : Fin cfg2.N, ¬condZ_r2 (grid2.coords t) → condL_r2 (grid2.coords t) → cfg2.idle 3 (grid2.coords t) = false := by decide +kernel

/-! ### The buffers the body is called with -/

/-- One staging buffer of the output window, through which its contents are stated. -/
abbrev VO_r2 : View sig .tc .vmem S2048x128 .f32 := (Memref.whole cc2_stg3_0 : Memref sig .tc .vmem S2048x128 .f32).view
/-- Each window's current staging memref at point t, as the pipeline passes it, and its wholeness. -/
abbrev ms_r2_0 (t : Fin cfg2.N) : Memref sig .tc .vmem S2048x2048 .f32 := win2_0.stage (cfg2.slots t 0)
abbrev hs_r2_0 (t : Fin cfg2.N) : (ms_r2_0 t).IsWhole := hstage2_0 ((cfg2.slots t 0).cast nbuf2_0)
abbrev ms_r2_1 (t : Fin cfg2.N) : Memref sig .tc .vmem S2048x128 .f32 := win2_1.stage (cfg2.slots t 1)
abbrev hs_r2_1 (t : Fin cfg2.N) : (ms_r2_1 t).IsWhole := hstage2_1 ((cfg2.slots t 1).cast nbuf2_1)
abbrev ms_r2_2 (t : Fin cfg2.N) : Memref sig .tc .vmem S2048x1 .f32 := win2_2.stage (cfg2.slots t 2)
abbrev hs_r2_2 (t : Fin cfg2.N) : (ms_r2_2 t).IsWhole := hstage2_2 ((cfg2.slots t 2).cast nbuf2_2)
abbrev ms_r2_3 (t : Fin cfg2.N) : Memref sig .tc .vmem S2048x128 .f32 := win2_3.stage (cfg2.slots t 3)
abbrev hs_r2_3 (t : Fin cfg2.N) : (ms_r2_3 t).IsWhole := hstage2_3 ((cfg2.slots t 3).cast nbuf2_3)
/-- The accumulator as a view: what it holds is stated through it. -/
abbrev VS_r2 : View sig .tc .vmem S2048x128 .f32 := (scM_r2 : Memref sig .tc .vmem S2048x128 .f32).view

end Cert.KernelIdeal.Fr

end
-- ==== Proof.R2RunA.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import proofs.«114685_j41644002902021_1_alg».proof.Proof.R2Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A FIRST STEP (the clearing branch taken, the storing branch not). On whole staging memrefs,
    the three inputs at their contents, the output window's buffer at contents handed back untouched, the
    accumulator at anything, the body runs to the continuation holding the inputs as they were and the accumulator
    with its stores written: first the clearing, then the step's product added to what was read back. The pieces
    are what the run finds. -/
noncomputable def kernelRun_r2_A (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r2 i) (hc1 : ¬condL_r2 i)
    (x0 : Vec F S2048x2048 .f32) (x1 : Vec F S2048x128 .f32) (x2 : Vec F S2048x1 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__ny_kernel i arg2 harg2 arg3 harg3 arg4 harg4 arg5 harg5 arg6 harg6) K } := by
  refine ⟨[], ?_, fun xi3 E K => ?run⟩
  case run =>
    simp only [cc2__ny_kernel_eq_skeleton]; unfold cc2__ny_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.R2RunB.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import proofs.«114685_j41644002902021_1_alg».proof.Proof.R2RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A MIDDLE STEP (neither branch taken). The three inputs at their contents, the output window's
    buffer handed back untouched, the accumulator at what the point before left: the body runs to the continuation
    holding the accumulator with its one store written, the step's product added to what it held. -/
noncomputable def kernelRun_r2_B (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : ¬condL_r2 i)
    (x0 : Vec F S2048x2048 .f32) (x1 : Vec F S2048x128 .f32) (x2 : Vec F S2048x1 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__ny_kernel i arg2 harg2 arg3 harg3 arg4 harg4 arg5 harg5 arg6 harg6) K } := by
  refine ⟨[], ?_, fun xi3 E K => ?run⟩
  case run =>
    simp only [cc2__ny_kernel_eq_skeleton]; unfold cc2__ny_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.R2RunC.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import proofs.«114685_j41644002902021_1_alg».proof.Proof.R2RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A LAST STEP (the clearing branch not taken, the storing branch taken). The three inputs at
    their contents, the output window's buffer at anything, the accumulator at what the point before left: the body
    runs to the continuation holding the accumulator with its store written and the output's buffer with the scaled
    accumulator stored. -/
noncomputable def kernelRun_r2_C (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__ny_kernel i arg2 harg2 arg3 harg3 arg4 harg4 arg5 harg5 arg6 harg6) K } := by
  refine ⟨?_, ?_, fun E K => ?run⟩
  case run =>
    simp only [cc2__ny_kernel_eq_skeleton]; unfold cc2__ny_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.Reg2.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import proofs.«114685_j41644002902021_1_alg».proof.Proof.R2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2, the proof data and the body obligation, at the contents V the region is entered with -/

section Region2
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window not
    fetched at a point has not moved its block index since the point before). -/
theorem before_r2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before_r2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before_r2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ### What each case leaves -/

/-- Case A stores nothing into the output window's buffer (idle there and not written back): a placeholder
    nothing consults. -/
def out_r2_A_3 (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r2 i) (hc1 : ¬condL_r2 i)
    (x0 : Vec F S2048x2048 .f32) (x1 : Vec F S2048x128 .f32) (x2 : Vec F S2048x1 .f32) : Vec F S2048x128 .f32 :=
  VO_r2.read (Elt F) (VO_r2.writes (Elt F) VO_r2.junk (kernelRun_r2_A c i arg2 harg2 arg3 harg3 arg4 harg4 arg5 harg5 arg6 harg6 hc0 hc1 x0 x1 x2).1)

/-- Case A's stores into the accumulator tile it, so they cover it. -/
theorem scover_r2_A (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r2 i) (hc1 : ¬condL_r2 i)
    (x0 : Vec F S2048x2048 .f32) (x1 : Vec F S2048x128 .f32) (x2 : Vec F S2048x1 .f32) (y : S2048x128.Idx) :
    ∃ pc ∈ (kernelRun_r2_A c i arg2 harg2 arg3 harg3 arg4 harg4 arg5 harg5 arg6 harg6 hc0 hc1 x0 x1 x2).2.1, y ∈ pc.1.set :=
  View.cover_of_tiledL (kernelRun_r2_A c i arg2 harg2 arg3 harg3 arg4 harg4 arg5 harg5 arg6 harg6 hc0 hc1 x0 x1 x2).2.1 S2048x128.size (by sl_kernel_rfl) y

/-- What case A leaves in the accumulator: its pieces read back. -/
def sout_r2_A (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r2 i) (hc1 : ¬condL_r2 i)
    (x0 : Vec F S2048x2048 .f32) (x1 : Vec F S2048x128 .f32) (x2 : Vec F S2048x1 .f32) : Vec F S2048x128 .f32 :=
  VS_r2.read (Elt F) (VS_r2.writes (Elt F) VS_r2.junk (kernelRun_r2_A c i arg2 harg2 arg3 harg3 arg4 harg4 arg5 harg5 arg6 harg6 hc0 hc1 x0 x1 x2).2.1)

/-- Case B stores nothing into the output window's buffer (idle there and not written back): a placeholder
    nothing consults. -/
def out_r2_B_3 (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : ¬condL_r2 i)
    (x0 : Vec F S2048x2048 .f32) (x1 : Vec F S2048x128 .f32) (x2 : Vec F S2048x1 .f32) (xs0 : Vec F S2048x128 .f32) : Vec F S2048x128 .f32 :=
  VO_r2.read (Elt F) (VO_r2.writes (Elt F) VO_r2.junk (kernelRun_r2_B c i arg2 harg2 arg3 harg3 arg4 harg4 arg5 harg5 arg6 harg6 hc0 hc1 x0 x1 x2 xs0).1)

/-- Case B's stores into the accumulator tile it, so they cover it. -/
theorem scover_r2_B (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : ¬condL_r2 i)
    (x0 : Vec F S2048x2048 .f32) (x1 : Vec F S2048x128 .f32) (x2 : Vec F S2048x1 .f32) (xs0 : Vec F S2048x128 .f32) (y : S2048x128.Idx) :
    ∃ pc ∈ (kernelRun_r2_B c i arg2 harg2 arg3 harg3 arg4 harg4 arg5 harg5 arg6 harg6 hc0 hc1 x0 x1 x2 xs0).2.1, y ∈ pc.1.set :=
  View.cover_of_tiledL (kernelRun_r2_B c i arg2 harg2 arg3 harg3 arg4 harg4 arg5 harg5 arg6 harg6 hc0 hc1 x0 x1 x2 xs0).2.1 S2048x128.size (by sl_kernel_rfl) y

/-- What case B leaves in the accumulator: its pieces read back. -/
def sout_r2_B (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : ¬condL_r2 i)
    (x0 : Vec F S2048x2048 .f32) (x1 : Vec F S2048x128 .f32) (x2 : Vec F S2048x1 .f32) (xs0 : Vec F S2048x128 .f32) : Vec F S2048x128 .f32 :=
  VS_r2.read (Elt F) (VS_r2.writes (Elt F) VS_r2.junk (kernelRun_r2_B c i arg2 harg2 arg3 harg3 arg4 harg4 arg5 harg5 arg6 harg6 hc0 hc1 x0 x1 x2 xs0).2.1)

/-- At a last step the stores into the output window's buffer tile it, so they cover it. -/
theorem cover_r2_C_3 (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) (y : S2048x128.Idx) :
    ∃ pc ∈ (kernelRun_r2_C c i arg2 harg2 arg3 harg3 arg4 harg4 arg5 harg5 arg6 harg6 hc0 hc1 x0 x1 x2 xs0).1, y ∈ pc.1.set :=
  View.cover_of_tiledL (kernelRun_r2_C c i arg2 harg2 arg3 harg3 arg4 harg4 arg5 harg5 arg6 harg6 hc0 hc1 x0 x1 x2 xs0).1 S2048x128.size (by sl_kernel_rfl) y

/-- What a last step leaves in the output window's buffer: its pieces read back. -/
def out_r2_C_3 (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) : Vec F S2048x128 .f32 :=
  VO_r2.read (Elt F) (VO_r2.writes (Elt F) VO_r2.junk (kernelRun_r2_C c i arg2 harg2 arg3 harg3 arg4 harg4 arg5 harg5 arg6 harg6 hc0 hc1 x0 x1 x2 xs0).1)

/-- Case C's stores into the accumulator tile it, so they cover it. -/
theorem scover_r2_C (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) (y : S2048x128.Idx) :
    ∃ pc ∈ (kernelRun_r2_C c i arg2 harg2 arg3 harg3 arg4 harg4 arg5 harg5 arg6 harg6 hc0 hc1 x0 x1 x2 xs0).2.1, y ∈ pc.1.set :=
  View.cover_of_tiledL (kernelRun_r2_C c i arg2 harg2 arg3 harg3 arg4 harg4 arg5 harg5 arg6 harg6 hc0 hc1 x0 x1 x2 xs0).2.1 S2048x128.size (by sl_kernel_rfl) y

/-- What case C leaves in the accumulator: its pieces read back. -/
def sout_r2_C (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) : Vec F S2048x128 .f32 :=
  VS_r2.read (Elt F) (VS_r2.writes (Elt F) VS_r2.junk (kernelRun_r2_C c i arg2 harg2 arg3 harg3 arg4 harg4 arg5 harg5 arg6 harg6 hc0 hc1 x0 x1 x2 xs0).2.1)

section Region2
variable (V : (c : Dev nD) → (b : Ref sig .tc) → Buf (Elt F) ((c : Thread nD τ).loc b))

/-! ### The accumulation -/

/-- What the output window's buffer and the accumulator hold after the body at position n: the case the closed forms
    select, run at the point's buffers and input blocks, the accumulator entering at what position n - 1 left. No
    point is both a first and a last step. -/
def outsAt_r2 (c : Dev nD) : (n : ℕ) → n < cfg2.N → Vec F S2048x128 .f32 × Vec F S2048x128 .f32
  | 0, hn => (out_r2_A_3 c (grid2.coords ⟨0, hn⟩) (ms_r2_0 ⟨0, hn⟩) (hs_r2_0 ⟨0, hn⟩) (ms_r2_1 ⟨0, hn⟩) (hs_r2_1 ⟨0, hn⟩) (ms_r2_2 ⟨0, hn⟩) (hs_r2_2 ⟨0, hn⟩) (ms_r2_3 ⟨0, hn⟩) (hs_r2_3 ⟨0, hn⟩) scM_r2 (Memref.isWhole_whole _) ((hcondZ_r2 ⟨0, hn⟩).mpr (Nat.zero_mod _)) (fun h => (fun h => by (try dsimp only at h); omega) ((hcondL_r2 ⟨0, hn⟩).mp h)) (iblk2 V c 0 ⟨0, hn⟩) (iblk2 V c 1 ⟨0, hn⟩) (iblk2 V c 2 ⟨0, hn⟩), sout_r2_A c (grid2.coords ⟨0, hn⟩) (ms_r2_0 ⟨0, hn⟩) (hs_r2_0 ⟨0, hn⟩) (ms_r2_1 ⟨0, hn⟩) (hs_r2_1 ⟨0, hn⟩) (ms_r2_2 ⟨0, hn⟩) (hs_r2_2 ⟨0, hn⟩) (ms_r2_3 ⟨0, hn⟩) (hs_r2_3 ⟨0, hn⟩) scM_r2 (Memref.isWhole_whole _) ((hcondZ_r2 ⟨0, hn⟩).mpr (Nat.zero_mod _)) (fun h => (fun h => by (try dsimp only at h); omega) ((hcondL_r2 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out_r2_A_3 c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) ((hcondZ_r2 ⟨n + 1, hn⟩).mpr h0) (fun h => h1 ((hcondL_r2 ⟨n + 1, hn⟩).mp h)) (iblk2 V c 0 ⟨n + 1, hn⟩) (iblk2 V c 1 ⟨n + 1, hn⟩) (iblk2 V c 2 ⟨n + 1, hn⟩), sout_r2_A c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) ((hcondZ_r2 ⟨n + 1, hn⟩).mpr h0) (fun h => h1 ((hcondL_r2 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out_r2_C_3 c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) (fun h => h0 ((hcondZ_r2 ⟨n + 1, hn⟩).mp h)) ((hcondL_r2 ⟨n + 1, hn⟩).mpr h1) (iblk2 V c 0 ⟨n + 1, hn⟩) (iblk2 V c 1 ⟨n + 1, hn⟩) (iblk2 V c 2 ⟨n + 1, hn⟩) (outsAt_r2 c n (Nat.lt_of_succ_lt hn)).2, sout_r2_C c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) (fun h => h0 ((hcondZ_r2 ⟨n + 1, hn⟩).mp h)) ((hcondL_r2 ⟨n + 1, hn⟩).mpr h1) (iblk2 V c 0 ⟨n + 1, hn⟩) (iblk2 V c 1 ⟨n + 1, hn⟩) (iblk2 V c 2 ⟨n + 1, hn⟩) (outsAt_r2 c n (Nat.lt_of_succ_lt hn)).2)
      else
        (out_r2_B_3 c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) (fun h => h0 ((hcondZ_r2 ⟨n + 1, hn⟩).mp h)) (fun h => h1 ((hcondL_r2 ⟨n + 1, hn⟩).mp h)) (iblk2 V c 0 ⟨n + 1, hn⟩) (iblk2 V c 1 ⟨n + 1, hn⟩) (iblk2 V c 2 ⟨n + 1, hn⟩) (outsAt_r2 c n (Nat.lt_of_succ_lt hn)).2, sout_r2_B c (grid2.coords ⟨n + 1, hn⟩) (ms_r2_0 ⟨n + 1, hn⟩) (hs_r2_0 ⟨n + 1, hn⟩) (ms_r2_1 ⟨n + 1, hn⟩) (hs_r2_1 ⟨n + 1, hn⟩) (ms_r2_2 ⟨n + 1, hn⟩) (hs_r2_2 ⟨n + 1, hn⟩) (ms_r2_3 ⟨n + 1, hn⟩) (hs_r2_3 ⟨n + 1, hn⟩) scM_r2 (Memref.isWhole_whole _) (fun h => h0 ((hcondZ_r2 ⟨n + 1, hn⟩).mp h)) (fun h => h1 ((hcondL_r2 ⟨n + 1, hn⟩).mp h)) (iblk2 V c 0 ⟨n + 1, hn⟩) (iblk2 V c 1 ⟨n + 1, hn⟩) (iblk2 V c 2 ⟨n + 1, hn⟩) (outsAt_r2 c n (Nat.lt_of_succ_lt hn)).2)

/-- At a first step: that case's contents. -/
theorem outsAt_r2_A (c : Dev nD) (t : Fin cfg2.N) (h0 : t.val % 4 = 0) (h1 : ¬t.val % 4 = 3) :
    outsAt_r2 V c t.val t.isLt = (out_r2_A_3 c (grid2.coords t) (ms_r2_0 t) (hs_r2_0 t) (ms_r2_1 t) (hs_r2_1 t) (ms_r2_2 t) (hs_r2_2 t) (ms_r2_3 t) (hs_r2_3 t) scM_r2 (Memref.isWhole_whole _) ((hcondZ_r2 t).mpr h0) (fun h => h1 ((hcondL_r2 t).mp h)) (iblk2 V c 0 t) (iblk2 V c 1 t) (iblk2 V c 2 t), sout_r2_A c (grid2.coords t) (ms_r2_0 t) (hs_r2_0 t) (ms_r2_1 t) (hs_r2_1 t) (ms_r2_2 t) (hs_r2_2 t) (ms_r2_3 t) (hs_r2_3 t) scM_r2 (Memref.isWhole_whole _) ((hcondZ_r2 t).mpr h0) (fun h => h1 ((hcondL_r2 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- At a middle step: that case's contents, over what the point before left. -/
theorem outsAt_r2_B (c : Dev nD) (t : Fin cfg2.N) (h0 : ¬t.val % 4 = 0) (h1 : ¬t.val % 4 = 3) :
    outsAt_r2 V c t.val t.isLt = (out_r2_B_3 c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) (fun h => h1 ((hcondL_r2 t).mp h)) (iblk2 V c 0 t) (iblk2 V c 1 t) (iblk2 V c 2 t) (outsAt_r2 V c (t.val - 1) (Nat.lt_of_le_of_lt (Nat.sub_le _ _) t.isLt)).2, sout_r2_B c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) (fun h => h1 ((hcondL_r2 t).mp h)) (iblk2 V c 0 t) (iblk2 V c 1 t) (iblk2 V c 2 t) (outsAt_r2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: that case's contents, over what the point before left. -/
theorem outsAt_r2_C (c : Dev nD) (t : Fin cfg2.N) (h0 : ¬t.val % 4 = 0) (h1 : t.val % 4 = 3) :
    outsAt_r2 V c t.val t.isLt = (out_r2_C_3 c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) ((hcondL_r2 t).mpr h1) (iblk2 V c 0 t) (iblk2 V c 1 t) (iblk2 V c 2 t) (outsAt_r2 V c (t.val - 1) (Nat.lt_of_le_of_lt (Nat.sub_le _ _) t.isLt)).2, sout_r2_C c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) ((hcondL_r2 t).mpr h1) (iblk2 V c 0 t) (iblk2 V c 1 t) (iblk2 V c 2 t) (outsAt_r2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ### The invariant -/

/-- The region's invariant before position n: before the first point what the region is entered with (the accumulator
    at anything); afterwards the same chain with the accumulator at what the point before left in it. -/
def PhiS_r2 (c : Dev nD) : (n : ℕ) → n ≤ cfg2.N → sProp 𝕄
  | 0, _ => Pipeline.ΦA spec2 c
  | n + 1, hn => iprop(rest_r2 c (owns (c : Thread nD τ) scM_r2 fullShare ((outsAt_r2 V c n hn).2)) ∗ (∃ r, prngReg c r))

theorem PhiS_r2_zero (c : Dev nD) (n : ℕ) (h : n ≤ cfg2.N) (hz : n = 0) : PhiS_r2 V c n h = Pipeline.ΦA spec2 c := by
  subst hz; rfl

theorem PhiS_r2_succ (c : Dev nD) (n : ℕ) (hn : n < cfg2.N) :
    PhiS_r2 V c (n + 1) hn = iprop(rest_r2 c (owns (c : Thread nD τ) scM_r2 fullShare ((outsAt_r2 V c n hn).2)) ∗ (∃ r, prngReg c r)) := rfl

theorem PhiS_r2_pos (c : Dev nD) (n : ℕ) (h : n ≤ cfg2.N) (hz : n ≠ 0) :
    PhiS_r2 V c n h = iprop(rest_r2 c (owns (c : Thread nD τ) scM_r2 fullShare ((outsAt_r2 V c (n - 1) (by omega)).2)) ∗ (∃ r, prngReg c r)) := by
  cases n with
  | zero => exact absurd rfl hz
  | succ n => rfl

/-! ### The proof data -/

/-- The proof data of region 2 on core c: the arrays as the region finds them; after the body at point t each input's
    buffer at its block and the output's at what the accumulation says; the invariant above; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt_r2 V c t.val t.isLt).1
  Φ t := PhiS_r2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_r2_castSucc (c : Dev nD) (t : Fin cfg2.N) :
    (dat2 V c).Φ t.castSucc = PhiS_r2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt_r2 V c t.val t.isLt).1 := by dsimp only [dat2]

theorem before2_0 (c : Dev nD) (t : Fin cfg2.N) (d) : (dat2 V c).before 0 t d = iblk2 V c 0 t :=
  before_r2_0_of V (dat2 V c) (A_eq2 V c 0) (after2_0 V c) t d
theorem before2_1 (c : Dev nD) (t : Fin cfg2.N) (d) : (dat2 V c).before 1 t d = iblk2 V c 1 t :=
  before_r2_1_of V (dat2 V c) (A_eq2 V c 1) (after2_1 V c) t d
theorem before2_2 (c : Dev nD) (t : Fin cfg2.N) (d) : (dat2 V c).before 2 t d = iblk2 V c 2 t :=
  before_r2_2_of V (dat2 V c) (A_eq2 V c 2) (after2_2 V c) t d

/-! ### The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms_r2_0 t) fullShare ((dat2 V c).before 0 t d))
    ∗ (∃ d, owns (c : Thread nD τ) (ms_r2_1 t) fullShare ((dat2 V c).before 1 t d))
    ∗ (∃ d, owns (c : Thread nD τ) (ms_r2_2 t) fullShare ((dat2 V c).before 2 t d))
    ∗ (∃ d, owns (c : Thread nD τ) (ms_r2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the closed forms say which case the point is in; the
    invariant hands the body the accumulator (at anything at the very first point, at what the point before left
    otherwise) beside the other regions' scoped buffers, which the body does not touch, and takes it back at this
    point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS_r2 V c (t.val + 1) t.isLt from rfl, PhiS_r2_succ]
  have hN : t.val < 32 := lt_of_lt_of_eq t.isLt (show cfg2.N = 32 from N_2)
  rw [show (dat2 V c).leavesExact 0 t = owns (c : Thread nD τ) (ms_r2_0 t) fullShare ((dat2 V c).after 0 t) from by
    unfold Dat.leavesExact; rw [liveAt_r2_0 t], after2_0]
  rw [show (dat2 V c).leavesExact 1 t = owns (c : Thread nD τ) (ms_r2_1 t) fullShare ((dat2 V c).after 1 t) from by
    unfold Dat.leavesExact; rw [liveAt_r2_1 t], after2_1]
  rw [show (dat2 V c).leavesExact 2 t = owns (c : Thread nD τ) (ms_r2_2 t) fullShare ((dat2 V c).after 2 t) from by
    unfold Dat.leavesExact; rw [liveAt_r2_2 t], after2_2]
  by_cases h0 : t.val % 4 = 0
  · by_cases h1 : t.val % 4 = 3
    · exfalso; omega
    · rw [Dat.leavesExact_idle (dat2 V c) 3 t (idleAt_r2_3_A t ((hcondZ_r2 t).mpr h0) (fun h => h1 ((hcondL_r2 t).mp h))) (noFlush_r2_3_A t ((hcondZ_r2 t).mpr h0) (fun h => h1 ((hcondL_r2 t).mp h)))]
      rw [outsAt_r2_A V c t h0 h1]
      unfold sout_r2_A; (try dsimp only)
      by_cases hz : t.val = 0
      · rw [PhiS_r2_castSucc V c t, PhiS_r2_zero V c _ _ hz, PhiA_r2_eq]
        iintro ⟨⟨HR, Hg⟩, Ho, ⟨%d0, H0⟩, ⟨%d1, H1⟩, ⟨%d2, H2⟩, ⟨%d3, H3⟩⟩
        ihave HR' := (rest_r2_take c _) $$ HR
        icases HR' with ⟨HS0, HR⟩
        iapply ((kernelRun_r2_A c (grid2.coords t) _ _ _ _ _ _ _ _ _ _ ((hcondZ_r2 t).mpr h0) (fun h => h1 ((hcondL_r2 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · iapply (rest_r2_put c _)
            isplitl [HS0]
            · unfold owns; iexists _; isplitr
              swap; · iexact HS0
              ipureintro; exact View.read_writes_of_cover _ _ _ _ _ (scover_r2_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_r2_castSucc V c t, PhiS_r2_pos V c _ _ hz]
        iintro ⟨⟨HR, Hg⟩, Ho, ⟨%d0, H0⟩, ⟨%d1, H1⟩, ⟨%d2, H2⟩, ⟨%d3, H3⟩⟩
        ihave HR' := (rest_r2_take c _) $$ HR
        icases HR' with ⟨HS0, HR⟩
        iapply ((kernelRun_r2_A c (grid2.coords t) _ _ _ _ _ _ _ _ _ _ ((hcondZ_r2 t).mpr h0) (fun h => h1 ((hcondL_r2 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · iapply (rest_r2_put c _)
            isplitl [HS0]
            · unfold owns; iexists _; isplitr
              swap; · iexact HS0
              ipureintro; exact View.read_writes_of_cover _ _ _ _ _ (scover_r2_A c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat2 V c).leavesExact 3 t = owns (c : Thread nD τ) (ms_r2_3 t) fullShare ((dat2 V c).after 3 t) from by
        unfold Dat.leavesExact; rw [liveAt_r2_3_C t (fun h => h0 ((hcondZ_r2 t).mp h)) ((hcondL_r2 t).mpr h1)], after2_3]
      rw [outsAt_r2_C V c t h0 h1]
      unfold out_r2_C_3 sout_r2_C; (try dsimp only)
      rw [PhiS_r2_castSucc V c t, PhiS_r2_pos V c _ _ hz]
      iintro ⟨⟨HR, Hg⟩, Ho, ⟨%d0, H0⟩, ⟨%d1, H1⟩, ⟨%d2, H2⟩, ⟨%d3, H3⟩⟩
      ihave HR' := (rest_r2_take c _) $$ HR
      icases HR' with ⟨HS0, HR⟩
      iapply ((kernelRun_r2_C c (grid2.coords t) _ _ _ _ _ _ _ _ _ _ (fun h => h0 ((hcondZ_r2 t).mp h)) ((hcondL_r2 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · iapply (rest_r2_put c _)
          isplitl [HS0]
          · unfold owns; iexists _; isplitr
            swap; · iexact HS0
            ipureintro; exact View.read_writes_of_cover _ _ _ _ _ (scover_r2_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_r2_C_3 c _ _ _ _ _ _ _ _ _ _ _ _ _ _ _ _ _)
    · rw [Dat.leavesExact_idle (dat2 V c) 3 t (idleAt_r2_3_B t (fun h => h0 ((hcondZ_r2 t).mp h)) (fun h => h1 ((hcondL_r2 t).mp h))) (noFlush_r2_3_B t (fun h => h0 ((hcondZ_r2 t).mp h)) (fun h => h1 ((hcondL_r2 t).mp h)))]
      rw [outsAt_r2_B V c t h0 h1]
      unfold sout_r2_B; (try dsimp only)
      rw [PhiS_r2_castSucc V c t, PhiS_r2_pos V c _ _ hz]
      iintro ⟨⟨HR, Hg⟩, Ho, ⟨%d0, H0⟩, ⟨%d1, H1⟩, ⟨%d2, H2⟩, ⟨%d3, H3⟩⟩
      ihave HR' := (rest_r2_take c _) $$ HR
      icases HR' with ⟨HS0, HR⟩
      iapply ((kernelRun_r2_B c (grid2.coords t) _ _ _ _ _ _ _ _ _ _ (fun h => h0 ((hcondZ_r2 t).mp h)) (fun h => h1 ((hcondL_r2 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · iapply (rest_r2_put c _)
          isplitl [HS0]
          · unfold owns; iexists _; isplitr
            swap; · iexact HS0
            ipureintro; exact View.read_writes_of_cover _ _ _ _ _ (scover_r2_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS_r2 V c 0 (Nat.zero_le _) from rfl, PhiS_r2_zero V c 0 _ rfl]
  try exact Idealize.SL.BI.Entails.refl _

/-- After the last point the invariant gives back what the region was entered with: the accumulator's contents are
    forgotten. -/
theorem hout2 (c : Dev nD) : (dat2 V c).Φ (Fin.last cfg2.N) ⊢ Pipeline.ΦA spec2 c := by
  have hne : (Fin.last cfg2.N).val ≠ 0 := by rw [Fin.val_last]; have : cfg2.N = 32 := N_2; omega
  rw [show (dat2 V c).Φ (Fin.last cfg2.N) = PhiS_r2 V c (Fin.last cfg2.N).val (Nat.le_of_lt_succ (Fin.last cfg2.N).isLt) from rfl,
    PhiS_r2_pos V c _ _ hne, PhiA_r2_eq]
  iintro ⟨HR, Hg⟩
  isplitl [HR]
  · ihave HR' := (rest_r2_take c _) $$ HR
    icases HR' with ⟨HS0, HR⟩
    iapply (rest_r2_put c _)
    isplitl [HS0]; · iexists _; iexact HS0
    iexact HR
  iexact Hg

end Region2

end Cert.KernelIdeal.Fr

end
-- ==== Proof.Launch3.lean ====
import proofs.«114685_j41644002902021_1_alg».proof.Proof.Gen.KernelIdeal.Launch
import proofs.«114685_j41644002902021_1_alg».proof.Proof.Gen.KernelIdeal.Skeleton
import proofs.«114685_j41644002902021_1_alg».proof.Proof.Gen.KernelIdeal.Points
import proofs.«114685_j41644002902021_1_alg».proof.Proof.Reg0
import proofs.«114685_j41644002902021_1_alg».proof.Proof.Reg1
import proofs.«114685_j41644002902021_1_alg».proof.Proof.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main, from the launch to the return

@main is four items in order: region 0, a host stretch of two reshapes, region 1, region 2. Between two items a
core holds every unscoped buffer whole at a known valuation; the five valuations are a fold from the launch
memory. A region changes only its own arrays (an input array is left as found, an output array ends at the
fold of the region's write-backs); the host stretch changes only the two buffers its reshapes write.

## The buffer contents at each boundary -/

/-- Core c's buffers at launch: what region 0 is entered with (nothing precedes it). -/
abbrev W0 : Dev nD → Valuation τ sig (Elt F) := fun c b => (s₀ m ρ).mem ((c : Dev nD), b)
/-- The same, read at the TensorCore's references. -/
abbrev V0 : (c : Dev nD) → (b : Ref sig .tc) → Buf (Elt F) ((c : Thread nD τ).loc b) := fun c b => W0 m ρ c b
/-- At region 0's exit: its three arrays at what the pipeline leaves, every other buffer as at launch. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 0's exit contents at the TensorCore's references. -/
abbrev V1 : (c : Dev nD) → (b : Ref sig .tc) → Buf (Elt F) ((c : Thread nD τ).loc b) := fun c b => W1 m ρ c b
/-- At region 0's exit each of its arrays holds what the pipeline leaves, and every other buffer what it held at
    entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes: main_v1 holds main_arg3 as a column, main_v2 holds main_arg4 as a column, every other
    buffer is as region 0 left it. What region 1 is entered with. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At region 1's exit: its four arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Region 1's exit contents at the TensorCore's references: what region 2 is entered with. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit, the end of @main: its four arrays at what the pipeline leaves, every other buffer as
    entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- Region 2's exit contents at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## What the host stretch writes -/

/-- Neither reshape allocates a buffer. -/
theorem hostOps1_fresh : (hostOps1 : List (HloOp τ sig (Elt F))).Forall fun op => op.fresh = ∅ :=
  ⟨rfl, rfl⟩
/-- The two buffers the reshapes write: the two columns. -/
abbrev hostOps1_W : List (Ref sig .tc) := [main_v1, main_v2]
theorem hostOps1_writes : (hostOps1 : List (HloOp τ sig (Elt F))).Forall fun op =>
    op.writes ⊆ (hostOps1_W.map (Proc.devRef (τ := τ) .tc)).toFinset := by
  have h : ∀ (x y : Ref sig .tc) he hn hx hy, y ∈ (hostOps1_W : List (Ref sig .tc)) →
      (StableHlo.reshape (τ := τ) (Val := Elt F) x y he hn hx hy).writes ⊆ (hostOps1_W.map (Proc.devRef (τ := τ) .tc)).toFinset := by
    intro x y he hn hx hy hy'
    rw [StableHlo.reshape_writes, Finset.singleton_subset_iff, List.mem_toFinset]
    exact List.mem_map_of_mem hy'
  exact ⟨h _ _ _ _ _ _ (by decide), h _ _ _ _ _ _ (by decide)⟩
/-- A buffer that is neither column is, after the stretch, as region 0 left it. -/
theorem W2_of (c : Dev nD) (r : Ref sig .tc) (h : r ∉ (hostOps1_W : List (Ref sig .tc))) :
    W2 m ρ c (Proc.devRef .tc r) = W1 m ρ c (Proc.devRef .tc r) :=
  StableHlo.after_of_writes_sub hostOps1 _ hostOps1_writes h

/-! ## Each argument ends as launched

No reshape writes an argument, and a region that reads one reads it through an input window, whose array the
pipeline leaves as it found it; so the fold at an argument's buffer walks back to the launch memory. -/

/-- main_arg2 is region 1's first input and region 2's first input; when region 1 is entered it is as launched. -/
theorem V2_main_arg2 (c : Dev nD) : V2 m ρ c main_arg2 = m ((c : Thread nD τ).loc main_arg2) :=
  calc W2 m ρ c (Proc.devRef .tc main_arg2)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
/-- When region 2 is entered it is still as launched: region 1 read it through an input window. -/
theorem V3_main_arg2 (c : Dev nD) : V3 m ρ c main_arg2 = m ((c : Thread nD τ).loc main_arg2) :=
  ((W3_arr m ρ c 0).trans (((dat1 (V2 m ρ) c).arrAt_in 0 rfl _).trans (A_eq1 (V2 m ρ) c 0))).trans (V2_main_arg2 m ρ c)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W4_main_arg2 (c : Dev nD) : W4 m ρ c (Proc.devRef .tc main_arg2) = m ((c : Thread nD τ).loc main_arg2) :=
  ((W4_arr m ρ c 0).trans (((dat2 (V3 m ρ) c).arrAt_in 0 rfl _).trans (A_eq2 (V3 m ρ) c 0))).trans (V3_main_arg2 m ρ c)
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl

/-- The program's result, main_v4, is region 2's output array: at the end it holds the fold of region 2's
    write-backs. -/
theorem W4_main_v4 (c : Dev nD) : W4 m ρ c (Proc.devRef .tc main_v4) = (dat2 (V3 m ρ) c).arrAt 3 cfg2.N :=
  W4_arr m ρ c 3

/-! ## What each region finds in the arrays it reads -/

/-- Region 0 is entered with the launch memory. -/
theorem V0_apply (c : Dev nD) (b : Ref sig .tc) : V0 m ρ c b = m ((c : Thread nD τ).loc b) := rfl

/-- Region 1 finds in main_v0 what region 0's write-backs left there: no reshape writes it. -/
theorem V2_main_v0 (c : Dev nD) : V2 m ρ c main_v0 = (dat0 (V0 m ρ) c).arrAt 2 cfg0.N :=
  (W2_of m ρ c main_v0 (by decide)).trans (W1_arr m ρ c 2)

/-- Region 2 finds in main_v3 what region 1's write-backs left there. -/
theorem V3_main_v3 (c : Dev nD) : V3 m ρ c main_v3 = (dat1 (V2 m ρ) c).arrAt 3 cfg1.N :=
  W3_arr m ρ c 3

/-- Region 1 finds in main_v1 the argument main_arg3 laid out as a column: the first reshape wrote it from
    main_arg3, which region 0 does not touch. -/
theorem V2_main_v1 (c : Dev nD) : V2 m ρ c main_v1 = fun i =>
    (rfl : main_arg3.ty.elt = main_v1.ty.elt) ▸ shapeCast main_v1.ty.shape (m ((c : Thread nD τ).loc main_arg3)) shapeCasts_S8192_S8192x1 i := by
  have h : W1 m ρ c (Proc.devRef .tc main_arg3) = m ((c : Thread nD τ).loc main_arg3) :=
    (W1_of_ne m ρ c main_arg3 (by decide)).trans rfl
  show StableHlo.after hostOps1 (W1 m ρ c) (Proc.devRef .tc main_v1) = _
  unfold hostOps1
  after_results
  rw [h]

/-- Region 2 finds in main_v2 the argument main_arg4 laid out as a column: the second reshape wrote it from
    main_arg4, which region 0 does not touch, and region 1 does not touch main_v2. -/
theorem V3_main_v2 (c : Dev nD) : V3 m ρ c main_v2 = fun i =>
    (rfl : main_arg4.ty.elt = main_v2.ty.elt) ▸ shapeCast main_v2.ty.shape (m ((c : Thread nD τ).loc main_arg4)) shapeCasts_S16384_S16384x1 i := by
  have h : W1 m ρ c (Proc.devRef .tc main_arg4) = m ((c : Thread nD τ).loc main_arg4) :=
    (W1_of_ne m ρ c main_arg4 (by decide)).trans rfl
  have h3 : V3 m ρ c main_v2 = W2 m ρ c (Proc.devRef .tc main_v2) := W3_of_ne m ρ c main_v2 (by decide)
  rw [h3]
  show StableHlo.after hostOps1 (W1 m ρ c) (Proc.devRef .tc main_v2) = _
  unfold hostOps1
  after_results
  rw [h]

/-! ## The proof data family and the thread state -/

/-- The prefetched tables' admissible contents: no region has a table. -/
abbrev adm : (p : Fin 3) → (pcfgs (F := F) p).Adm := fun p => (cfgs p).toPCfg_adm
/-- Every region's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its debts, at nothing. -/
abbrev R (c : Dev nD) : sProp 𝕄 := iprop((∃ r, prngReg c r) ∗ ∃ W, owes (c : Thread nD τ) (0 : CellTallies nD τ sig Unit) W)
/-- A host stretch as a segment over the unscoped buffers from the contents W, R riding along: it leaves those
    buffers at the stretch's result from W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents W4, the
    generator register at some state. -/
abbrev Tₙ (c : Dev nD) : sProp 𝕄 := iprop(StableHlo.held (c : Thread nD τ) (Pipeline.ucRefs τ sig) (W4 m ρ c) ∗ ∃ r, prngReg c r)

/-! ## The regions as segments

Each region is entered from every unscoped buffer at its entry valuation and left at its exit valuation. Its
arrays are split out of the unscoped buffers and put back at the exit contents; the generator register and the
scoped buffers no window stages make the region's invariant before its first point and are given back after its
last; nothing is owed; the kernels have no semaphore of their own. -/

set_option backward.isDefEq.respectTransparency.types false in
/-- Region 0: from the launch contents W0 to W1. Its invariant is the same at every point. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: from W2 to W3. Its invariant carries the accumulator from point to point: before the first point
    it is what the region is entered with, and after the last point it gives that back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    iintro H
    ihave H' := (hout1 (V2 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: from W3 to W4, the end. Its invariant carries the accumulator as region 1's does. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    iintro ⟨Hp, -, Hr⟩
    iapply (hin2 (V3 m ρ) c)
    unfold Pipeline.ΦA
    isplitl [Hr]; · iexact Hr
    iexact Hp
  hout c := by
    rw [Pipeline.ownSems0_none, show (pdats m ρ 2 c).Φ (Fin.last _) = (dat2 (V3 m ρ) c).Φ (Fin.last cfg2.N) from rfl]
    iintro H
    ihave H' := (hout2 (V3 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: region 0 from the launch contents, the two reshapes from W1, region 1,
    region 2. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]
/-- @main is the run of the segments. -/
theorem main_run (c : Dev nD) : main (F := F) c = Pipeline.Seg.run (segs m ρ) :=
  main_segs adm (pdats m ρ) () 𝒱₀ L lv (hseg hostOps1 hostOps1_sub hostOps1_fresh (W1 m ρ)) (reg0 m ρ) (reg1 m ρ) (reg2 m ρ) rfl c

set_option backward.isDefEq.respectTransparency.types false in
/-- THE RUN. At the compiled mesh, from any memory with zero counters, every weakly fair execution of @main on
    the TensorCores terminates, nothing faulting, and in every final state every unscoped buffer of every core
    holds the last valuation W4. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: in every final state each of the five argument arrays holds what it held at launch. Each is an
    unscoped buffer, so the run gives it at W4, and W4 at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Fr

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«114685_j41644002902021_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.Spec.lean ====
/-
  The hypergraph convolution as plain functions of its arguments, entry by entry on the extended reals, generic in the
  extents: n nodes, e hyperedges, k input features, f output features.

  * projY   : the projected features, row r of x times the weight: Y (r, q) = sum over j of x (r, j) * w (j, q);
  * edgeE   : the node-to-edge aggregation scaled by the edge degree: E (p, q) = dv p * sum over r of mt (p, r) * y (r, q);
  * nodeN   : the edge-to-node aggregation, which contracts the FIRST axis of the incidence matrix (the product with
              its transpose), scaled by h times the node degree: N (r, q) = (h * de r) * sum over p of mt (p, r) * ey (p, q);
  * conv    : the three in order.

  The factors of each product stand in the order both programs multiply them, so no law of the extended reals beyond
  the regrouping of sums is needed to meet either program.
-/
import Mathlib.Algebra.BigOperators.Fin
import Idealize.ShloMosaic.Lib.ValueIdx
import Idealize.ShloMosaic.PureOps.Ideal
import proofs.«114685_j41644002902021_1_alg».proof.Proof.LibDenseLayer

noncomputable section

namespace Cert.Spec

open Idealize.ShloMosaic Idealize.ShloMosaic.ValueIdx
open Cert.DenseLayer (Mat prodRow)

/-- A vector of p extended reals. -/
abbrev Col (p : ℕ) : Type := (⟨1, ![p]⟩ : Shape).Idx → EReal

variable {n e k f : ℕ}

/-- Column q of the product with the transposed incidence matrix: the sum over the edges p of mt (p, r) * ey (p, q). -/
def prodCol (mt : Mat e n) (ey : Mat e f) (r : Fin n) (q : Fin f) : EReal :=
  ∑ p : Fin e, mt (ix2 p r) * ey (ix2 p q)

/-- The projected features. -/
def projY (x : Mat n k) (w : Mat k f) : Mat n f := fun j => prodRow x w (j 0) (j 1)

/-- The edge features: the incidence matrix times the projected features, each edge's row scaled by its degree. -/
def edgeE (mt : Mat e n) (y : Mat n f) (dv : Col e) : Mat e f := fun j => dv (ix1 (j 0)) * prodRow mt y (j 0) (j 1)

/-- The node features: the transposed incidence matrix times the edge features, each node's row scaled by h times its
    degree. -/
def nodeN (h : EReal) (mt : Mat e n) (ey : Mat e f) (de : Col n) : Mat n f :=
  fun j => (h * de (ix1 (j 0))) * prodCol mt ey (j 0) (j 1)

/-- The whole convolution. -/
def conv (h : EReal) (x : Mat n k) (w : Mat k f) (mt : Mat e n) (dv : Col e) (de : Col n) : Mat n f :=
  nodeN h mt (edgeE mt (projY x w) dv) de

theorem projY_apply (x : Mat n k) (w : Mat k f) (r : Fin n) (q : Fin f) : projY x w (ix2 r q) = prodRow x w r q := rfl

theorem edgeE_apply (mt : Mat e n) (y : Mat n f) (dv : Col e) (p : Fin e) (q : Fin f) :
    edgeE mt y dv (ix2 p q) = dv (ix1 p) * prodRow mt y p q := rfl

theorem nodeN_apply (h : EReal) (mt : Mat e n) (ey : Mat e f) (de : Col n) (r : Fin n) (q : Fin f) :
    nodeN h mt ey de (ix2 r q) = (h * de (ix1 r)) * prodCol mt ey r q := rfl

end Cert.Spec

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«114685_j41644002902021_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.Val0.lean ====
/-
  What region 0 leaves in its output array, at the ideal values: the projected features Y = x · w.

  The region's grid has eight points. Point t is handed rows 2048·t … 2048·t + 2047 of x (all 256 columns) and the
  whole 256 × 128 weight w, and writes back the product of the two, a 2048 × 128 block, over rows
  2048·t … 2048·t + 2047 of the output. Entry (r, q) of that block is the sum over k of x_block (r, k) · w (k, q),
  which is the sum over k of x (2048·t + r, k) · w (k, q): entry (2048·t + r, q) of the whole product. So each
  point writes its own block of rows of ONE array, x · w; the eight blocks of 2048 rows tile the 16384 rows (row i
  lies in the block of point i / 2048), and the output ends holding x · w entry by entry.
-/
import proofs.«114685_j41644002902021_1_alg».proof.Proof.Reg0
import proofs.«114685_j41644002902021_1_alg».proof.Proof.Spec
import proofs.«114685_j41644002902021_1_alg».proof.Proof.LibDenseLayer
import proofs.«114685_j41644002902021_1_alg».proof.Proof.LibPlainDot
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- The zero offsets of a whole-block access, as the constant function. -/
theorem hz0 : (![0, 0] : Fin 2 → Nat) = fun _ => 0 := funext fun a => by fin_cases a <;> rfl

/-- The body's matrix product sums the left operand's second axis against the right operand's first. -/
theorem plain0 : Cert.DenseLayer.PlainDot dot_S2048x256_S256x128_S2048x128_1_0_0_1_n_n :=
  Cert.DenseLayer.plainDot_of_axes _ rfl rfl rfl rfl rfl rfl

/-- The body's payload at (r, q): row r of the x block times column q of the weight. -/
theorem pay0_apply (x0 : Vec Ideal S2048x256 .f32) (x1 : Vec Ideal S256x128 .f32) (j : S2048x128.Idx) :
    k0_pay1 (F := Ideal) x0 x1 j = Cert.DenseLayer.prodRow x0 x1 (j 0) (j 1) := by
  unfold k0_pay1
  exact Cert.DenseLayer.matmul_zero_apply plain0 none x0 x1 j

/-- The windows' index maps over the grid: the x window and the output window are both at block row t, every other
    block coordinate is zero. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- A row of a product read inside a block of rows: if row r of the block xb is row R of the matrix X, entry by
    entry, and column q of the block's weight is column Q of W, the two entries of the products agree. -/
theorem prodRow_of_rows0 (X : Cert.DenseLayer.Mat 16384 256) (W : Cert.DenseLayer.Mat 256 128)
    (xb : Cert.DenseLayer.Mat 2048 256) (wb : Cert.DenseLayer.Mat 256 128) (r : Fin 2048) (R : Fin 16384)
    (q Q : Fin 128)
    (hx : ∀ k : Fin 256, xb (ix2 r k) = X (ix2 R k)) (hw : ∀ k : Fin 256, wb (ix2 k q) = W (ix2 k Q)) :
    Cert.DenseLayer.prodRow xb wb r q = Cert.DenseLayer.prodRow X W R Q :=
  Finset.sum_congr rfl fun k _ => by rw [hx k, hw k]

variable (V : (c : Dev nD) → (b : Ref sig .tc) → Buf (Elt Ideal) ((c : Thread nD τ).loc b))

/-- The whole product, as the contents of the output array. -/
abbrev Y0 (c : Dev nD) : Buf (Elt Ideal) ((c : Thread nD τ).loc main_v0) :=
  Cert.Spec.projY (V c main_arg0) (V c main_arg1)

/-- What point t writes back is block t of the whole product. -/
theorem flushed0_eq (c : Dev nD) (t : Fin cfg0.N) :
    (dat0 (F := Ideal) V c).flushed 2 t = ((cfg0.win 2).blk t).view.read (Elt Ideal) (Y0 V c) := by
  show (cfg0.win 2).cut (grid0.coords t) ((dat0 (F := Ideal) V c).after 2 t) = _
  rw [after0_2]
  unfold out0_2
  rw [View.canon_unit_zero hz0]
  simp only [View.ld_unit_zero (S := S2048x256) hz0, View.ld_unit_zero (S := S256x128) hz0]
  obtain ⟨e0, e1, e2, e3, e4, e5⟩ := idx_facts0 t
  funext j
  show k0_pay1 (F := Ideal) (iblk0 V c 0 t) (iblk0 V c 1 t) j
    = Cert.Spec.projY (V c main_arg0) (V c main_arg1) (((cfg0.win 2).blk t).view.emb j)
  refine (pay0_apply (iblk0 V c 0 t) (iblk0 V c 1 t) j).trans ?_
  refine prodRow_of_rows0 (V c main_arg0) (V c main_arg1) (iblk0 V c 0 t) (iblk0 V c 1 t) (j 0)
    ((((cfg0.win 2).blk t).view.emb j) 0) (j 1) ((((cfg0.win 2).blk t).view.emb j) 1) ?_ ?_
  · intro k
    show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 256 + 1 * k.val = k.val
      omega
  · intro k
    show V c main_arg1 (((cfg0.win 1).blk t).view.emb (ix2 k (j 1)))
      = V c main_arg1 (ix2 k ((((cfg0.win 2).blk t).view.emb j) 1))
    refine congrArg (V c main_arg1) (funext fun a => Fin.ext ?_)
    match a with
    | ⟨0, _⟩ =>
      show win0_1.index t (0 : Fin 2) * 256 + 1 * k.val = k.val
      omega
    | ⟨1, _⟩ =>
      show win0_1.index t (1 : Fin 2) * 128 + 1 * (j 1).val = win0_2.index t (1 : Fin 2) * 128 + 1 * (j 1).val
      omega

/-- An index of the output array is in point t's block iff each coordinate is in the block's range on its axis. -/
theorem mem_blk0 (t : Fin cfg0.N) (i : S16384x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v0).slice (win0_2.rect t)).set ↔ _
  rw [View.set_slice_whole, Rect.mem_set_unit]
  exact Iff.rfl

/-- The eight blocks of 2048 rows tile the 16384 rows: row i is in the block of point i / 2048, and that point
    writes its block back. -/
theorem cover0 (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 8 := rfl
  let t : Fin cfg0.N := ⟨(i 0).val / 2048, by rw [hN]; omega⟩
  have ht : t.val = (i 0).val / 2048 := rfl
  obtain ⟨e0, e1, e2, e3, e4, e5⟩ := idx_facts0 t
  refine ⟨t, flush0_2 t, ?_⟩
  rw [mem_blk0]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 128 ≤ (i 1).val ∧ (i 1).val < win0_2.index t (1 : Fin 2) * 128 + 128
    omega

/-- After the region the output array holds the projected features x · w. -/
theorem final0 (c : Dev nD) :
    (dat0 (F := Ideal) V c).arrAt 2 cfg0.N = Cert.Spec.projY (V c main_arg0) (V c main_arg1) :=
  (dat0 (F := Ideal) V c).arrAt_eq_of_cover 2 (Y0 V c) (fun t _ => flushed0_eq V c t) cover0

end Cert.KernelIdeal.Val

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«114685_j41644002902021_1_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.LibBlockedRowsDot.lean ====
/-
  A product with the rows of a matrix, `x · wᵀ`, taken a block of columns at a time.

  For `x : [a, K]` and `w : [N, K]`, entry `(r, q)` of `x · wᵀ` is the sum over the `K` columns of
  `x (r, k) * w (q, k)` (`prodRowT`). When `K = T * B`, cut the columns into `T` consecutive blocks of `B`:

  * `blkCol kt j` is column `j` of block `kt` as a column of the whole, number `j + B * kt`;
  * `sum_eq_sum_blocks`: a sum over all columns is the sum over the blocks of the sums inside each block, in any
    commutative monoid, so on the extended reals without any finiteness;
  * `blockDot kt` is block `kt`'s part of the entry, `prodRowT_eq_sum_blockDot` the entry as the sum of the parts,
    and `prodRowT_eq_blockDot` recognises a part in the product of two `B`-column matrices that are slices of `x`
    and `w` (of any heights: only one row of each is read);
  * `partialDot k` is the sum of the parts of blocks `0 … k`: what an accumulator that starts from the first block's
    part (`partialDot_zero`) and grows by one block per step (`partialDot_succ`) holds after step `k`, and after the
    last block the whole entry (`partialDot_last`).

  All are generic in the extents.
-/
import Mathlib.Algebra.BigOperators.Fin
import Mathlib.Data.Fintype.BigOperators
import Mathlib.Logic.Equiv.Fin.Basic
import proofs.«114685_j41644002902021_1_alg».proof.Proof.LibRowsDot

noncomputable section

namespace Cert.BlockedRows

open Idealize.ShloMosaic Idealize.ShloMosaic.ValueIdx
open Cert.DenseLayer (Mat)
open Cert.DenseRows (prodRowT)

section Blocks

variable {T B K : ℕ} (hK : T * B = K)

/-- Column `j` of block `kt`, as a column of the whole: number `j + B * kt`. -/
def blkCol (kt : Fin T) (j : Fin B) : Fin K := Fin.cast hK (finProdFinEquiv (kt, j))

theorem blkCol_val (kt : Fin T) (j : Fin B) : (blkCol hK kt j).val = j.val + B * kt.val := rfl

/-- A sum over all the columns is the sum over the blocks of the sums inside each block. -/
theorem sum_eq_sum_blocks {M : Type} [AddCommMonoid M] (f : Fin K → M) :
    ∑ i : Fin K, f i = ∑ kt : Fin T, ∑ j : Fin B, f (blkCol hK kt j) := by
  subst hK
  have h := (Equiv.sum_comp (finProdFinEquiv (m := T) (n := B)) f).symm
  rw [h, Fintype.sum_prod_type]
  rfl

variable {a N : ℕ}

/-- The part of entry `(r, q)` of `x · wᵀ` that block `kt` of the columns contributes. -/
def blockDot (x : Mat a K) (w : Mat N K) (r : Fin a) (q : Fin N) (kt : Fin T) : EReal :=
  ∑ j : Fin B, x (ix2 r (blkCol hK kt j)) * w (ix2 q (blkCol hK kt j))

/-- The whole contraction is the sum of the blocks' parts. -/
theorem prodRowT_eq_sum_blockDot (x : Mat a K) (w : Mat N K) (r : Fin a) (q : Fin N) :
    prodRowT x w r q = ∑ kt : Fin T, blockDot hK x w r q kt :=
  sum_eq_sum_blocks hK fun k => x (ix2 r k) * w (ix2 q k)

/-- A product of two `B`-column matrices whose rows `p` and `s` are block `kt` of rows `r` of `x` and `q` of `w`
    is that block's part. -/
theorem prodRowT_eq_blockDot {a' N' : ℕ} (xb : Mat a' B) (wb : Mat N' B) (x : Mat a K) (w : Mat N K)
    (p : Fin a') (s : Fin N') (r : Fin a) (q : Fin N) (kt : Fin T)
    (hx : ∀ j, xb (ix2 p j) = x (ix2 r (blkCol hK kt j))) (hw : ∀ j, wb (ix2 s j) = w (ix2 q (blkCol hK kt j))) :
    prodRowT xb wb p s = blockDot hK x w r q kt :=
  Finset.sum_congr rfl fun j _ => by rw [hx j, hw j]

/-- Block number `kt`'s part when `kt` is a block, zero past the last block. -/
def blockDotN (x : Mat a K) (w : Mat N K) (r : Fin a) (q : Fin N) (kt : ℕ) : EReal :=
  if h : kt < T then blockDot hK x w r q ⟨kt, h⟩ else 0

theorem blockDotN_of_lt (x : Mat a K) (w : Mat N K) (r : Fin a) (q : Fin N) (kt : ℕ) (h : kt < T) :
    blockDotN hK x w r q kt = blockDot hK x w r q ⟨kt, h⟩ := dif_pos h

/-- The sum of the parts of blocks `0 … k`: what an accumulator holds after step `k`. -/
def partialDot (x : Mat a K) (w : Mat N K) (r : Fin a) (q : Fin N) (k : ℕ) : EReal :=
  ∑ kt ∈ Finset.range (k + 1), blockDotN hK x w r q kt

theorem partialDot_zero (x : Mat a K) (w : Mat N K) (r : Fin a) (q : Fin N) (h : 0 < T) :
    partialDot hK x w r q 0 = blockDot hK x w r q ⟨0, h⟩ := by
  unfold partialDot
  rw [Finset.sum_range_one, blockDotN_of_lt hK x w r q 0 h]

theorem partialDot_succ (x : Mat a K) (w : Mat N K) (r : Fin a) (q : Fin N) (k : ℕ) (h : k + 1 < T) :
    partialDot hK x w r q (k + 1) = partialDot hK x w r q k + blockDot hK x w r q ⟨k + 1, h⟩ := by
  unfold partialDot
  rw [Finset.sum_range_succ _ (k + 1), blockDotN_of_lt hK x w r q (k + 1) h]

/-- After the last block the accumulator holds the whole contraction. -/
theorem partialDot_last (x : Mat a K) (w : Mat N K) (r : Fin a) (q : Fin N) (k : ℕ) (h : k + 1 = T) :
    partialDot hK x w r q k = prodRowT x w r q := by
  unfold partialDot
  rw [prodRowT_eq_sum_blockDot hK, h, Finset.sum_range]
  exact Finset.sum_congr rfl fun kt _ => blockDotN_of_lt hK x w r q kt.val kt.isLt

end Blocks

end Cert.BlockedRows

end
-- ==== Proof.LibBlockedSum.lean ====
/-
  A sum over K = T * B indices taken a block of B at a time, and the running sum of the blocks, in any commutative
  monoid (so on the extended reals without any finiteness).

  * blockSum kt    : the sum of f over block kt, the indices j + B * kt for j < B;
  * sum_eq_sum_blockSum : the whole sum is the sum of the blocks' sums;
  * partialSum k   : the sum of the blocks 0 ... k: what an accumulator that starts from the first block's sum
    (partialSum_zero) and grows by one block's sum per step (partialSum_succ) holds after step k, and after the last
    block the whole sum (partialSum_last).

  All are generic in the extents and in the summand.
-/
import Mathlib.Algebra.BigOperators.Fin
import Mathlib.Data.Fintype.BigOperators
import Mathlib.Logic.Equiv.Fin.Basic
import proofs.«114685_j41644002902021_1_alg».proof.Proof.LibBlockedRowsDot

noncomputable section

namespace Cert.BlockedSum

open Cert.BlockedRows (blkCol blkCol_val sum_eq_sum_blocks)

variable {T B K : ℕ} (hK : T * B = K) {M : Type} [AddCommMonoid M]

/-- The sum of f over block kt. -/
def blockSum (f : Fin K → M) (kt : Fin T) : M := ∑ j : Fin B, f (blkCol hK kt j)

/-- The whole sum is the sum of the blocks' sums. -/
theorem sum_eq_sum_blockSum (f : Fin K → M) : ∑ i : Fin K, f i = ∑ kt : Fin T, blockSum hK f kt :=
  sum_eq_sum_blocks hK f

/-- Block number kt's sum when kt is a block, zero past the last block. -/
def blockSumN (f : Fin K → M) (kt : ℕ) : M := if h : kt < T then blockSum hK f ⟨kt, h⟩ else 0

theorem blockSumN_of_lt (f : Fin K → M) (kt : ℕ) (h : kt < T) : blockSumN hK f kt = blockSum hK f ⟨kt, h⟩ := dif_pos h

/-- The sum of the blocks 0 ... k: what an accumulator holds after step k. -/
def partialSum (f : Fin K → M) (k : ℕ) : M := ∑ kt ∈ Finset.range (k + 1), blockSumN hK f kt

theorem partialSum_zero (f : Fin K → M) (h : 0 < T) : partialSum hK f 0 = blockSum hK f ⟨0, h⟩ := by
  unfold partialSum
  rw [Finset.sum_range_one, blockSumN_of_lt hK f 0 h]

theorem partialSum_succ (f : Fin K → M) (k : ℕ) (h : k + 1 < T) :
    partialSum hK f (k + 1) = partialSum hK f k + blockSum hK f ⟨k + 1, h⟩ := by
  unfold partialSum
  rw [Finset.sum_range_succ _ (k + 1), blockSumN_of_lt hK f (k + 1) h]

/-- After the last block the accumulator holds the whole sum. -/
theorem partialSum_last (f : Fin K → M) (k : ℕ) (h : k + 1 = T) : partialSum hK f k = ∑ i : Fin K, f i := by
  unfold partialSum
  rw [sum_eq_sum_blockSum hK, h, Finset.sum_range]
  exact Finset.sum_congr rfl fun kt _ => blockSumN_of_lt hK f kt.val kt.isLt

end Cert.BlockedSum

end
-- ==== Proof.Val1.lean ====
/-
  What region 1 leaves in its output array, at the ideal values: the edge features
  E (p, q) = dv p * (the sum over all 16384 nodes r of MT (p, r) * Y (r, q)).

  The region's grid is 4 x 8, the second coordinate fastest: point t works on edge block t / 8 (rows 2048 * (t / 8) ...
  of the incidence matrix MT, of the degree column dv and of the output) at step t % 8 (columns 2048 * (t % 8) ... of MT,
  rows 2048 * (t % 8) ... of the projected features Y). An accumulator of one output block is cleared at a first step,
  grows at every point by the product of the point's incidence block and its block of Y, and at a last step is scaled
  row by row by the degree column and stored into the output block, which is then written back.

  * Each case of a point leaves the payload of its last store: the accumulator at (zeros or what it held) plus the
    product, the output's buffer at the degree column times that (generic in the values).
  * At the ideal values the product of the two blocks at (r, q) is the part of the sum over all nodes that node block
    t % 8 contributes to entry (2048 * (t / 8) + r, q): column j of block kt is node number j + 2048 * kt.
  * So by induction on the point the accumulator holds after point t the sum of the parts of node blocks 0 ... t % 8,
    and after a last step the whole sum.
  * The four last steps write back the four blocks of 2048 rows of the output, which tile its 8192 rows: row i lies in
    the block of the last step of edge block i / 2048.
-/
import proofs.«114685_j41644002902021_1_alg».proof.Proof.Reg1
import proofs.«114685_j41644002902021_1_alg».proof.Proof.Spec
import proofs.«114685_j41644002902021_1_alg».proof.Proof.LibDenseLayer
import proofs.«114685_j41644002902021_1_alg».proof.Proof.LibPlainDot
import proofs.«114685_j41644002902021_1_alg».proof.Proof.LibColumnLayout
import proofs.«114685_j41644002902021_1_alg».proof.Proof.LibBlockedSum
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Tactic
open Idealize.ShloMosaic.Pipeline (Dat)
open Cert.DenseLayer (Mat prodRow)
open Cert.BlockedSum (blockSum partialSum)
open Cert.BlockedRows (blkCol blkCol_val)

/-- The zero offsets of a whole-block access, as the constant function. -/
theorem hz1 : (![0, 0] : Fin 2 → Nat) = fun _ => 0 := funext fun a => by fin_cases a <;> rfl

section Pieces

variable {F : FTy → Type} [FloatOps F]

/-! ## What each case of a point leaves, as the body's payloads of the point's blocks

The body's stores go through the whole-shape rectangle at zero offsets, so each case leaves the payload of its
last store, and a load of the accumulator after a store reads that store's payload. -/

/-- A middle step leaves in the accumulator what it held plus the product of the point's two blocks. -/
theorem sout_B_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : ¬condL_r1 i)
    (x0 : Vec F S2048x2048 .f32) (x1 : Vec F S2048x128 .f32) (x2 : Vec F S2048x1 .f32) (xs0 : Vec F S2048x128 .f32) :
    sout_r1_B c i arg2 harg2 arg3 harg3 arg4 harg4 arg5 harg5 arg6 harg6 hc0 hc1 x0 x1 x2 xs0 = k1_pay2 xs0 x0 x1 := by
  unfold sout_r1_B
  rw [View.read_writes_eq_canon _ _ _ (scover_r1_B c i arg2 harg2 arg3 harg3 arg4 harg4 arg5 harg5 arg6 harg6 hc0 hc1 x0 x1 x2 xs0)]
  unfold kernelRun_r1_B
  dsimp only
  try sl_unfold_words
  rw [View.canon_unit_zero hz1]
  simp only [View.readAt_eq_ld, harg2.read_unread, harg3.read_unread, harg4.read_unread, harg6.read_unread, View.ld_unit_zero (S := S2048x128) hz1, View.ld_unit_zero (S := S2048x2048) hz1, View.ld_unit_zero (S := S2048x1) hz1, View.readCov_unit_zero (S := S2048x128) _ hz1]

/-- A first step clears the accumulator and then adds the product onto the zeros it reads back. -/
theorem sout_A_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r1 i) (hc1 : ¬condL_r1 i)
    (x0 : Vec F S2048x2048 .f32) (x1 : Vec F S2048x128 .f32) (x2 : Vec F S2048x1 .f32) :
    sout_r1_A c i arg2 harg2 arg3 harg3 arg4 harg4 arg5 harg5 arg6 harg6 hc0 hc1 x0 x1 x2 = k1_pay2 (k1_pay1 (F := F)) x0 x1 := by
  unfold sout_r1_A
  rw [View.read_writes_eq_canon _ _ _ (scover_r1_A c i arg2 harg2 arg3 harg3 arg4 harg4 arg5 harg5 arg6 harg6 hc0 hc1 x0 x1 x2)]
  unfold kernelRun_r1_A
  dsimp only
  try sl_unfold_words
  rw [View.canon_cons_unit_zero (S := S2048x128) hz1, View.readCov_unit_zero (S := S2048x128) _ hz1]
  simp only [View.readAt_eq_ld, harg2.read_unread, harg3.read_unread, harg4.read_unread, harg6.read_unread, View.ld_unit_zero (S := S2048x128) hz1, View.ld_unit_zero (S := S2048x2048) hz1, View.ld_unit_zero (S := S2048x1) hz1, View.readCov_unit_zero (S := S2048x128) _ hz1]

/-- A last step leaves in the accumulator what a middle step does, -/
theorem sout_C_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) :
    sout_r1_C c i arg2 harg2 arg3 harg3 arg4 harg4 arg5 harg5 arg6 harg6 hc0 hc1 x0 x1 x2 xs0 = k1_pay2 xs0 x0 x1 := by
  unfold sout_r1_C
  rw [View.read_writes_eq_canon _ _ _ (scover_r1_C c i arg2 harg2 arg3 harg3 arg4 harg4 arg5 harg5 arg6 harg6 hc0 hc1 x0 x1 x2 xs0)]
  unfold kernelRun_r1_C
  dsimp only
  try sl_unfold_words
  rw [View.canon_unit_zero hz1]
  simp only [View.readAt_eq_ld, harg2.read_unread, harg3.read_unread, harg4.read_unread, harg6.read_unread, View.ld_unit_zero (S := S2048x128) hz1, View.ld_unit_zero (S := S2048x2048) hz1, View.ld_unit_zero (S := S2048x1) hz1, View.readCov_unit_zero (S := S2048x128) _ hz1]

/-- and stores into the output's buffer that sum scaled row by row by the degree column. -/
theorem out_C_eq (c : Dev nD) (i : grid1.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r1 i) (hc1 : condL_r1 i)
    (x0 : Vec F S2048x2048 .f32) (x1 : Vec F S2048x128 .f32) (x2 : Vec F S2048x1 .f32) (xs0 : Vec F S2048x128 .f32) :
    out_r1_C_3 c i arg2 harg2 arg3 harg3 arg4 harg4 arg5 harg5 arg6 harg6 hc0 hc1 x0 x1 x2 xs0 = k1_pay3 x2 (k1_pay2 xs0 x0 x1) := by
  unfold out_r1_C_3
  rw [View.read_writes_eq_canon _ _ _ (cover_r1_C_3 c i arg2 harg2 arg3 harg3 arg4 harg4 arg5 harg5 arg6 harg6 hc0 hc1 x0 x1 x2 xs0)]
  unfold kernelRun_r1_C
  dsimp only
  try sl_unfold_words
  rw [View.canon_unit_zero hz1]
  simp only [View.readAt_eq_ld, harg2.read_unread, harg3.read_unread, harg4.read_unread, harg6.read_unread, View.ld_unit_zero (S := S2048x128) hz1, View.ld_unit_zero (S := S2048x2048) hz1, View.ld_unit_zero (S := S2048x1) hz1, View.readCov_unit_zero (S := S2048x128) _ hz1]

/-! ## The accumulator and the output's buffer after a point, over the point's blocks -/

section Steps

variable (V : (c : Dev nD) → (b : Ref sig .tc) → Buf (Elt F) ((c : Thread nD τ).loc b))

/-- The incidence block, the block of projected features and the block of the degree column at point t. -/
abbrev mtblk (c : Dev nD) (t : Fin cfg1.N) : Vec F S2048x2048 .f32 := iblk1 V c 0 t
abbrev yblk (c : Dev nD) (t : Fin cfg1.N) : Vec F S2048x128 .f32 := iblk1 V c 1 t
abbrev dvblk (c : Dev nD) (t : Fin cfg1.N) : Vec F S2048x1 .f32 := iblk1 V c 2 t

/-- After a first step the accumulator holds the zeros plus the step's product. -/
theorem acc_first (c : Dev nD) (t : Fin cfg1.N) (h0 : t.val % 8 = 0) :
    (outsAt_r1 V c t.val t.isLt).2 = k1_pay2 (k1_pay1 (F := F)) (mtblk V c t) (yblk V c t) := by
  have h1 : ¬t.val % 8 = 7 := by omega
  rw [outsAt_r1_A V c t h0 h1]
  dsimp only
  exact sout_A_eq c (grid1.coords t) (ms_r1_0 t) (hs_r1_0 t) (ms_r1_1 t) (hs_r1_1 t) (ms_r1_2 t) (hs_r1_2 t) (ms_r1_3 t) (hs_r1_3 t) scM_r1 (Memref.isWhole_whole _) ((hcondZ_r1 t).mpr h0) (fun h => h1 ((hcondL_r1 t).mp h)) (iblk1 V c 0 t) (iblk1 V c 1 t) (iblk1 V c 2 t)

/-- After any other step it holds what the point before left plus the step's product. -/
theorem acc_next (c : Dev nD) (t : Fin cfg1.N) (h0 : ¬t.val % 8 = 0) :
    (outsAt_r1 V c t.val t.isLt).2
      = k1_pay2 (outsAt_r1 V c (t.val - 1) (Nat.lt_of_le_of_lt (Nat.sub_le _ _) t.isLt)).2 (mtblk V c t) (yblk V c t) := by
  by_cases h1 : t.val % 8 = 7
  · rw [outsAt_r1_C V c t h0 h1]
    dsimp only
    exact sout_C_eq c (grid1.coords t) (ms_r1_0 t) (hs_r1_0 t) (ms_r1_1 t) (hs_r1_1 t) (ms_r1_2 t) (hs_r1_2 t) (ms_r1_3 t) (hs_r1_3 t) scM_r1 (Memref.isWhole_whole _) (fun h => h0 ((hcondZ_r1 t).mp h)) ((hcondL_r1 t).mpr h1) (iblk1 V c 0 t) (iblk1 V c 1 t) (iblk1 V c 2 t) (outsAt_r1 V c (t.val - 1) (Nat.lt_of_le_of_lt (Nat.sub_le _ _) t.isLt)).2
  · rw [outsAt_r1_B V c t h0 h1]
    dsimp only
    exact sout_B_eq c (grid1.coords t) (ms_r1_0 t) (hs_r1_0 t) (ms_r1_1 t) (hs_r1_1 t) (ms_r1_2 t) (hs_r1_2 t) (ms_r1_3 t) (hs_r1_3 t) scM_r1 (Memref.isWhole_whole _) (fun h => h0 ((hcondZ_r1 t).mp h)) (fun h => h1 ((hcondL_r1 t).mp h)) (iblk1 V c 0 t) (iblk1 V c 1 t) (iblk1 V c 2 t) (outsAt_r1 V c (t.val - 1) (Nat.lt_of_le_of_lt (Nat.sub_le _ _) t.isLt)).2

/-- At a last step the output's buffer holds the accumulator's final contents scaled by the degree column. -/
theorem out_last (c : Dev nD) (t : Fin cfg1.N) (h1 : t.val % 8 = 7) :
    (outsAt_r1 V c t.val t.isLt).1 = k1_pay3 (dvblk V c t) (outsAt_r1 V c t.val t.isLt).2 := by
  have h0 : ¬t.val % 8 = 0 := by omega
  rw [outsAt_r1_C V c t h0 h1]
  dsimp only
  rw [out_C_eq, sout_C_eq]

end Steps

end Pieces

/-! ## The payloads at an entry, at the ideal values -/

/-- The body's matrix product sums the left operand's second axis against the right operand's first. -/
theorem plain1 : Cert.DenseLayer.PlainDot dot_S2048x2048_S2048x128_S2048x128_1_0_0_1_n_n :=
  Cert.DenseLayer.plainDot_of_axes _ rfl rfl rfl rfl rfl rfl

/-- The cleared accumulator holds zero everywhere. -/
theorem pay1_apply (r : Fin 2048) (q : Fin 128) : k1_pay1 (F := Ideal) (ix2 r q) = 0 := by
  unfold k1_pay1
  simp only [shapeCast_self]
  exact Ideal.ofBits_zero_f32

/-- A step's store at (r, q): what the accumulator held there plus row r of the incidence block times column q of
    the block of projected features. -/
theorem pay2_apply (s : Vec Ideal S2048x128 .f32) (a : Vec Ideal S2048x2048 .f32) (b : Vec Ideal S2048x128 .f32)
    (r : Fin 2048) (q : Fin 128) :
    k1_pay2 (F := Ideal) s a b (ix2 r q) = s (ix2 r q) + prodRow a b r q := by
  unfold k1_pay2
  simp only [shapeCast_self]
  exact congrArg (fun z : EReal => s (ix2 r q) + z) (Cert.DenseLayer.matmul_zero_apply plain1 none a b (ix2 r q))

/-- The last step's store at (r, q): the degree of row r times the accumulator's entry. -/
theorem pay3_apply (d : Vec Ideal S2048x1 .f32) (s : Vec Ideal S2048x128 .f32) (r : Fin 2048) (q : Fin 128) :
    k1_pay3 (F := Ideal) d s (ix2 r q) = d (ix2 r (0 : Fin 1)) * s (ix2 r q) := by
  unfold k1_pay3
  simp only [shapeCast_self]
  exact congrArg (fun z : EReal => z * s (ix2 r q)) (Cert.ColumnLayout.broadcastTo_a1_ab_apply d broadcasts_S2048x1_S2048x128 r q)

/-! ## The blocks of a point, read off the arrays -/

/-- The printed index maps over the grid: point t is at edge block t / 8 and node block t % 8. -/
theorem idx_facts1 : ∀ t : Fin cfg1.N, win1_0.index t (0 : Fin 2) = t.val / 8
    ∧ win1_0.index t (1 : Fin 2) = t.val % 8
    ∧ win1_1.index t (0 : Fin 2) = t.val % 8
    ∧ win1_1.index t (1 : Fin 2) = 0
    ∧ win1_2.index t (0 : Fin 2) = t.val / 8
    ∧ win1_2.index t (1 : Fin 2) = 0
    ∧ win1_3.index t (0 : Fin 2) = t.val / 8
    ∧ win1_3.index t (1 : Fin 2) = 0 :=
  (by decide +kernel : ∀ t : Fin grid1.N, _)

section Arrays

variable (V : (c : Dev nD) → (b : Ref sig .tc) → Buf (Elt Ideal) ((c : Thread nD τ).loc b))

/-- The incidence matrix, the projected features and the degree column as the region finds them. -/
abbrev MTa (c : Dev nD) : Mat 8192 16384 := V c main_arg2
abbrev Ya (c : Dev nD) : Mat 16384 128 := V c main_v0
abbrev DVa (c : Dev nD) : Mat 8192 1 := V c main_v1

/-- Row r of the edge block of point n, as a row of the whole: number 2048 * (n / 8) + r. -/
def erow (n : ℕ) (r : Fin 2048) : Fin 8192 := ⟨2048 * (n / 8 % 4) + r.val, by omega⟩

/-- Entry (r, j) of the incidence block of point t is entry (2048 * (t / 8) + r, 2048 * (t % 8) + j) of the matrix. -/
theorem mt_read (c : Dev nD) (t : Fin cfg1.N) (r j : Fin 2048) (R : Fin 8192) (K : Fin 16384)
    (hR : R.val = 2048 * (t.val / 8) + r.val) (hK : K.val = 2048 * (t.val % 8) + j.val) :
    mtblk V c t (ix2 r j) = MTa V c (ix2 R K) := by
  obtain ⟨e0, e1, e2, e3, e4, e5, e6, e7⟩ := idx_facts1 t
  show V c main_arg2 (((cfg1.win 0).blk t).view.emb (ix2 r j)) = V c main_arg2 (ix2 R K)
  refine congrArg (V c main_arg2) (funext fun a => Fin.ext ?_)
  match a with
  | ⟨0, _⟩ =>
    show win1_0.index t (0 : Fin 2) * 2048 + 1 * r.val = R.val
    omega
  | ⟨1, _⟩ =>
    show win1_0.index t (1 : Fin 2) * 2048 + 1 * j.val = K.val
    omega

/-- Entry (j, q) of the block of projected features of point t is entry (2048 * (t % 8) + j, q) of the array. -/
theorem y_read (c : Dev nD) (t : Fin cfg1.N) (j : Fin 2048) (q : Fin 128) (K : Fin 16384)
    (hK : K.val = 2048 * (t.val % 8) + j.val) :
    yblk V c t (ix2 j q) = Ya V c (ix2 K q) := by
  obtain ⟨e0, e1, e2, e3, e4, e5, e6, e7⟩ := idx_facts1 t
  show V c main_v0 (((cfg1.win 1).blk t).view.emb (ix2 j q)) = V c main_v0 (ix2 K q)
  refine congrArg (V c main_v0) (funext fun a => Fin.ext ?_)
  match a with
  | ⟨0, _⟩ =>
    show win1_1.index t (0 : Fin 2) * 2048 + 1 * j.val = K.val
    omega
  | ⟨1, _⟩ =>
    show win1_1.index t (1 : Fin 2) * 128 + 1 * q.val = q.val
    omega

/-- Entry (r, 0) of the degree block of point t is entry (2048 * (t / 8) + r, 0) of the column. -/
theorem dv_read (c : Dev nD) (t : Fin cfg1.N) (r : Fin 2048) (R : Fin 8192)
    (hR : R.val = 2048 * (t.val / 8) + r.val) :
    dvblk V c t (ix2 r (0 : Fin 1)) = DVa V c (ix2 R (0 : Fin 1)) := by
  obtain ⟨e0, e1, e2, e3, e4, e5, e6, e7⟩ := idx_facts1 t
  show V c main_v1 (((cfg1.win 2).blk t).view.emb (ix2 r (0 : Fin 1))) = V c main_v1 (ix2 R (0 : Fin 1))
  refine congrArg (V c main_v1) (funext fun a => Fin.ext ?_)
  match a with
  | ⟨0, _⟩ =>
    show win1_2.index t (0 : Fin 2) * 2048 + 1 * r.val = R.val
    omega
  | ⟨1, _⟩ =>
    show win1_2.index t (1 : Fin 2) * 1 + 1 * 0 = 0
    omega

/-! ## The invariant: the accumulator holds the running sum of the node blocks' parts -/

/-- The summand of entry (r, q) of the edge block of point n: over the nodes k, the incidence entry times the
    projected feature. -/
def term (c : Dev nD) (n : ℕ) (r : Fin 2048) (q : Fin 128) : Fin 16384 → EReal :=
  fun k => MTa V c (ix2 (erow n r) k) * Ya V c (ix2 k q)

/-- The product of the two blocks of point t at (r, q) is node block t % 8's part of that sum. -/
theorem blk_prod (c : Dev nD) (t : Fin cfg1.N) (r : Fin 2048) (q : Fin 128) (kt : Fin 8) (hkt : kt.val = t.val % 8) :
    prodRow (mtblk V c t) (yblk V c t) r q
      = blockSum (T := 8) (B := 2048) (K := 16384) rfl (term V c t.val r q) kt := by
  have hN : t.val < 32 := lt_of_lt_of_eq t.isLt (show cfg1.N = 32 from N_1)
  unfold prodRow blockSum term
  refine Finset.sum_congr rfl fun j _ => ?_
  have hv : (blkCol (T := 8) (B := 2048) (K := 16384) rfl kt j).val = 2048 * (t.val % 8) + j.val := by
    rw [blkCol_val, hkt]; omega
  rw [mt_read V c t r j (erow t.val r) (blkCol (T := 8) (B := 2048) (K := 16384) rfl kt j)
      (by show 2048 * (t.val / 8 % 4) + r.val = _; omega) hv,
    y_read V c t j q (blkCol (T := 8) (B := 2048) (K := 16384) rfl kt j) hv]

/-- After point n the accumulator holds, at (r, q), the sum of the parts of node blocks 0 ... n % 8. -/
theorem acc_eq (c : Dev nD) : ∀ (n : ℕ) (hn : n < cfg1.N) (r : Fin 2048) (q : Fin 128),
    (outsAt_r1 V c n hn).2 (ix2 r q)
      = partialSum (T := 8) (B := 2048) (K := 16384) rfl (term V c n r q) (n % 8)
  | 0, hn, r, q => by
    refine (congrFun (acc_first V c ⟨0, hn⟩ rfl) (ix2 r q)).trans ?_
    refine (pay2_apply _ _ _ r q).trans ?_
    rw [pay1_apply, zero_add, blk_prod V c ⟨0, hn⟩ r q ⟨0, by omega⟩ rfl]
    exact (Cert.BlockedSum.partialSum_zero (T := 8) (B := 2048) (K := 16384) rfl (term V c 0 r q) (by omega)).symm
  | n + 1, hn, r, q => by
    have hN : n + 1 < 32 := lt_of_lt_of_eq hn (show cfg1.N = 32 from N_1)
    by_cases h0 : (n + 1) % 8 = 0
    · refine (congrFun (acc_first V c ⟨n + 1, hn⟩ h0) (ix2 r q)).trans ?_
      refine (pay2_apply _ _ _ r q).trans ?_
      rw [pay1_apply, zero_add, blk_prod V c ⟨n + 1, hn⟩ r q ⟨0, by omega⟩ (by show 0 = (n + 1) % 8; omega), h0]
      exact (Cert.BlockedSum.partialSum_zero (T := 8) (B := 2048) (K := 16384) rfl (term V c (n + 1) r q) (by omega)).symm
    · refine (congrFun (acc_next V c ⟨n + 1, hn⟩ h0) (ix2 r q)).trans ?_
      refine (pay2_apply _ _ _ r q).trans ?_
      have ih := acc_eq c n (Nat.lt_of_succ_lt hn) r q
      have he : erow n r = erow (n + 1) r :=
        Fin.ext (by show 2048 * (n / 8 % 4) + r.val = 2048 * ((n + 1) / 8 % 4) + r.val; omega)
      have hrow : term V c n r q = term V c (n + 1) r q := by
        unfold term
        rw [he]
      have hk : (n + 1) % 8 = n % 8 + 1 := by omega
      rw [blk_prod V c ⟨n + 1, hn⟩ r q ⟨n % 8 + 1, by omega⟩ (by show n % 8 + 1 = (n + 1) % 8; omega)]
      show (outsAt_r1 V c n _).2 (ix2 r q) + _ = _
      rw [ih, hrow, hk]
      exact (Cert.BlockedSum.partialSum_succ (T := 8) (B := 2048) (K := 16384) rfl (term V c (n + 1) r q) (n % 8) (by omega)).symm

/-! ## From the blocks to the array -/

/-- What a last step leaves in the output's buffer at (r, q): the degree of the edge times the whole sum over the
    nodes. -/
theorem out_entry (c : Dev nD) (dvc : Cert.Spec.Col 8192)
    (hdv : ∀ p : Fin 8192, V c main_v1 (ix2 p 0) = dvc (ix1 p))
    (t : Fin cfg1.N) (h7 : t.val % 8 = 7) (r : Fin 2048) (q : Fin 128) :
    (outsAt_r1 V c t.val t.isLt).1 (ix2 r q)
      = dvc (ix1 (erow t.val r)) * prodRow (MTa V c) (Ya V c) (erow t.val r) q := by
  have hN : t.val < 32 := lt_of_lt_of_eq t.isLt (show cfg1.N = 32 from N_1)
  refine (congrFun (out_last V c t h7) (ix2 r q)).trans ?_
  refine (pay3_apply _ _ r q).trans ?_
  rw [acc_eq V c t.val t.isLt r q, h7,
    Cert.BlockedSum.partialSum_last (T := 8) (B := 2048) (K := 16384) rfl (term V c t.val r q) 7 rfl,
    dv_read V c t r (erow t.val r) (by show 2048 * (t.val / 8 % 4) + r.val = _; omega)]
  have hd : DVa V c (ix2 (erow t.val r) (0 : Fin 1)) = dvc (ix1 (erow t.val r)) := hdv (erow t.val r)
  rw [hd]
  rfl

/-- An index of the array is in point t's block iff each coordinate is in the block's range on its axis. -/
theorem mem_blk1 (t : Fin cfg1.N) (i : S8192x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v3).slice (win1_3.rect t)).set ↔ _
  rw [View.set_slice_whole, Rect.mem_set_unit]
  exact Iff.rfl

/-- What a last step writes back is its block of the edge features. -/
theorem flushed1_eq (c : Dev nD) (dvc : Cert.Spec.Col 8192)
    (hdv : ∀ p : Fin 8192, V c main_v1 (ix2 p 0) = dvc (ix1 p))
    (t : Fin cfg1.N) (hf : (cfg1.win 3).flush t = true) :
    (dat1 (F := Ideal) V c).flushed 3 t
      = ((cfg1.win 3).blk t).view.read (Elt Ideal) (Cert.Spec.edgeE (V c main_arg2) (V c main_v0) dvc) := by
  have h7 : t.val % 8 = 7 := (flush1_3 t).mp hf
  have hN : t.val < 32 := lt_of_lt_of_eq t.isLt (show cfg1.N = 32 from N_1)
  obtain ⟨e0, e1, e2, e3, e4, e5, e6, e7⟩ := idx_facts1 t
  show (cfg1.win 3).cut (grid1.coords t) ((dat1 (F := Ideal) V c).after 3 t) = _
  rw [after1_3]
  have key : ∀ j : S2048x128.Idx, (outsAt_r1 V c t.val t.isLt).1 j
      = Cert.Spec.edgeE (V c main_arg2) (V c main_v0) dvc (((cfg1.win 3).blk t).view.emb j) := fun j => by
    obtain ⟨r, q, rfl⟩ : ∃ (r : Fin 2048) (q : Fin 128), j = ix2 r q := ⟨j 0, j 1, eq_ix2 j⟩
    refine (out_entry V c dvc hdv t h7 r q).trans ?_
    have hi : ((cfg1.win 3).blk t).view.emb (ix2 r q) = ix2 (erow t.val r) q := funext fun a => Fin.ext (by
      match a with
      | ⟨0, _⟩ =>
        show win1_3.index t (0 : Fin 2) * 2048 + 1 * r.val = 2048 * (t.val / 8 % 4) + r.val
        omega
      | ⟨1, _⟩ =>
        show win1_3.index t (1 : Fin 2) * 128 + 1 * q.val = q.val
        omega)
    rw [hi]
    rfl
  funext j
  exact key j

/-- Every entry of the output array is in the block of the last step of its edge block. -/
theorem cover1 (i : S8192x128.Idx) :
    ∃ t : Fin cfg1.N, (cfg1.win 3).flush t = true ∧ i ∈ ((cfg1.win 3).blk t).view.set := by
  have hi0 : (i 0).val < 8192 := (i 0).isLt
  have hi1 : (i 1).val < 128 := (i 1).isLt
  have ht : 8 * ((i 0).val / 2048) + 7 < cfg1.N := by rw [show cfg1.N = 32 from N_1]; omega
  refine ⟨⟨8 * ((i 0).val / 2048) + 7, ht⟩, (flush1_3 _).mpr (by show (8 * ((i 0).val / 2048) + 7) % 8 = 7; omega), ?_⟩
  obtain ⟨e0, e1, e2, e3, e4, e5, e6, e7⟩ := idx_facts1 ⟨8 * ((i 0).val / 2048) + 7, ht⟩
  rw [mem_blk1]
  intro a
  match a with
  | ⟨0, _⟩ =>
    show win1_3.index ⟨8 * ((i 0).val / 2048) + 7, ht⟩ (0 : Fin 2) * 2048 ≤ (i 0).val ∧ (i 0).val < win1_3.index ⟨8 * ((i 0).val / 2048) + 7, ht⟩ (0 : Fin 2) * 2048 + 2048
    have : (8 * ((i 0).val / 2048) + 7) / 8 = (i 0).val / 2048 := by omega
    rw [e6]
    show (8 * ((i 0).val / 2048) + 7) / 8 * 2048 ≤ (i 0).val ∧ (i 0).val < (8 * ((i 0).val / 2048) + 7) / 8 * 2048 + 2048
    omega
  | ⟨1, _⟩ =>
    show win1_3.index ⟨8 * ((i 0).val / 2048) + 7, ht⟩ (1 : Fin 2) * 128 ≤ (i 1).val ∧ (i 1).val < win1_3.index ⟨8 * ((i 0).val / 2048) + 7, ht⟩ (1 : Fin 2) * 128 + 128
    omega

end Arrays

/-- WHAT REGION 1 LEAVES IN ITS OUTPUT ARRAY: the edge features, each edge's degree times the sum over all nodes of
    its incidence entries times the projected features. -/
theorem final1 (V : (c : Dev nD) → (b : Ref sig .tc) → Buf (Elt Ideal) ((c : Thread nD τ).loc b)) (c : Dev nD) (dvc : Cert.Spec.Col 8192)
    (hdv : ∀ p : Fin 8192, V c main_v1 (ix2 p 0) = dvc (ix1 p)) :
    (dat1 (F := Ideal) V c).arrAt 3 cfg1.N = Cert.Spec.edgeE (V c main_arg2) (V c main_v0) dvc :=
  (dat1 (F := Ideal) V c).arrAt_eq_of_cover 3 (Cert.Spec.edgeE (V c main_arg2) (V c main_v0) dvc)
    (fun t hf => flushed1_eq V c dvc hdv t hf) cover1

end Cert.KernelIdeal.Val

end
-- ==== Proof.Val2Pieces.lean ====
import proofs.«114685_j41644002902021_1_alg».proof.Proof.Reg2
import Idealize.ShloMosaic.Lib.Pipeline.Value
import Idealize.ShloMosaic.Lib.ValueIdx
import Idealize.ShloMosaic.Lib.Tactic

set_option maxRecDepth 16384

/-!
  Region 2, what one grid point leaves, read off the stores the body makes.

  A point loads the incidence block a, the edge-feature block b and the accumulator s, and stores s + aᵀ·b back
  into the accumulator; at a first step it clears the accumulator before that, so s is the zero block there; at a
  last step it afterwards stores the accumulator, scaled row by row by the node-degree column d, into the output
  block. Each statement below says which of the body's three pure terms (the zero block, the update, the scaling)
  a case leaves, for any float values.
-/

noncomputable section

namespace Cert.KernelIdeal.ValN

open Cert.KernelIdeal Cert.KernelIdeal.Gen Cert.KernelIdeal.Fr
open Idealize.ShloMosaic Idealize.ShloMosaic.TcCoe Idealize.ShloMosaic.ValueIdx Idealize.SL.Sem
open Idealize.ShloMosaic.Tactic
open Idealize.ShloMosaic.Pipeline (Dat)

variable {F : FTy → Type} [FloatOps F]

/-- The zero offsets of a whole-block load or store, as the constant function. -/
theorem zeroOffsets : (![0, 0] : Fin 2 → Nat) = fun _ => 0 := funext fun a => by fin_cases a <;> rfl

/-- A first step leaves in the accumulator the update of the zero block: the clearing store is overwritten by the
    update, whose load of the accumulator reads the cleared block back. -/
theorem firstStep_acc (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condZ_r2 i) (hc1 : ¬condL_r2 i)
    (x0 : Vec F S2048x2048 .f32) (x1 : Vec F S2048x128 .f32) (x2 : Vec F S2048x1 .f32) :
    sout_r2_A c i arg2 harg2 arg3 harg3 arg4 harg4 arg5 harg5 arg6 harg6 hc0 hc1 x0 x1 x2 = k2_pay2 x0 x1 (k2_pay1 (F := F)) := by
  unfold sout_r2_A
  rw [View.read_writes_eq_canon _ _ _ (scover_r2_A c i arg2 harg2 arg3 harg3 arg4 harg4 arg5 harg5 arg6 harg6 hc0 hc1 x0 x1 x2)]
  unfold kernelRun_r2_A
  dsimp only
  sl_unfold_words
  rw [View.canon_cons_unit_zero (S := S2048x128) zeroOffsets, View.readCov_unit_zero (S := S2048x128) _ zeroOffsets]
  simp only [View.readAt_eq_ld, harg2.read_unread, harg3.read_unread, harg4.read_unread, harg6.read_unread, View.ld_unit_zero (S := S2048x2048) zeroOffsets, View.ld_unit_zero (S := S2048x128) zeroOffsets, View.ld_unit_zero (S := S2048x1) zeroOffsets]

/-- A middle step leaves in the accumulator the update of what it found there. -/
theorem middleStep_acc (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : ¬condL_r2 i)
    (x0 : Vec F S2048x2048 .f32) (x1 : Vec F S2048x128 .f32) (x2 : Vec F S2048x1 .f32) (xs0 : Vec F S2048x128 .f32) :
    sout_r2_B c i arg2 harg2 arg3 harg3 arg4 harg4 arg5 harg5 arg6 harg6 hc0 hc1 x0 x1 x2 xs0 = k2_pay2 x0 x1 xs0 := by
  unfold sout_r2_B
  rw [View.read_writes_eq_canon _ _ _ (scover_r2_B c i arg2 harg2 arg3 harg3 arg4 harg4 arg5 harg5 arg6 harg6 hc0 hc1 x0 x1 x2 xs0)]
  unfold kernelRun_r2_B
  dsimp only
  sl_unfold_words
  rw [View.canon_unit_zero zeroOffsets]
  simp only [View.readAt_eq_ld, harg2.read_unread, harg3.read_unread, harg4.read_unread, harg6.read_unread, View.ld_unit_zero (S := S2048x2048) zeroOffsets, View.ld_unit_zero (S := S2048x128) zeroOffsets, View.ld_unit_zero (S := S2048x1) zeroOffsets]

/-- A last step leaves in the accumulator the same update, -/
theorem lastStep_acc (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) :
    sout_r2_C c i arg2 harg2 arg3 harg3 arg4 harg4 arg5 harg5 arg6 harg6 hc0 hc1 x0 x1 x2 xs0 = k2_pay2 x0 x1 xs0 := by
  unfold sout_r2_C
  rw [View.read_writes_eq_canon _ _ _ (scover_r2_C c i arg2 harg2 arg3 harg3 arg4 harg4 arg5 harg5 arg6 harg6 hc0 hc1 x0 x1 x2 xs0)]
  unfold kernelRun_r2_C
  dsimp only
  sl_unfold_words
  rw [View.canon_unit_zero zeroOffsets]
  simp only [View.readAt_eq_ld, harg2.read_unread, harg3.read_unread, harg4.read_unread, harg6.read_unread, View.ld_unit_zero (S := S2048x2048) zeroOffsets, View.ld_unit_zero (S := S2048x128) zeroOffsets, View.ld_unit_zero (S := S2048x1) zeroOffsets]

/-- and in the output block that update scaled by the node-degree column. -/
theorem lastStep_out (c : Dev nD) (i : grid2.Coords) (arg2 : Memref sig .tc .vmem S2048x2048 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condZ_r2 i) (hc1 : condL_r2 i)
    (x0 : Vec F S2048x2048 .f32) (x1 : Vec F S2048x128 .f32) (x2 : Vec F S2048x1 .f32) (xs0 : Vec F S2048x128 .f32) :
    out_r2_C_3 c i arg2 harg2 arg3 harg3 arg4 harg4 arg5 harg5 arg6 harg6 hc0 hc1 x0 x1 x2 xs0 = k2_pay3 x2 (k2_pay2 x0 x1 xs0) := by
  unfold out_r2_C_3
  rw [View.read_writes_eq_canon _ _ _ (cover_r2_C_3 c i arg2 harg2 arg3 harg3 arg4 harg4 arg5 harg5 arg6 harg6 hc0 hc1 x0 x1 x2 xs0)]
  unfold kernelRun_r2_C
  dsimp only
  sl_unfold_words
  rw [View.canon_unit_zero zeroOffsets]
  simp only [View.readCov_unit_zero (S := S2048x128) _ zeroOffsets, View.readAt_eq_ld, harg2.read_unread, harg3.read_unread, harg4.read_unread, harg6.read_unread, View.ld_unit_zero (S := S2048x2048) zeroOffsets, View.ld_unit_zero (S := S2048x128) zeroOffsets, View.ld_unit_zero (S := S2048x1) zeroOffsets]

end Cert.KernelIdeal.ValN

end
-- ==== Proof.Val2.lean ====
import proofs.«114685_j41644002902021_1_alg».proof.Proof.Val2Pieces
import proofs.«114685_j41644002902021_1_alg».proof.Proof.Spec
import proofs.«114685_j41644002902021_1_alg».proof.Proof.LibBlockedSum
import proofs.«114685_j41644002902021_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

/-!
  Region 2 at the ideal values: what it leaves in its output array.

  The region's grid is 8 x 4, the second coordinate fastest: point t works on node block t / 4 (2048 rows of the
  output) at step t % 4 (2048 edges). A point multiplies the transposed incidence block by the edge-feature block
  and adds the product to an accumulator, cleared at the first step; the last step scales the accumulator, row by
  row, by one half times the node degree and stores the output block, which is then written back.

  The sections below read the body's three pure terms entry by entry (the product contracts the first axis of both
  blocks, so its entry (r, q) is the sum over p of a (p, r) * b (p, q)); read each window's block as entries of its
  array; show by induction on the point that the accumulator holds the running sum of the edge blocks' sums; and
  conclude that the eight blocks written back are the node features
  N (r, q) = (one half * de r) * (sum over all 8192 edges p of MT (p, r) * E (p, q)).
  Only the regrouping of a finite sum into consecutive blocks is used; no finiteness of the entries.
-/

noncomputable section

namespace Cert.KernelIdeal.ValN

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-! ## The product with the transposed block, entry by entry

The body's matrix product contracts the FIRST axis of both operands: for a [2048, 2048] block a and a [2048, 128]
block b it is aᵀ·b, whose entry (r, q) is the sum over p of a (p, r) * b (p, q). -/

/-- The left operand is read at (p, r): its first axis is the contracted one, -/
theorem lhsT_0 (i : S2048x128.Idx) (q : dot_S2048x2048_S2048x128_S2048x128_0_0_1_1_n_n.contr.Idx) :
    (dot_S2048x2048_S2048x128_S2048x128_0_0_1_1_n_n.lhsIdx i q 0).val = (q ⟨0, by decide⟩).val :=
  dot_S2048x2048_S2048x128_S2048x128_0_0_1_1_n_n.lhsIdx_val_of_single rfl i q
/-- its second axis the output's row; -/
theorem lhsT_1 (i : S2048x128.Idx) (q : dot_S2048x2048_S2048x128_S2048x128_0_0_1_1_n_n.contr.Idx) :
    (dot_S2048x2048_S2048x128_S2048x128_0_0_1_1_n_n.lhsIdx i q 1).val = (i 0).val := by
  unfold DotDims.lhsIdx
  rw [dif_neg (show ¬(1 : Fin S2048x2048.rank) ∈ dot_S2048x2048_S2048x128_S2048x128_0_0_1_1_n_n.lhsBatch by decide), dif_pos (show (1 : Fin S2048x2048.rank) ∈ dot_S2048x2048_S2048x128_S2048x128_0_0_1_1_n_n.lhsNonContracting by decide)]
  rfl
/-- the right operand is read at (p, q): its first axis is the contracted one, -/
theorem rhsT_0 (i : S2048x128.Idx) (q : dot_S2048x2048_S2048x128_S2048x128_0_0_1_1_n_n.contr.Idx) :
    (dot_S2048x2048_S2048x128_S2048x128_0_0_1_1_n_n.rhsIdx i q 0).val = (q ⟨0, by decide⟩).val :=
  dot_S2048x2048_S2048x128_S2048x128_0_0_1_1_n_n.rhsIdx_val_of_single rfl i q
/-- its second axis the output's column. -/
theorem rhsT_1 (i : S2048x128.Idx) (q : dot_S2048x2048_S2048x128_S2048x128_0_0_1_1_n_n.contr.Idx) :
    (dot_S2048x2048_S2048x128_S2048x128_0_0_1_1_n_n.rhsIdx i q 1).val = (i 1).val := by
  unfold DotDims.rhsIdx
  rw [dif_neg (show ¬(1 : Fin S2048x128.rank) ∈ dot_S2048x2048_S2048x128_S2048x128_0_0_1_1_n_n.rhsBatch by decide), dif_pos (show (1 : Fin S2048x128.rank) ∈ dot_S2048x2048_S2048x128_S2048x128_0_0_1_1_n_n.rhsNonContracting by decide)]
  rfl

/-- The product into the zero block, at (r, q): the sum over p of a (p, r) * b (p, q). -/
theorem matmulT_apply (a : FVec Ideal S2048x2048 .f32) (b : FVec Ideal S2048x128 .f32) (r : Fin 2048) (q : Fin 128) :
    FloatOps.matmul dot_S2048x2048_S2048x128_S2048x128_0_0_1_1_n_n none a b (constant S2048x128 .f32 0x00000000#32) (ix2 r q)
      = ∑ p : Fin 2048, a (ix2 p r) * b (ix2 p q) := by
  rw [Ideal.matmul_constant_zero_apply, ← Equiv.sum_comp (contrEquiv1 dot_S2048x2048_S2048x128_S2048x128_0_0_1_1_n_n 2048 rfl rfl).symm]
  refine Finset.sum_congr rfl fun k _ => ?_
  have hk := contrEquiv1_symm_val dot_S2048x2048_S2048x128_S2048x128_0_0_1_1_n_n 2048 rfl rfl k
  have el : dot_S2048x2048_S2048x128_S2048x128_0_0_1_1_n_n.lhsIdx (ix2 r q) ((contrEquiv1 dot_S2048x2048_S2048x128_S2048x128_0_0_1_1_n_n 2048 rfl rfl).symm k) = ix2 k r := funext fun ax => Fin.ext (by
    match ax with
    | ⟨0, _⟩ => exact (lhsT_0 _ _).trans hk
    | ⟨1, _⟩ => exact lhsT_1 _ _)
  have er : dot_S2048x2048_S2048x128_S2048x128_0_0_1_1_n_n.rhsIdx (ix2 r q) ((contrEquiv1 dot_S2048x2048_S2048x128_S2048x128_0_0_1_1_n_n 2048 rfl rfl).symm k) = ix2 k q := funext fun ax => Fin.ext (by
    match ax with
    | ⟨0, _⟩ => exact (rhsT_0 _ _).trans hk
    | ⟨1, _⟩ => exact rhsT_1 _ _)
  rw [el, er]

/-! ## The body's three pure terms, entry by entry -/

/-- The cleared accumulator is zero everywhere. -/
theorem cleared_apply (r : Fin 2048) (q : Fin 128) : k2_pay1 (F := Ideal) (ix2 r q) = 0 := by
  unfold k2_pay1
  refine (congrFun (shapeCast_self _ _) _).trans ?_
  exact Ideal.ofBits_zero_f32

/-- The update adds to the accumulator's entry the entry of the product with the transposed incidence block. -/
theorem update_apply (a : FVec Ideal S2048x2048 .f32) (b : FVec Ideal S2048x128 .f32) (s : FVec Ideal S2048x128 .f32)
    (r : Fin 2048) (q : Fin 128) :
    k2_pay2 (F := Ideal) a b s (ix2 r q) = s (ix2 r q) + ∑ p : Fin 2048, a (ix2 p r) * b (ix2 p q) := by
  unfold k2_pay2
  refine (congrFun (shapeCast_self _ _) _).trans ?_
  refine congrArg (s (ix2 r q) + ·) ?_
  refine Eq.trans ?_ (matmulT_apply a b r q)
  exact congrFun (congrArg (fun v => FloatOps.matmul dot_S2048x2048_S2048x128_S2048x128_0_0_1_1_n_n none a v (constant S2048x128 .f32 0x00000000#32)) (shapeCast_self b _)) (ix2 r q)

/-- The scaling multiplies the accumulator's entry by one half times the row's node degree. -/
theorem scaled_apply (d : FVec Ideal S2048x1 .f32) (s : FVec Ideal S2048x128 .f32) (r : Fin 2048) (q : Fin 128) :
    k2_pay3 (F := Ideal) d s (ix2 r q) = (Ideal.ofBits .f32 0x3F000000#32 * d (ix2 r (0 : Fin 1))) * s (ix2 r q) := by
  unfold k2_pay3
  refine congrArg (· * s (ix2 r q)) ?_
  refine (Cert.ColumnLayout.broadcastTo_a1_ab_apply _ broadcasts_S2048x1_S2048x128 r q).trans ?_
  refine congrArg (Ideal.ofBits .f32 0x3F000000#32 * ·) ?_
  exact congrFun (shapeCast_self d _) _

/-! ## The blocks a point works on, as entries of the arrays

Point t of the 8 x 4 grid is node block t / 4 at step t % 4. The incidence window's index map swaps the grid
coordinates: its block at t is rows 2048 (t % 4) ... (edges) and columns 2048 (t / 4) ... (nodes) of the incidence
matrix; the edge-feature window's block is rows 2048 (t % 4) ...; the degree column's and the output's blocks are
rows 2048 (t / 4) .... -/

section Blocks
variable {F : FTy → Type} [FloatOps F]
variable (V : (c : Dev nD) → (b : Ref sig .tc) → Buf (Elt F) ((c : Thread nD τ).loc b))

/-- The four windows' block indices at every point, decided over the grid. -/
theorem blockIndex : ∀ t : Fin cfg2.N,
    win2_0.index t (0 : Fin 2) = t.val % 4 ∧ win2_0.index t (1 : Fin 2) = t.val / 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0 :=
  (by decide +kernel : ∀ t : Fin grid2.N, _)

/-- The incidence block at point t, entry (x0, x1), is the incidence matrix at edge 2048 (t % 4) + x0 and node
    2048 (t / 4) + x1. -/
theorem incBlock_apply (c : Dev nD) (t : Fin cfg2.N) (x : S2048x2048.Idx) (k : S8192x16384.Idx)
    (hk0 : (k 0).val = 2048 * (t.val % 4) + (x 0).val) (hk1 : (k 1).val = 2048 * (t.val / 4) + (x 1).val) :
    (iblk2 V c 0 t : Vec F S2048x2048 .f32) x = (V c main_arg2 : S8192x16384.Idx → Elt F .f32) k := by
  obtain ⟨e0, e1, -⟩ := blockIndex t
  unfold iblk2
  rw [View.read_apply]
  show V c main_arg2 _ = V c main_arg2 _
  congr 1
  funext a
  apply Fin.ext
  match a with
  | ⟨0, _⟩ => show win2_0.index t 0 * 2048 + 1 * (x 0).val = (k 0).val; rw [e0, hk0]; omega
  | ⟨1, _⟩ => show win2_0.index t 1 * 2048 + 1 * (x 1).val = (k 1).val; rw [e1, hk1]; omega

/-- The edge-feature block at point t, entry (x0, x1), is the edge features at edge 2048 (t % 4) + x0, column x1. -/
theorem edgeBlock_apply (c : Dev nD) (t : Fin cfg2.N) (x : S2048x128.Idx) (k : S8192x128.Idx)
    (hk0 : (k 0).val = 2048 * (t.val % 4) + (x 0).val) (hk1 : (k 1).val = (x 1).val) :
    (iblk2 V c 1 t : Vec F S2048x128 .f32) x = (V c main_v3 : S8192x128.Idx → Elt F .f32) k := by
  obtain ⟨-, -, e0, e1, -⟩ := blockIndex t
  unfold iblk2
  rw [View.read_apply]
  show V c main_v3 _ = V c main_v3 _
  congr 1
  funext a
  apply Fin.ext
  match a with
  | ⟨0, _⟩ => show win2_1.index t 0 * 2048 + 1 * (x 0).val = (k 0).val; rw [e0, hk0]; omega
  | ⟨1, _⟩ => show win2_1.index t 1 * 128 + 1 * (x 1).val = (k 1).val; rw [e1, hk1]; omega

/-- The degree block at point t, entry (x0, 0), is the node-degree column at node 2048 (t / 4) + x0. -/
theorem degBlock_apply (c : Dev nD) (t : Fin cfg2.N) (x : S2048x1.Idx) (k : S16384x1.Idx)
    (hk0 : (k 0).val = 2048 * (t.val / 4) + (x 0).val) (hk1 : (k 1).val = (x 1).val) :
    (iblk2 V c 2 t : Vec F S2048x1 .f32) x = (V c main_v2 : S16384x1.Idx → Elt F .f32) k := by
  obtain ⟨-, -, -, -, e0, e1, -⟩ := blockIndex t
  unfold iblk2
  rw [View.read_apply]
  show V c main_v2 _ = V c main_v2 _
  congr 1
  funext a
  apply Fin.ext
  match a with
  | ⟨0, _⟩ => show win2_2.index t 0 * 2048 + 1 * (x 0).val = (k 0).val; rw [e0, hk0]; omega
  | ⟨1, _⟩ => show win2_2.index t 1 * 1 + 1 * (x 1).val = (k 1).val; rw [e1, hk1]; omega

end Blocks

/-! ## The accumulator, point by point

Within node block j the four steps add, one after the other, the four blocks of 2048 edges to the accumulator, which
the first step clears: after step k it holds, at row r and column q, the sum over the edges of the blocks 0 ... k of
MT (p, 2048 j + r) * E (p, q), the running sum of the blocks' sums. -/

section Accumulation
variable (V : (c : Dev nD) → (b : Ref sig .tc) → Buf (Elt Ideal) ((c : Thread nD τ).loc b))

/-- The incidence matrix, the edge features and the node-degree column as the region finds them, -/
abbrev incArr (c : Dev nD) : FVec Ideal S8192x16384 .f32 := V c main_arg2
abbrev edgeArr (c : Dev nD) : FVec Ideal S8192x128 .f32 := V c main_v3
abbrev degArr (c : Dev nD) : FVec Ideal S16384x1 .f32 := V c main_v2
/-- and their blocks at point t. -/
abbrev incBlk (c : Dev nD) (t : Fin cfg2.N) : FVec Ideal S2048x2048 .f32 := iblk2 V c 0 t
abbrev edgeBlk (c : Dev nD) (t : Fin cfg2.N) : FVec Ideal S2048x128 .f32 := iblk2 V c 1 t
abbrev degBlk (c : Dev nD) (t : Fin cfg2.N) : FVec Ideal S2048x1 .f32 := iblk2 V c 2 t

/-- What edge p contributes to node R's entry in column q. -/
abbrev term (c : Dev nD) (R : Fin 16384) (q : Fin 128) : Fin 8192 → EReal :=
  fun p => incArr V c (ix2 p R) * edgeArr V c (ix2 p q)

/-- The product of the point's blocks, at row r of node block t / 4, is the sum of the contributions of edge block
    t % 4. -/
theorem stepSum (c : Dev nD) (t : Fin cfg2.N) (r : Fin 2048) (q : Fin 128) (R : Fin 16384)
    (hR : R.val = 2048 * (t.val / 4) + r.val) (h : t.val % 4 < 4) :
    ∑ p : Fin 2048, incBlk V c t (ix2 p r) * edgeBlk V c t (ix2 p q)
      = Cert.BlockedSum.blockSum (T := 4) (B := 2048) (K := 8192) rfl (term V c R q) ⟨t.val % 4, h⟩ := by
  unfold Cert.BlockedSum.blockSum
  refine Finset.sum_congr rfl fun p _ => ?_
  have hb : (Cert.BlockedRows.blkCol (T := 4) (B := 2048) (K := 8192) rfl ⟨t.val % 4, h⟩ p).val = 2048 * (t.val % 4) + p.val := by
    rw [Cert.BlockedRows.blkCol_val]; dsimp only; omega
  exact congrArg₂ (· * ·)
    (incBlock_apply V c t (ix2 p r) (ix2 (Cert.BlockedRows.blkCol (T := 4) (B := 2048) (K := 8192) rfl ⟨t.val % 4, h⟩ p) R) hb hR)
    (edgeBlock_apply V c t (ix2 p q) (ix2 (Cert.BlockedRows.blkCol (T := 4) (B := 2048) (K := 8192) rfl ⟨t.val % 4, h⟩ p) q) hb rfl)

/-- The first block's sum is the running sum after step 0, -/
theorem running_first (f : Fin 8192 → EReal) (k : ℕ) (hk : k = 0) (h : k < 4) :
    Cert.BlockedSum.blockSum (T := 4) (B := 2048) (K := 8192) rfl f ⟨k, h⟩ = Cert.BlockedSum.partialSum (T := 4) (B := 2048) (K := 8192) rfl f k := by
  subst hk; exact (Cert.BlockedSum.partialSum_zero (T := 4) (B := 2048) (K := 8192) rfl f h).symm
/-- and adding block k's sum to the running sum after step k - 1 gives the running sum after step k. -/
theorem running_next (f : Fin 8192 → EReal) (k k' : ℕ) (hk : k = k' + 1) (h : k < 4) :
    Cert.BlockedSum.partialSum (T := 4) (B := 2048) (K := 8192) rfl f k' + Cert.BlockedSum.blockSum (T := 4) (B := 2048) (K := 8192) rfl f ⟨k, h⟩ = Cert.BlockedSum.partialSum (T := 4) (B := 2048) (K := 8192) rfl f k := by
  subst hk; exact (Cert.BlockedSum.partialSum_succ (T := 4) (B := 2048) (K := 8192) rfl f k' h).symm

/-- At a first step the accumulator ends at the first block's sum. -/
theorem acc_first (c : Dev nD) (t : Fin cfg2.N) (h0 : t.val % 4 = 0) (r : Fin 2048) (q : Fin 128) (R : Fin 16384)
    (hR : R.val = 2048 * (t.val / 4) + r.val) :
    ((outsAt_r2 V c t.val t.isLt).2 : FVec Ideal S2048x128 .f32) (ix2 r q) = Cert.BlockedSum.partialSum (T := 4) (B := 2048) (K := 8192) rfl (term V c R q) (t.val % 4) := by
  have h1 : ¬t.val % 4 = 3 := by omega
  have hlt : t.val % 4 < 4 := by omega
  rw [outsAt_r2_A V c t h0 h1]
  dsimp only
  refine (congrFun (firstStep_acc (F := Ideal) c (grid2.coords t) (ms_r2_0 t) (hs_r2_0 t) (ms_r2_1 t) (hs_r2_1 t) (ms_r2_2 t) (hs_r2_2 t) (ms_r2_3 t) (hs_r2_3 t) scM_r2 (Memref.isWhole_whole _) ((hcondZ_r2 t).mpr h0) (fun h => h1 ((hcondL_r2 t).mp h)) (iblk2 V c 0 t) (iblk2 V c 1 t) (iblk2 V c 2 t)) (ix2 r q)).trans ?_
  refine (update_apply (incBlk V c t) (edgeBlk V c t) (k2_pay1 (F := Ideal)) r q).trans ?_
  rw [cleared_apply, zero_add, stepSum V c t r q R hR hlt]
  exact running_first _ _ h0 hlt

/-- At a later step it ends at what the step before left plus this block's sum. -/
theorem acc_next (c : Dev nD) (t : Fin cfg2.N) (h0 : ¬t.val % 4 = 0) (r : Fin 2048) (q : Fin 128) (R : Fin 16384)
    (hR : R.val = 2048 * (t.val / 4) + r.val)
    (ih : ((outsAt_r2 V c (t.val - 1) (Nat.lt_of_le_of_lt (Nat.sub_le _ _) t.isLt)).2 : FVec Ideal S2048x128 .f32) (ix2 r q) = Cert.BlockedSum.partialSum (T := 4) (B := 2048) (K := 8192) rfl (term V c R q) ((t.val - 1) % 4)) :
    ((outsAt_r2 V c t.val t.isLt).2 : FVec Ideal S2048x128 .f32) (ix2 r q) = Cert.BlockedSum.partialSum (T := 4) (B := 2048) (K := 8192) rfl (term V c R q) (t.val % 4) := by
  have hlt : t.val % 4 < 4 := by omega
  by_cases h1 : t.val % 4 = 3
  · rw [outsAt_r2_C V c t h0 h1]
    dsimp only
    refine (congrFun (lastStep_acc (F := Ideal) c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) ((hcondL_r2 t).mpr h1) (iblk2 V c 0 t) (iblk2 V c 1 t) (iblk2 V c 2 t) (outsAt_r2 V c (t.val - 1) (Nat.lt_of_le_of_lt (Nat.sub_le _ _) t.isLt)).2) (ix2 r q)).trans ?_
    refine (update_apply (incBlk V c t) (edgeBlk V c t) (outsAt_r2 V c (t.val - 1) (Nat.lt_of_le_of_lt (Nat.sub_le _ _) t.isLt)).2 r q).trans ?_
    rw [ih, stepSum V c t r q R hR hlt]
    exact running_next _ _ _ (by omega) hlt
  · rw [outsAt_r2_B V c t h0 h1]
    dsimp only
    refine (congrFun (middleStep_acc (F := Ideal) c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) (fun h => h1 ((hcondL_r2 t).mp h)) (iblk2 V c 0 t) (iblk2 V c 1 t) (iblk2 V c 2 t) (outsAt_r2 V c (t.val - 1) (Nat.lt_of_le_of_lt (Nat.sub_le _ _) t.isLt)).2) (ix2 r q)).trans ?_
    refine (update_apply (incBlk V c t) (edgeBlk V c t) (outsAt_r2 V c (t.val - 1) (Nat.lt_of_le_of_lt (Nat.sub_le _ _) t.isLt)).2 r q).trans ?_
    rw [ih, stepSum V c t r q R hR hlt]
    exact running_next _ _ _ (by omega) hlt

/-- THE INVARIANT: after point n the accumulator holds, at row r and column q, the running sum after step n % 4 of
    node 2048 (n / 4) + r's contributions. By induction on the point. -/
theorem acc_eq (c : Dev nD) : ∀ (n : ℕ) (hn : n < cfg2.N) (r : Fin 2048) (q : Fin 128) (R : Fin 16384)
    (hR : R.val = 2048 * (n / 4) + r.val),
    ((outsAt_r2 V c n hn).2 : FVec Ideal S2048x128 .f32) (ix2 r q) = Cert.BlockedSum.partialSum (T := 4) (B := 2048) (K := 8192) rfl (term V c R q) (n % 4)
  | 0, hn, r, q, R, hR => acc_first V c ⟨0, hn⟩ rfl r q R hR
  | n + 1, hn, r, q, R, hR => by
    by_cases h0 : (n + 1) % 4 = 0
    · exact acc_first V c ⟨n + 1, hn⟩ h0 r q R hR
    · exact acc_next V c ⟨n + 1, hn⟩ h0 r q R hR
        (acc_eq c n (Nat.lt_of_succ_lt hn) r q R (by omega))

end Accumulation

/-! ## The output: each node block written back after its last step, and the whole array

At the last step of node block j the accumulator holds the whole sum over the 8192 edges, which is the entry of the
product with the transposed incidence matrix; the body stores it scaled by one half times the node's degree, and
that block is written back. The eight written blocks are the eight blocks of 2048 rows of the output array. -/

section Output
variable (V : (c : Dev nD) → (b : Ref sig .tc) → Buf (Elt Ideal) ((c : Thread nD τ).loc b))

/-- After a last step the accumulator is the update of what the step before left. -/
theorem acc_at_last (c : Dev nD) (t : Fin cfg2.N) (h0 : ¬t.val % 4 = 0) (h3 : t.val % 4 = 3) :
    (outsAt_r2 V c t.val t.isLt).2 = k2_pay2 (F := Ideal) (incBlk V c t) (edgeBlk V c t) (outsAt_r2 V c (t.val - 1) (Nat.lt_of_le_of_lt (Nat.sub_le _ _) t.isLt)).2 := by
  rw [outsAt_r2_C V c t h0 h3]
  dsimp only
  exact lastStep_acc (F := Ideal) c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) ((hcondL_r2 t).mpr h3) (iblk2 V c 0 t) (iblk2 V c 1 t) (iblk2 V c 2 t) (outsAt_r2 V c (t.val - 1) (Nat.lt_of_le_of_lt (Nat.sub_le _ _) t.isLt)).2

/-- What a last step leaves in the output block, at row r and column q: the node features of node 2048 (t / 4) + r. -/
theorem outBlock_apply (c : Dev nD) (dec : Cert.Spec.Col 16384)
    (hde : ∀ r : Fin 16384, V c main_v2 (ix2 r 0) = dec (ix1 r))
    (t : Fin cfg2.N) (h3 : t.val % 4 = 3) (r : Fin 2048) (q : Fin 128) (R : Fin 16384)
    (hR : R.val = 2048 * (t.val / 4) + r.val) :
    ((outsAt_r2 V c t.val t.isLt).1 : FVec Ideal S2048x128 .f32) (ix2 r q)
      = Cert.Spec.nodeN (Ideal.ofBits .f32 0x3F000000#32) (incArr V c) (edgeArr V c) dec (ix2 R q) := by
  have h0 : ¬t.val % 4 = 0 := by omega
  have hacc := acc_eq V c t.val t.isLt r q R hR
  rw [acc_at_last V c t h0 h3] at hacc
  rw [outsAt_r2_C V c t h0 h3]
  dsimp only
  refine (congrFun (lastStep_out (F := Ideal) c (grid2.coords t) (ms_r2_0 t) (hs_r2_0 t) (ms_r2_1 t) (hs_r2_1 t) (ms_r2_2 t) (hs_r2_2 t) (ms_r2_3 t) (hs_r2_3 t) scM_r2 (Memref.isWhole_whole _) (fun h => h0 ((hcondZ_r2 t).mp h)) ((hcondL_r2 t).mpr h3) (iblk2 V c 0 t) (iblk2 V c 1 t) (iblk2 V c 2 t) (outsAt_r2 V c (t.val - 1) (Nat.lt_of_le_of_lt (Nat.sub_le _ _) t.isLt)).2) (ix2 r q)).trans ?_
  refine (scaled_apply (degBlk V c t) (k2_pay2 (F := Ideal) (incBlk V c t) (edgeBlk V c t) (outsAt_r2 V c (t.val - 1) (Nat.lt_of_le_of_lt (Nat.sub_le _ _) t.isLt)).2) r q).trans ?_
  rw [Cert.Spec.nodeN_apply, hacc]
  refine congrArg₂ (· * ·) (congrArg ((Ideal.ofBits .f32 0x3F000000#32) * ·) ?_) ?_
  · rw [← hde R]
    exact degBlock_apply V c t (ix2 r (0 : Fin 1)) (ix2 R (0 : Fin 1)) hR rfl
  · exact Cert.BlockedSum.partialSum_last (T := 4) (B := 2048) (K := 8192) rfl (term V c R q) (t.val % 4) (by omega)

/-- What a writing point writes back is its block of the node features. -/
theorem flushed_eq (c : Dev nD) (dec : Cert.Spec.Col 16384)
    (hde : ∀ r : Fin 16384, V c main_v2 (ix2 r 0) = dec (ix1 r))
    (t : Fin cfg2.N) (hf : (cfg2.win 3).flush t = true) :
    (dat2 (F := Ideal) V c).flushed 3 t
      = ((cfg2.win 3).blk t).view.read (Elt Ideal) (Cert.Spec.nodeN (Ideal.ofBits .f32 0x3F000000#32) (V c main_arg2) (V c main_v3) dec) := by
  have h3 : t.val % 4 = 3 := (flush2_3 t).mp hf
  have hN : t.val < 32 := lt_of_lt_of_eq t.isLt N_2
  obtain ⟨-, -, -, -, -, -, e0, e1⟩ := blockIndex t
  have key : ∀ y : S2048x128.Idx, ((outsAt_r2 V c t.val t.isLt).1 : FVec Ideal S2048x128 .f32) y
      = Cert.Spec.nodeN (Ideal.ofBits .f32 0x3F000000#32) (incArr V c) (edgeArr V c) dec (((cfg2.win 3).blk t).view.emb y) := by
    intro y
    obtain ⟨r, q, rfl⟩ : ∃ (r : Fin 2048) (q : Fin 128), y = ix2 r q := ⟨y 0, y 1, eq_ix2 y⟩
    have hr := r.isLt
    refine (outBlock_apply V c dec hde t h3 r q ⟨2048 * (t.val / 4) + r.val, by omega⟩ rfl).trans ?_
    refine congrArg (Cert.Spec.nodeN (Ideal.ofBits .f32 0x3F000000#32) (incArr V c) (edgeArr V c) dec) ?_
    funext a
    apply Fin.ext
    match a with
    | ⟨0, _⟩ => show 2048 * (t.val / 4) + r.val = win2_3.index t 0 * 2048 + 1 * r.val; rw [e0]; omega
    | ⟨1, _⟩ => show q.val = win2_3.index t 1 * 128 + 1 * q.val; rw [e1]; omega
  show (cfg2.win 3).cut (grid2.coords t) ((dat2 V c).after 3 t) = _
  rw [after2_3]
  exact funext key

/-- An index of the output array is in point t's block iff each coordinate is in the block's range on its axis. -/
theorem mem_outBlock (t : Fin cfg2.N) (i : S16384x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v4).slice (win2_3.rect t)).set ↔ _
  rw [View.set_slice_whole, Rect.mem_set_unit]
  exact Iff.rfl

/-- Every row of the output array is in the block some last step writes back: row R in that of node block R / 2048. -/
theorem covered (i : S16384x128.Idx) :
    ∃ t : Fin cfg2.N, (cfg2.win 3).flush t = true ∧ i ∈ ((cfg2.win 3).blk t).view.set := by
  have hN : cfg2.N = 32 := N_2
  have hi0 : (i 0).val < 16384 := (i 0).isLt
  have hi1 : (i 1).val < 128 := (i 1).isLt
  obtain ⟨t, ht⟩ : ∃ t : Fin cfg2.N, t.val = 4 * ((i 0).val / 2048) + 3 := ⟨⟨4 * ((i 0).val / 2048) + 3, by omega⟩, rfl⟩
  obtain ⟨-, -, -, -, -, -, e0, e1⟩ := blockIndex t
  refine ⟨t, (flush2_3 t).mpr (by omega), ?_⟩
  rw [mem_outBlock]
  intro a
  match a with
  | ⟨0, _⟩ => show win2_3.index t 0 * 2048 ≤ (i 0).val ∧ (i 0).val < win2_3.index t 0 * 2048 + 2048; rw [e0]; omega
  | ⟨1, _⟩ => show win2_3.index t 1 * 128 ≤ (i 1).val ∧ (i 1).val < win2_3.index t 1 * 128 + 128; rw [e1]; omega

end Output

/-- WHAT REGION 2 LEAVES in its output array: the node features, N (r, q) = (one half * de r) * the sum over the 8192
    edges p of MT (p, r) * E (p, q), of the incidence matrix, the edge features and the node degrees the region is
    entered with. -/
theorem final2 (V : (c : Dev nD) → (b : Ref sig .tc) → Buf (Elt Ideal) ((c : Thread nD τ).loc b)) (c : Dev nD) (dec : Cert.Spec.Col 16384)
    (hde : ∀ r : Fin 16384, V c main_v2 (ix2 r 0) = dec (ix1 r)) :
    (dat2 (F := Ideal) V c).arrAt 3 cfg2.N = Cert.Spec.nodeN (Ideal.ofBits .f32 0x3F000000#32) (V c main_arg2) (V c main_v3) dec :=
  (dat2 (F := Ideal) V c).arrAt_eq_of_cover 3 _ (flushed_eq V c dec hde) covered

end Cert.KernelIdeal.ValN

end
-- ==== Proof.Chain.lean ====
/-
  The kernel's result as one function of its arguments, at the ideal values.

  The last region finds the incidence matrix as launched, the edge features where the second region left them and
  the node degrees as a column; the second region finds the incidence matrix as launched, the projected features
  where the first region left them and the edge degrees as a column; the first region finds the node features and
  the weight as launched. A degree vector set as a column reads, at (p, 0), the vector at p. So the array the last
  region leaves is the node features of the edge features of the projection of the arguments: the convolution.
-/
import proofs.«114685_j41644002902021_1_alg».proof.Proof.Launch3
import proofs.«114685_j41644002902021_1_alg».proof.Proof.Val0
import proofs.«114685_j41644002902021_1_alg».proof.Proof.Val1
import proofs.«114685_j41644002902021_1_alg».proof.Proof.Val2
import proofs.«114685_j41644002902021_1_alg».proof.Proof.Spec
import proofs.«114685_j41644002902021_1_alg».proof.Proof.LibColumnLayout

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- The edge degrees as the second region finds them, a column: at (p, 0) the degree of edge p. -/
theorem dv_col (c : Dev nD) (p : Fin 8192) :
    V2 (F := Ideal) m ρ c main_v1 (ix2 p 0) = (m ((c : Thread nD τ).loc main_arg3)) (ix1 p) := by
  rw [V2_main_v1]
  exact Cert.ColumnLayout.shapeCast_a_a1_apply (m ((c : Thread nD τ).loc main_arg3)) shapeCasts_S8192_S8192x1 p 0

/-- The node degrees as the third region finds them, a column: at (r, 0) the degree of node r. -/
theorem de_col (c : Dev nD) (r : Fin 16384) :
    V3 (F := Ideal) m ρ c main_v2 (ix2 r 0) = (m ((c : Thread nD τ).loc main_arg4)) (ix1 r) := by
  rw [V3_main_v2]
  exact Cert.ColumnLayout.shapeCast_a_a1_apply (m ((c : Thread nD τ).loc main_arg4)) shapeCasts_S16384_S16384x1 r 0

/-- What the last region leaves in the result array: the convolution of the arguments. -/
theorem result_conv (c : Dev nD) :
    W4 (F := Ideal) m ρ c (Proc.devRef .tc main_v4)
      = Cert.Spec.conv (n := 16384) (e := 8192) (k := 256) (f := 128) (Ideal.ofBits .f32 0x3F000000#32)
          (m ((c : Thread nD τ).loc main_arg0)) (m ((c : Thread nD τ).loc main_arg1)) (m ((c : Thread nD τ).loc main_arg2)) (m ((c : Thread nD τ).loc main_arg3)) (m ((c : Thread nD τ).loc main_arg4)) := by
  rw [W4_main_v4, Cert.KernelIdeal.ValN.final2 (V3 m ρ) c (m ((c : Thread nD τ).loc main_arg4)) (de_col m ρ c), V3_main_arg2, V3_main_v3,
    final1 (V2 m ρ) c (m ((c : Thread nD τ).loc main_arg3)) (dv_col m ρ c), V2_main_arg2, V2_main_v0, final0 (V0 m ρ) c, V0_apply, V0_apply]
  rfl

/-- The kernel's run on the extended reals: it ends with the result array at the convolution of the arguments and the
    arguments as they were. -/
theorem run_conv : θ_run (defs (F := Ideal)) (onTc (τ := τ) (main (F := Ideal))) ⟨m, fun _ => 0, ρ⟩ (fun r => ∀ c : Dev nD,
      r.2.mem ((c.tc : Thread nD τ).loc main_v4)
        = Cert.Spec.conv (n := 16384) (e := 8192) (k := 256) (f := 128) (Ideal.ofBits .f32 0x3F000000#32)
            (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (result_conv m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all (F := Ideal) m ρ)

end Cert.KernelIdeal.Val

end
-- ==== Proof.RefValue.lean ====
/-
  The reference side of the value claim, at the ideal values (a float an extended real, every operation exact).

  The reference program is thirteen host operations. Read at an entry (r, q) of its result they are, in order:
    * v0  = x · w                      the projected features: the sum over j of x (r, j) * w (j, q)          (projY);
    * v1  = mt · v0                    the node-to-edge aggregation: the sum over r of mt (p, r) * v0 (r, q);
    * v2, v3                           the edge degrees dv set as a column and laid over the columns: dv p at (p, q);
    * v4  = v3 * v1                    dv p times the aggregation, the degree the LEFT factor                 (edgeE);
    * v5  = the transpose of mt        its entry (r, p) is mt (p, r);
    * v6  = v5 · v4                    the edge-to-node aggregation: the sum over p of mt (p, r) * v4 (p, q)  (prodCol);
    * v7                               the node degrees de set as a column: de r at (r, 0);
    * cst, v8                          the constant one half, laid over that column;
    * v9  = v8 * v7                    one half times de r, the constant the LEFT factor;
    * v10                              that column laid over the columns: (1/2 * de r) at (r, q);
    * v11 = v10 * v6                   the scaled aggregation, the scale the LEFT factor                       (nodeN).
  Every product stands in the order the specification multiplies, so the two meet entry by entry with no law of the
  extended reals: only the reading of each operation at an index and the equations between the indices it reads.
  The constant one half is kept as the extended real its bit pattern denotes and is never evaluated.
-/
import proofs.«114685_j41644002902021_1_alg».proof.Proof.Gen.ReferenceIdeal.Read
import proofs.«114685_j41644002902021_1_alg».proof.Proof.Spec
import Idealize.ShloMosaic.Lib.ValueIdx
import Idealize.ShloMosaic.PureOps.Ideal

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx
open Cert.DenseLayer (Mat prodRow)
open Cert.Spec

/-! ## The indices the operations read, at the entry (r, q) -/

/-- The first product reads its left operand at (r, k). -/
theorem lidx0 (r : Fin 16384) (q : Fin 128) (k : Fin 256) : lidx_main_v0 (ix2 r q) k = ix2 r k :=
  funext fun a => match a with
    | ⟨0, _⟩ => rfl
    | ⟨1, _⟩ => rfl
/-- The first product reads its right operand at (k, q). -/
theorem ridx0 (r : Fin 16384) (q : Fin 128) (k : Fin 256) : ridx_main_v0 (ix2 r q) k = ix2 k q :=
  funext fun a => match a with
    | ⟨0, _⟩ => rfl
    | ⟨1, _⟩ => rfl
/-- The second product reads its left operand at (p, k). -/
theorem lidx1 (p : Fin 8192) (q : Fin 128) (k : Fin 16384) : lidx_main_v1 (ix2 p q) k = ix2 p k :=
  funext fun a => match a with
    | ⟨0, _⟩ => rfl
    | ⟨1, _⟩ => rfl
/-- The second product reads its right operand at (k, q). -/
theorem ridx1 (p : Fin 8192) (q : Fin 128) (k : Fin 16384) : ridx_main_v1 (ix2 p q) k = ix2 k q :=
  funext fun a => match a with
    | ⟨0, _⟩ => rfl
    | ⟨1, _⟩ => rfl
/-- The edge degrees, set as a column and laid over the columns, are read at p whatever the column. -/
theorem idx23 (p : Fin 8192) (q : Fin 128) : idx_main_v2 (idx_main_v3 (ix2 p q)) = ix1 p :=
  funext fun a => match a with
    | ⟨0, _⟩ => rfl
/-- The third product reads the transpose at (r, k), which is the incidence matrix at (k, r). -/
theorem idx5_lidx6 (r : Fin 16384) (q : Fin 128) (k : Fin 8192) : idx_main_v5 (lidx_main_v6 (ix2 r q) k) = ix2 k r :=
  funext fun a => match a with
    | ⟨0, _⟩ => rfl
    | ⟨1, _⟩ => rfl
/-- The third product reads its right operand at (k, q). -/
theorem ridx6 (r : Fin 16384) (q : Fin 128) (k : Fin 8192) : ridx_main_v6 (ix2 r q) k = ix2 k q :=
  funext fun a => match a with
    | ⟨0, _⟩ => rfl
    | ⟨1, _⟩ => rfl
/-- The node degrees, set as a column and laid over the columns, are read at r whatever the column. -/
theorem idx710 (r : Fin 16384) (q : Fin 128) : idx_main_v7 (idx_main_v10 (ix2 r q)) = ix1 r :=
  funext fun a => match a with
    | ⟨0, _⟩ => rfl

/-! ## The stages, entry by entry -/

/-- v0 is the projected features: the sum over j of x (r, j) * w (j, q). -/
theorem v0_apply (x : FVec Ideal S16384x256 .f32) (w : FVec Ideal S256x128 .f32) (r : Fin 16384) (q : Fin 128) :
    val_main_v0 (F := Ideal) x w (ix2 r q) = projY x w (ix2 r q) := by
  rw [val_main_v0_apply, projY_apply]
  exact Finset.sum_congr rfl fun k _ => by rw [lidx0, ridx0]

/-- v4 is the edge features: the edge degree dv p times the sum over r of mt (p, r) * v0 (r, q). -/
theorem v4_apply (x : FVec Ideal S16384x256 .f32) (w : FVec Ideal S256x128 .f32) (mt : FVec Ideal S8192x16384 .f32)
    (dv : FVec Ideal S8192 .f32) (p : Fin 8192) (q : Fin 128) :
    val_main_v4 (F := Ideal) x w mt dv (ix2 p q) = edgeE mt (projY x w) dv (ix2 p q) := by
  rw [val_main_v4_apply, val_main_v3_apply, val_main_v2_apply, idx23, val_main_v1_apply, edgeE_apply, Ideal.mulf_def]
  refine congrArg (dv (ix1 p) * ·) ?_
  exact Finset.sum_congr rfl fun k _ => by rw [lidx1, ridx1, v0_apply]

/-- v6 is the product with the transposed incidence matrix: the sum over p of mt (p, r) * v4 (p, q). -/
theorem v6_apply (x : FVec Ideal S16384x256 .f32) (w : FVec Ideal S256x128 .f32) (mt : FVec Ideal S8192x16384 .f32)
    (dv : FVec Ideal S8192 .f32) (r : Fin 16384) (q : Fin 128) :
    val_main_v6 (F := Ideal) x w mt dv (ix2 r q) = prodCol mt (edgeE mt (projY x w) dv) r q := by
  rw [val_main_v6_apply]
  exact Finset.sum_congr rfl fun k _ => by rw [val_main_v5_apply, idx5_lidx6, ridx6, v4_apply]

/-- v10 is one half times the node degree de r, the constant on the left, whatever the column. -/
theorem v10_apply (de : FVec Ideal S16384 .f32) (r : Fin 16384) (q : Fin 128) :
    val_main_v10 (F := Ideal) de (ix2 r q) = Ideal.ofBits .f32 0x3F000000#32 * de (ix1 r) := by
  rw [val_main_v10_apply, val_main_v9_apply, val_main_v8_apply, val_main_cst_apply, val_main_v7_apply, idx710,
    Ideal.mulf_def, Ideal.ofBits_def]

/-! ## The whole term -/

/-- The reference run's result term, at the ideal values, is the convolution of the specification: at the entry
    (r, q) both are (1/2 * de r) * the sum over p of mt (p, r) * (dv p * the sum over r' of mt (p, r') * (x · w) (r', q)). -/
theorem result_eq (x : FVec Ideal S16384x256 .f32) (w : FVec Ideal S256x128 .f32) (mt : FVec Ideal S8192x16384 .f32)
    (dv : FVec Ideal S8192 .f32) (de : FVec Ideal S16384 .f32) :
    mulf (broadcastInDim S16384x128 ![0, 1] bcast_S16384x1_S16384x128_0_1 (mulf (broadcastInDim S16384x1 ![] bcast_S_S16384x1 (constant S_ .f32 0x3F000000#32)) (broadcastInDim S16384x1 ![0] bcast_S16384_S16384x1_0 (de)))) (Host.dotGeneral dot_S16384x8192_S8192x128_S16384x128_1_0_0_1_n_n none (transpose S16384x8192 [1, 0] (mt) transposes_S8192x16384_S16384x8192_1_0) (mulf (broadcastInDim S8192x128 ![0, 1] bcast_S8192x1_S8192x128_0_1 (broadcastInDim S8192x1 ![0] bcast_S8192_S8192x1_0 (dv))) (Host.dotGeneral dot_S8192x16384_S16384x128_S8192x128_1_0_0_1_n_n none (mt) (Host.dotGeneral dot_S16384x256_S256x128_S16384x128_1_0_0_1_n_n none (x) (w)))))
      = conv (n := 16384) (e := 8192) (k := 256) (f := 128) (Ideal.ofBits .f32 0x3F000000#32) x w mt dv de := by
  rw [val_main_v11_eq (F := Ideal) x w mt dv de]
  funext i
  obtain ⟨r, q, rfl⟩ : ∃ r q, i = ix2 r q := ⟨i 0, i 1, eq_ix2 i⟩
  rw [val_main_v11_apply, v10_apply, v6_apply, Ideal.mulf_def]
  rfl

/-- Every weakly fair execution of the reference ends with its result at the convolution of the arguments, the
    arguments unchanged. -/
theorem run_conv (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v11)
          = Cert.Spec.conv (n := 16384) (e := 8192) (k := 256) (f := 128) (Ideal.ofBits .f32 0x3F000000#32)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono (fun _ h c => ⟨(h c).1.trans (result_eq _ _ _ _ _), (h c).2⟩)
    (Cert.ReferenceIdeal.Value.run (F := Ideal) m ρ)

end Cert.ReferenceIdeal.RefValue

end
-- ==== Proof.lean ====
/-
  The certificate of a hypergraph convolution kernel against its reference: with x the node features, w the
  projection, MT the edge-by-node incidence matrix, dv the edge degrees and de the node degrees,

      Y = x · w,     E = dv ∗ (MT · Y),     N = (1/2 · de) ∗ (MTᵀ · E),

  each degree vector scaling rows. The kernel computes Y, E and N in three pipelined regions. The first stores each
  block of 2048 rows of Y as one matrix product. The second and the third take their sum over 16384 nodes, and over
  8192 edges, 2048 at a time into an accumulator cleared at the first step, and scale and store a block of rows
  at the last step. The reference spells the same three products whole.

  On the extended reals the two agree entry by entry with no condition on the inputs: the factors of every product
  stand in the same order in both programs, the constant one half is the same bit pattern on both sides, and a sum
  taken block by block from zero is the whole sum, addition being commutative and associative there.

  * The two kernel frames come from the run of the three regions as segments of the program, region 0's body proved
    once, regions 1 and 2 by cases on where the point is in its run of steps, with the accumulator's contents after
    each point carried in the region's invariant. That run names every unscoped buffer at the end, so the same run
    gives the value.
  * The reference's frame is its run with the result dropped.
  * The idealization rewrote nothing: there is nothing to preserve.
  * The value: the last region's output array is the node features of what it found, which is the edge features of
    what the second region found, which is the projection of the arguments; the reference's run ends at the same
    function of arguments that agree.
-/
import proofs.«114685_j41644002902021_1_alg».proof.Defs
import proofs.«114685_j41644002902021_1_alg».proof.Proof.Gen.Kernel
import proofs.«114685_j41644002902021_1_alg».proof.Proof.Gen.KernelIdeal
import proofs.«114685_j41644002902021_1_alg».proof.Proof.Gen.ReferenceIdeal
import proofs.«114685_j41644002902021_1_alg».proof.Proof.Gen.Pre_finite_inputs
import proofs.«114685_j41644002902021_1_alg».proof.Proof.KLaunch3
import proofs.«114685_j41644002902021_1_alg».proof.Proof.Chain
import proofs.«114685_j41644002902021_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_k : Cert.frame_Kernel (hKernel := Cert.Kernel.Gen.facts) (hPre_finite_inputs := Cert.Pre_finite_inputs.Gen.facts) :=
  fun m ρ _ => Cert.Kernel.Fr.frame (F := Bits) m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the convolution of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.conv (n := 16384) (e := 8192) (k := 256) (f := 128) (Ideal.ofBits .f32 0x3F000000#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact Cert.KernelIdeal.Val.run_conv m ρ
  · refine (θ_run Cert.ReferenceIdeal.defs _ _).mono (fun _ h c => ⟨(h c).1.trans ?_, (h c).2⟩)
      (Cert.ReferenceIdeal.RefValue.run_conv m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
